-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024x4096 : Shape := ⟨2, ![1024, 4096]⟩
abbrev S2048x16 : Shape := ⟨2, ![2048, 16]⟩
abbrev S2048x65536 : Shape := ⟨2, ![2048, 65536]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : IVec S1024x4096 32) (main_arg1 : IVec S2048x16 32) (main_arg2 : IVec S2048x65536 32) : IVec S_ 1 :=
  let main_c : IVec S_ 32 := constantI S_ 32 0#32
  let main_v0 : IVec S1024x4096 32 := broadcastInDim S1024x4096 ![] bcast_S_S1024x4096 main_c
  let main_v1 : IVec S1024x4096 1 := cmpi .sge main_arg0 main_v0
  let main_c_0 : IVec S_ 32 := constantI S_ 32 1#32
  let main_v2 : IVec S1024x4096 32 := broadcastInDim S1024x4096 ![] bcast_S_S1024x4096 main_c_0
  let main_v3 : IVec S1024x4096 1 := cmpi .sle main_arg0 main_v2
  let main_v4 : IVec S1024x4096 1 := andi main_v1 main_v3
  let main_c_1 : IVec S_ 1 := constantI S_ 1 1#1
  let main_v5 : IVec S_ 1 := (fun x v => Host.reduce IntOp.andi x v reducesTo_S1024x4096_S_d0_1 h_S_) main_v4 main_c_1
  let main_c_2 : IVec S_ 32 := constantI S_ 32 0#32
  let main_v6 : IVec S2048x16 32 := broadcastInDim S2048x16 ![] bcast_S_S2048x16 main_c_2
  let main_v7 : IVec S2048x16 1 := cmpi .sge main_arg1 main_v6
  let main_c_3 : IVec S_ 32 := constantI S_ 32 4096#32
  let main_v8 : IVec S2048x16 32 := broadcastInDim S2048x16 ![] bcast_S_S2048x16 main_c_3
  let main_v9 : IVec S2048x16 1 := cmpi .slt main_arg1 main_v8
  let main_v10 : IVec S2048x16 1 := andi main_v7 main_v9
  let main_c_4 : IVec S_ 1 := constantI S_ 1 1#1
  let main_v11 : IVec S_ 1 := (fun x v => Host.reduce IntOp.andi x v reducesTo_S2048x16_S_d0_1 h_S_) main_v10 main_c_4
  let main_v12 : IVec S_ 1 := andi main_v5 main_v11
  main_v12
-- ==== Kernel.lean ====
abbrev S1024x4096 : Shape := ⟨2, ![1024, 4096]⟩
abbrev S2048x16 : Shape := ⟨2, ![2048, 16]⟩
abbrev S2048x65536 : Shape := ⟨2, ![2048, 65536]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S4096x2048 : Shape := ⟨2, ![4096, 2048]⟩
abbrev S2048x16x1 : Shape := ⟨3, ![2048, 16, 1]⟩
abbrev S2048x16x2 : Shape := ⟨3, ![2048, 16, 2]⟩
abbrev S1024x2048 : Shape := ⟨2, ![1024, 2048]⟩
abbrev S1024x512 : Shape := ⟨2, ![1024, 512]⟩
abbrev S512x256 : Shape := ⟨2, ![512, 256]⟩
abbrev S1024x256 : Shape := ⟨2, ![1024, 256]⟩
abbrev S2048x1024 : Shape := ⟨2, ![2048, 1024]⟩
abbrev S2048x256x256 : Shape := ⟨3, ![2048, 256, 256]⟩
abbrev S8x1024 : Shape := ⟨2, ![8, 1024]⟩
abbrev S8x256x256 : Shape := ⟨3, ![8, 256, 256]⟩
abbrev S8x256 : Shape := ⟨2, ![8, 256]⟩
abbrev S8x256x1 : Shape := ⟨3, ![8, 256, 1]⟩

abbrev nBuf : Space → Nat
  | .hbm => 52
  | .vmem => 16
  | .smem => 0
  | _ => 0

abbrev bufTy : (tb : Table) → Fin (tcTables nBuf tb) → BufTy
  | .hbm, ⟨0, _⟩ => ⟨S1024x4096, .i32⟩
  | .hbm, ⟨1, _⟩ => ⟨S2048x16, .i32⟩
  | .hbm, ⟨2, _⟩ => ⟨S2048x65536, .i32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S16, .f32⟩
  | .hbm, ⟨8, _⟩ => ⟨S2048, .i32⟩
  | .hbm, ⟨9, _⟩ => ⟨S2048x1, .i32⟩
  | .hbm, ⟨10, _⟩ => ⟨S2048x16, .i32⟩
  | .hbm, ⟨11, _⟩ => ⟨S1x16, .f32⟩
  | .hbm, ⟨12, _⟩ => ⟨S2048x16, .f32⟩
  | .hbm, ⟨13, _⟩ => ⟨S_, .f32⟩
  | .hbm, ⟨14, _⟩ => ⟨S4096x2048, .f32⟩
  | .hbm, ⟨15, _⟩ => ⟨S_, .i32⟩
  | .hbm, ⟨16, _⟩ => ⟨S2048x16, .i32⟩
  | .hbm, ⟨17, _⟩ => ⟨S2048x16, .i1⟩
  | .hbm, ⟨18, _⟩ => ⟨S_, .i32⟩
  | .hbm, ⟨19, _⟩ => ⟨S2048x16, .i32⟩
  | .hbm, ⟨20, _⟩ => ⟨S2048x16, .i32⟩
  | .hbm, ⟨21, _⟩ => ⟨S2048x16, .i32⟩
  | .hbm, ⟨22, _⟩ => ⟨S_, .i32⟩
  | .hbm, ⟨23, _⟩ => ⟨S2048x16, .i32⟩
  | .hbm, ⟨24, _⟩ => ⟨S2048x16, .i1⟩
  | .hbm, ⟨25, _⟩ => ⟨S_, .i32⟩
  | .hbm, ⟨26, _⟩ => ⟨S2048x16, .i32⟩
  | .hbm, ⟨27, _⟩ => ⟨S2048x16, .i32⟩
  | .hbm, ⟨28, _⟩ => ⟨S2048x16, .i32⟩
  | .hbm, ⟨29, _⟩ => ⟨S2048x16x1, .i32⟩
  | .hbm, ⟨30, _⟩ => ⟨S2048x16x1, .i32⟩
  | .hbm, ⟨31, _⟩ => ⟨S2048x16x2, .i32⟩
  | .hbm, ⟨32, _⟩ => ⟨S4096x2048, .f32⟩
  | .hbm, ⟨33, _⟩ => ⟨S4096x2048, .i32⟩
  | .hbm, ⟨34, _⟩ => ⟨S_, .i32⟩
  | .hbm, ⟨35, _⟩ => ⟨S4096x2048, .i32⟩
  | .hbm, ⟨36, _⟩ => ⟨S4096x2048, .i32⟩
  | .hbm, ⟨37, _⟩ => ⟨S4096x2048, .bf16⟩
  | .hbm, ⟨38, _⟩ => ⟨S_, .i32⟩
  | .hbm, ⟨39, _⟩ => ⟨S4096x2048, .i32⟩
  | .hbm, ⟨40, _⟩ => ⟨S4096x2048, .i32⟩
  | .hbm, ⟨41, _⟩ => ⟨S4096x2048, .bf16⟩
  | .hbm, ⟨42, _⟩ => ⟨S1024x4096, .bf16⟩
  | .hbm, ⟨43, _⟩ => ⟨S1024x2048, .i32⟩
  | .hbm, ⟨44, _⟩ => ⟨S2048x1024, .i32⟩
  | .hbm, ⟨45, _⟩ => ⟨S2048x256x256, .i32⟩
  | .hbm, ⟨46, _⟩ => ⟨S2048x1024, .i32⟩
  | .hbm, ⟨47, _⟩ => ⟨S1024x2048, .i32⟩
  | .hbm, ⟨48, _⟩ => ⟨S_, .i32⟩
  | .hbm, ⟨49, _⟩ => ⟨S1024x2048, .i32⟩
  | .hbm, ⟨50, _⟩ => ⟨S1024x2048, .i1⟩
  | .hbm, ⟨51, _⟩ => ⟨S1024x2048, .i1⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S1024x256, .i32⟩
  | .local _ .vmem, ⟨7, _⟩ => ⟨S1024x256, .i32⟩
  | .local _ .vmem, ⟨8, _⟩ => ⟨S1024x256, .f32⟩
  | .local _ .vmem, ⟨9, _⟩ => ⟨S1024x256, .f32⟩
  | .local _ .vmem, ⟨10, _⟩ => ⟨S8x1024, .i32⟩
  | .local _ .vmem, ⟨11, _⟩ => ⟨S8x1024, .i32⟩
  | .local _ .vmem, ⟨12, _⟩ => ⟨S8x256x256, .i32⟩
  | .local _ .vmem, ⟨13, _⟩ => ⟨S8x256x256, .i32⟩
  | .local _ .vmem, ⟨14, _⟩ => ⟨S8x1024, .i32⟩
  | .local _ .vmem, ⟨15, _⟩ => ⟨S8x1024, .i32⟩
  | _, _ => ⟨S1024x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![256], ![false]⟩

@[reducible] def k1_t1_loop : Scf.Loop 32 :=
  let c0_i32 : BitVec 32 := 0#32
  let c4_i32 : BitVec 32 := 4#32
  let v5 : BitVec 32 := Scalar.addi c0_i32 c4_i32
  let c1_i32_2 : BitVec 32 := 1#32
  ⟨c0_i32, v5, c1_i32_2⟩
def k1_mult1 (k1_t1 : Fin k1_t1_loop.trips) : BitVec 32 :=
  let c0_i32 : BitVec 32 := 0#32
  let c1_i32_2 : BitVec 32 := 1#32
  let arg4 : BitVec 32 := Scf.iv c0_i32 c1_i32_2 k1_t1
  let c256_i32 : BitVec 32 := 256#32
  let v6 : BitVec 32 := Scalar.muli arg4 c256_i32
  v6
def k1_off1 (k1_t1 : Fin k1_t1_loop.trips) : Fin 2 → Nat :=
  let c0_4 : Index := 0#32
  let c0_i32 : BitVec 32 := 0#32
  let c1_i32_2 : BitVec 32 := 1#32
  let arg4 : BitVec 32 := Scf.iv c0_i32 c1_i32_2 k1_t1
  let c256_i32 : BitVec 32 := 256#32
  let v6 : BitVec 32 := Scalar.muli arg4 c256_i32
  let v7 : BitVec 32 := v6
  let v8 : Index := Scalar.indexCast v7
  ![0, v8.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S16 : S_.BroadcastsInDim S16 (![] : Fin 0 → Fin S16.rank)
  bcast_S2048_S2048x1_0 : S2048.BroadcastsInDim S2048x1 (![0] : Fin 1 → Fin S2048x1.rank)
  bcast_S2048x1_S2048x16_0_1 : S2048x1.BroadcastsInDim S2048x16 (![0, 1] : Fin 2 → Fin S2048x16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S_S4096x2048 : S_.BroadcastsInDim S4096x2048 (![] : Fin 0 → Fin S4096x2048.rank)
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  concatenates_S2048x16x1_S2048x16x1_S2048x16x2_d2 : Shape.Concatenates [S2048x16x1, S2048x16x1] S2048x16x2 2
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S1024x2048_S2048x1024_1_0 : S1024x2048.Transposes [1, 0] S2048x1024
  shapeCasts_S2048x65536_S2048x256x256 : S2048x65536.ShapeCasts S2048x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  h_S8x256 : 0 < S8x256.numel
  shapeCasts_S8x256_S8x256 : S8x256.ShapeCasts S8x256
  iota_S8x256x256_d2_w32 : S8x256x256.Iotas .tc 32 [2]
  shapeCasts_S8x256_S8x256x1 : S8x256.ShapeCasts S8x256x1
  broadcasts_S8x256x1_S8x256x256 : S8x256x1.Broadcasts S8x256x256
  natLt_1_32 : 1 < 32
  bitsLt_bf16_f32 : FTy.bits .bf16 < FTy.bits .f32
  reduces_S8x256x256_S8x256 : S8x256x256.Reduces [2] S8x256
  transposes_S2048x1024_S1024x2048_1_0 : S2048x1024.Transposes [1, 0] S1024x2048
  bcast_S_S1024x2048 : S_.BroadcastsInDim S1024x2048 (![] : Fin 0 → Fin S1024x2048.rank)
  scatter_S4096x2048_S2048x16x2_S2048x16_n_01_01_2_wf : ScatterDims.WF S4096x2048 S2048x16x2 S2048x16 [] [0, 1] [0, 1] 2
  dot_S1024x512_S512x256_S1024x256_1_0_0_1_n_n_wf : DotDims.WF S1024x512 S512x256 S1024x256 [1] [0] [0] [1] [] []
  dot_S8x256x256_S8x256x256_S8x256x256_2_1_1_2_0_0_wf : DotDims.WF S8x256x256 S8x256x256 S8x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .bf16 = 32 ∨ (Rect.block (s := S1024x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x2048.size a
  hwx0_1 : ∀ i : grid0.Coords, EltTy.bits .bf16 = 32 ∨ (Rect.block (s := S4096x2048) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .bf16 = 32 ∨ (Rect.block (s := S4096x2048) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x2048.size a
  hwx0_3 : ∀ i : grid0.Coords, EltTy.bits .i32 = 32 ∨ (Rect.block (s := S1024x2048) S1024x256.size (cc0_transform_3 i) (hinb0_3 i)).WholeWords (EltTy.packing .i32)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S8x256.size a ≤ S8x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024.size a ≤ S2048x1024.size a
  hwx1_0 : ∀ i : grid1.Coords, EltTy.bits .i32 = 32 ∨ (Rect.block (s := S2048x1024) S8x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x256.size a ≤ S2048x256x256.size a
  hwx1_1 : ∀ i : grid1.Coords, EltTy.bits .i32 = 32 ∨ (Rect.block (s := S2048x256x256) S8x256x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S2048x1024.size a
  hwx1_2 : ∀ i : grid1.Coords, EltTy.bits .i32 = 32 ∨ (Rect.block (s := S2048x1024) S8x1024.size (cc1_transform_2 i) (hinb1_2 i)).WholeWords (EltTy.packing .i32)

variable [Facts₀]

def scatter_S4096x2048_S2048x16x2_S2048x16_n_01_01_2 : ScatterDims S4096x2048 S2048x16x2 S2048x16 where
  updateWindowDims := []
  insertedWindowDims := [0, 1]
  scatterDimsToOperandDims := [0, 1]
  indexVectorDim := 2
  wf := scatter_S4096x2048_S2048x16x2_S2048x16_n_01_01_2_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf

abbrev win0_0 : Pipeline.Window sig grid0 :=
  Pipeline.Window.ofSpec (Memref.whole main_v31) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v33) S8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S8x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S8x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x4096 : Shape := ⟨2, ![1024, 4096]⟩
abbrev S2048x16 : Shape := ⟨2, ![2048, 16]⟩
abbrev S2048x65536 : Shape := ⟨2, ![2048, 65536]⟩
abbrev S_ : Shape := ⟨0, ![]⟩
abbrev S2048x16x1 : Shape := ⟨3, ![2048, 16, 1]⟩
abbrev S1024x2048x16 : Shape := ⟨3, ![1024, 2048, 16]⟩
abbrev S16 : Shape := ⟨1, ![16]⟩
abbrev S1x1x16 : Shape := ⟨3, ![1, 1, 16]⟩
abbrev S1024x2048 : Shape := ⟨2, ![1024, 2048]⟩
abbrev S2048 : Shape := ⟨1, ![2048]⟩
abbrev S1x2048 : Shape := ⟨2, ![1, 2048]⟩
abbrev S1024x2048x1 : Shape := ⟨3, ![1024, 2048, 1]⟩
abbrev S1024x2048x2 : Shape := ⟨3, ![1024, 2048, 2]⟩

abbrev nBuf : Space → Nat
  | .hbm => 49
  | .vmem => 0
  | .smem => 0
  | _ => 0

abbrev bufTy : (tb : Table) → Fin (tcTables nBuf tb) → BufTy
  | .hbm, ⟨0, _⟩ => ⟨S1024x4096, .i32⟩
  | .hbm, ⟨1, _⟩ => ⟨S2048x16, .i32⟩
  | .hbm, ⟨2, _⟩ => ⟨S2048x65536, .i32⟩
  | .hbm, ⟨3, _⟩ => ⟨S_, .i32⟩
  | .hbm, ⟨4, _⟩ => ⟨S2048x16, .i32⟩
  | .hbm, ⟨5, _⟩ => ⟨S2048x16, .i1⟩
  | .hbm, ⟨6, _⟩ => ⟨S_, .i32⟩
  | .hbm, ⟨7, _⟩ => ⟨S2048x16, .i32⟩
  | .hbm, ⟨8, _⟩ => ⟨S2048x16, .i32⟩
  | .hbm, ⟨9, _⟩ => ⟨S2048x16, .i32⟩
  | .hbm, ⟨10, _⟩ => ⟨S2048x16x1, .i32⟩
  | .hbm, ⟨11, _⟩ => ⟨S1024x2048x16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S1x1x16, .i32⟩
  | .hbm, ⟨17, _⟩ => ⟨S1024x2048x16, .i32⟩
  | .hbm, ⟨18, _⟩ => ⟨S1024x2048x16, .i32⟩
  | .hbm, ⟨19, _⟩ => ⟨S_, .i32⟩
  | .hbm, ⟨20, _⟩ => ⟨S1024x2048, .i32⟩
  | .hbm, ⟨21, _⟩ => ⟨S2048, .i32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S_, .i32⟩
  | .hbm, ⟨27, _⟩ => ⟨S1x2048, .i32⟩
  | .hbm, ⟨28, _⟩ => ⟨S1x2048, .i32⟩
  | .hbm, ⟨29, _⟩ => ⟨S1x2048, .i32⟩
  | .hbm, ⟨30, _⟩ => ⟨S_, .i32⟩
  | .hbm, ⟨31, _⟩ => ⟨S1024x2048, .i32⟩
  | .hbm, ⟨32, _⟩ => ⟨S1024x2048, .i1⟩
  | .hbm, ⟨33, _⟩ => ⟨S_, .i32⟩
  | .hbm, ⟨34, _⟩ => ⟨S1024x2048, .i32⟩
  | .hbm, ⟨35, _⟩ => ⟨S1024x2048, .i32⟩
  | .hbm, ⟨36, _⟩ => ⟨S1024x2048, .i32⟩
  | .hbm, ⟨37, _⟩ => ⟨S1024x2048, .i32⟩
  | .hbm, ⟨38, _⟩ => ⟨S1024x2048x1, .i32⟩
  | .hbm, ⟨39, _⟩ => ⟨S1024x2048x1, .i32⟩
  | .hbm, ⟨40, _⟩ => ⟨S1024x2048x2, .i32⟩
  | .hbm, ⟨41, _⟩ => ⟨S1024x2048, .i32⟩
  | .hbm, ⟨42, _⟩ => ⟨S_, .i32⟩
  | .hbm, ⟨43, _⟩ => ⟨S1024x2048, .i32⟩
  | .hbm, ⟨44, _⟩ => ⟨S1024x2048, .i32⟩
  | .hbm, ⟨45, _⟩ => ⟨S_, .i32⟩
  | .hbm, ⟨46, _⟩ => ⟨S1024x2048, .i32⟩
  | .hbm, ⟨47, _⟩ => ⟨S1024x2048, .i1⟩
  | .hbm, ⟨48, _⟩ => ⟨S1024x2048, .i1⟩
  | _, _ => ⟨S1024x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_c_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  bcast_S_S16 : S_.BroadcastsInDim S16 (![] : Fin 0 → Fin S16.rank)
  bcast_S16_S1x1x16_2 : S16.BroadcastsInDim S1x1x16 (![2] : Fin 1 → Fin S1x1x16.rank)
  bcast_S1x1x16_S1024x2048x16_0_1_2 : S1x1x16.BroadcastsInDim S1024x2048x16 (![0, 1, 2] : Fin 3 → Fin S1024x2048x16.rank)
  reducesTo_S1024x2048x16_S1024x2048_d2 : S1024x2048x16.ReducesTo [2] S1024x2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S_S1024x2048 : S_.BroadcastsInDim S1024x2048 (![] : Fin 0 → Fin S1024x2048.rank)
  bcast_S1x2048_S1024x2048_0_1 : S1x2048.BroadcastsInDim S1024x2048 (![0, 1] : Fin 2 → Fin S1024x2048.rank)
  bcast_S1024x2048_S1024x2048x1_0_1 : S1024x2048.BroadcastsInDim S1024x2048x1 (![0, 1] : Fin 2 → Fin S1024x2048x1.rank)
  concatenates_S1024x2048x1_S1024x2048x1_S1024x2048x2_d2 : Shape.Concatenates [S1024x2048x1, S1024x2048x1] S1024x2048x2 2
  gather_S1024x4096_S2048x16x1_S1024x2048x16_0_1_n_n_1_2_10241_wf : GatherDims.WF S1024x4096 S2048x16x1 S1024x2048x16 [0] [1] [] [1] [] 2 ![1024, 1]
  gather_S2048x65536_S1024x2048x2_S1024x2048_n_01_n_n_01_2_11_wf : GatherDims.WF S2048x65536 S1024x2048x2 S1024x2048 [] [0, 1] [] [0, 1] [] 2 ![1, 1]

variable [Facts₀]

def gather_S1024x4096_S2048x16x1_S1024x2048x16_0_1_n_n_1_2_10241 : GatherDims S1024x4096 S2048x16x1 S1024x2048x16 where
  offsetDims := [0]
  collapsedSliceDims := [1]
  operandBatchingDims := []
  startIndicesBatchingDims := []
  startIndexMap := [1]
  indexVectorDim := 2
  sliceSizes := ![1024, 1]
  wf := gather_S1024x4096_S2048x16x1_S1024x2048x16_0_1_n_n_1_2_10241_wf
def gather_S2048x65536_S1024x2048x2_S1024x2048_n_01_n_n_01_2_11 : GatherDims S2048x65536 S1024x2048x2 S1024x2048 where
  offsetDims := []
  collapsedSliceDims := [0, 1]
  operandBatchingDims := []
  startIndicesBatchingDims := []
  startIndexMap := [0, 1]
  indexVectorDim := 2
  sliceSizes := ![1, 1]
  wf := gather_S2048x65536_S1024x2048x2_S1024x2048_n_01_n_n_01_2_11_wf

class Facts : Prop extends Facts₀ where

variable [Facts]
-- ==== Proof.K.Spec.lean ====
import proofs.«419280_j21818433864468_2_alg».proof.Proof.Gen.Kernel.Skeleton
import Idealize.ShloMosaic.Lib.ValueIdx

/-!
# What the two kernel regions compute, as whole-array functions

Region 0 multiplies the 1024×4096 bit matrix with the low and the high byte plane of the 4096×2048 weight table,
512 rows of the table at a time (eight steps per column block of 256 neurons), and at the last step
writes `round(lo) + 256·round(hi)` as an integer: the address of each (sample, neuron). Region 1 reads,
for eight neurons at a time and 256 samples per trip, the least significant bit of the memory word at that address
through two one-hot selections. The definitions below spell both results over the body's own arithmetic
(the generated payload terms), at any float instance; the arithmetic specification over the naturals follows.
-/

set_option synthInstance.maxSize 4096

noncomputable section

open scoped BigOperators

namespace Cert.Kernel.Spec

open Idealize.ShloMosaic Idealize.SL.Sem Idealize.ShloMosaic.ValueIdx
open Cert.Kernel Cert.Kernel.Gen

variable {F : FTy → Type} [FloatOps F]

/-! ## Region 0: the address matmul, accumulated over eight row blocks of the weight table -/

/-- Columns `512·k … 512·k + 511` of the bit matrix. -/
def xblk (x : Vec F S1024x4096 .bf16) (k : Fin 8) : Vec F S1024x512 .bf16 :=
  fun j => x (ix2 (n0 := 1024) (n1 := 4096) ⟨(j 0).val, idx2_lt0 j⟩
    ⟨512 * k.val + (j 1).val, by have := idx2_lt1 j; have := k.isLt; omega⟩)

/-- Rows `512·k …` and columns `256·i …` of a byte plane of the weight table. -/
def wblk (w : Vec F S4096x2048 .bf16) (k i : Fin 8) : Vec F S512x256 .bf16 :=
  fun j => w (ix2 (n0 := 4096) (n1 := 2048)
    ⟨512 * k.val + (j 0).val, by have := idx2_lt0 j; have := k.isLt; omega⟩
    ⟨256 * i.val + (j 1).val, by have := idx2_lt1 j; have := i.isLt; omega⟩)

/-- The low-plane accumulator of column block `i` after `k` row blocks: zero, then one matmul added per block. -/
def accLo (x : Vec F S1024x4096 .bf16) (w : Vec F S4096x2048 .bf16) (i : Fin 8) : ℕ → Vec F S1024x256 .f32
  | 0 => k0_pay1
  | k + 1 => if h : k < 8 then k0_pay3 (accLo x w i k) (xblk x ⟨k, h⟩) (wblk w ⟨k, h⟩ i) else accLo x w i k

/-- The high-plane accumulator, likewise. -/
def accHi (x : Vec F S1024x4096 .bf16) (w : Vec F S4096x2048 .bf16) (i : Fin 8) : ℕ → Vec F S1024x256 .f32
  | 0 => k0_pay2
  | k + 1 => if h : k < 8 then k0_pay4 (accHi x w i k) (xblk x ⟨k, h⟩) (wblk w ⟨k, h⟩ i) else accHi x w i k

/-- Region 0's result array: at (sample, neuron) the last step's word of the neuron's column block. -/
def addrArr (x : Vec F S1024x4096 .bf16) (wlo whi : Vec F S4096x2048 .bf16) : IVec S1024x2048 32 :=
  fun j => k0_pay5
    (accLo x wlo ⟨(j 1).val / 256, by have := idx2_lt1 j; omega⟩ 8)
    (accHi x whi ⟨(j 1).val / 256, by have := idx2_lt1 j; omega⟩ 8)
    (ix2 (n0 := 1024) (n1 := 256) ⟨(j 0).val, idx2_lt0 j⟩ ⟨(j 1).val % 256, Nat.mod_lt _ (by decide)⟩)

/-! ## Region 1: the two-level one-hot lookup, eight neurons per grid point, 256 samples per trip -/

/-- Neurons `8·t … 8·t + 7` of the memory table read as 256 × 256 words each. -/
def memblk (mem : Vec F S2048x256x256 .i32) (t : Fin 256) : Vec F S8x256x256 .i32 :=
  fun j => mem (ix3 (n0 := 2048) (n1 := 256) (n2 := 256)
    ⟨8 * t.val + (j 0).val, by have h : (j 0).val < 8 := (j 0).isLt; have := t.isLt; omega⟩
    ⟨(j 1).val, (j 1).isLt⟩ ⟨(j 2).val, (j 2).isLt⟩)

/-- Neurons `8·t …`, samples `256·q …` of the transposed address array. -/
def addrchunk (a : Vec F S2048x1024 .i32) (t : Fin 256) (q : Fin 4) : Vec F S8x256 .i32 :=
  fun j => a (ix2 (n0 := 2048) (n1 := 1024)
    ⟨8 * t.val + (j 0).val, by have := idx2_lt0 j; have := t.isLt; omega⟩
    ⟨256 * q.val + (j 1).val, by have := idx2_lt1 j; have := q.isLt; omega⟩)

/-- Region 1's result array: at (neuron, sample) the trip's word for the neuron's block and the sample's chunk. -/
def gatherArr (a : Vec F S2048x1024 .i32) (mem : Vec F S2048x256x256 .i32) : IVec S2048x1024 32 :=
  fun j => k1_pay1
    (memblk mem ⟨(j 0).val / 8, by have := idx2_lt0 j; omega⟩)
    (addrchunk a ⟨(j 0).val / 8, by have := idx2_lt0 j; omega⟩ ⟨(j 1).val / 256, by have := idx2_lt1 j; omega⟩)
    (ix2 (n0 := 8) (n1 := 256) ⟨(j 0).val % 8, Nat.mod_lt _ (by decide)⟩ ⟨(j 1).val % 256, Nat.mod_lt _ (by decide)⟩)

/-! ## The arithmetic specification, over the naturals -/

/-- Input bit (sample `b`, input `t`) as a natural number. -/
def bitNat (bits : IVec S1024x4096 32) (b : Fin 1024) (t : Fin 4096) : ℕ := (bits (ix2 b t)).toNat
/-- Connection `k` of neuron `n` as a natural number. -/
def connNat (conn : IVec S2048x16 32) (n : Fin 2048) (k : Fin 16) : ℕ := (conn (ix2 n k)).toNat

/-- The domain the claim is stated on: inputs are bits, connections index the 4096 inputs. -/
def PreOK (bits : IVec S1024x4096 32) (conn : IVec S2048x16 32) : Prop :=
  (∀ b t, bitNat bits b t ≤ 1) ∧ (∀ n k, connNat conn n k < 4096)

/-- The weight table: entry (input `t`, neuron `n`) sums `2^k` over the connections `k` of `n` wired to `t`. -/
def Wnat (conn : IVec S2048x16 32) (t : Fin 4096) (n : Fin 2048) : ℕ :=
  ∑ k : Fin 16, if connNat conn n k = t.val then 2 ^ k.val else 0

/-- The address of (sample `b`, neuron `n`): the wired bits weighted by powers of two. -/
def addrNat (bits : IVec S1024x4096 32) (conn : IVec S2048x16 32) (b : Fin 1024) (n : Fin 2048) : ℕ :=
  ∑ k : Fin 16, 2 ^ k.val * bitNat bits b ⟨connNat conn n k % 4096, Nat.mod_lt _ (by decide)⟩

/-- The result: whether the memory word of neuron `n` at the address of (`b`, `n`) is odd. -/
def outSpec (bits : IVec S1024x4096 32) (conn : IVec S2048x16 32) (mem : IVec S2048x65536 32) : IVec S1024x2048 1 :=
  fun j => if (mem (ix2 (n0 := 2048) (n1 := 65536) ⟨(j 1).val, idx2_lt1 j⟩
      ⟨addrNat bits conn ⟨(j 0).val, idx2_lt0 j⟩ ⟨(j 1).val, idx2_lt1 j⟩ % 65536, Nat.mod_lt _ (by decide)⟩)) &&& 1#32 = 0#32
    then 0#1 else 1#1

/-! ## The kernel's host-side arrays at the ideal instance, as reals -/

/-- The bit matrix converted to floats: each integer word as the real number it denotes (signed). -/
def xR (bits : IVec S1024x4096 32) : Vec Ideal S1024x4096 .bf16 :=
  fun j => (((bits j).toInt : ℝ) : EReal)
/-- The low byte plane of the weight table, as reals. -/
def wloR (conn : IVec S2048x16 32) : Vec Ideal S4096x2048 .bf16 :=
  fun j => (((Wnat conn ⟨(j 0).val, idx2_lt0 j⟩ ⟨(j 1).val, idx2_lt1 j⟩ % 256 : ℕ) : ℝ) : EReal)
/-- The high byte plane of the weight table, as reals. -/
def whiR (conn : IVec S2048x16 32) : Vec Ideal S4096x2048 .bf16 :=
  fun j => (((Wnat conn ⟨(j 0).val, idx2_lt0 j⟩ ⟨(j 1).val, idx2_lt1 j⟩ / 256 : ℕ) : ℝ) : EReal)

/-- The address array as 32-bit words. -/
def addrW (bits : IVec S1024x4096 32) (conn : IVec S2048x16 32) : IVec S1024x2048 32 :=
  fun j => BitVec.ofNat 32 (addrNat bits conn ⟨(j 0).val, idx2_lt0 j⟩ ⟨(j 1).val, idx2_lt1 j⟩)

end Cert.Kernel.Spec

end
-- ==== Proof.K.Dat0.lean ====
import proofs.«419280_j21818433864468_2_alg».proof.Proof.Gen.Kernel.Launch
import proofs.«419280_j21818433864468_2_alg».proof.Proof.Gen.Kernel.Skeleton
import proofs.«419280_j21818433864468_2_alg».proof.Proof.Gen.Kernel.Points
import proofs.«419280_j21818433864468_2_alg».proof.Proof.Gen.Kernel.Loops
import proofs.«419280_j21818433864468_2_alg».proof.Proof.K.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0 (the address matmul): proof data, body obligation, and the array it leaves

The grid is 8 × 8: the first coordinate picks a block of 256 neurons, the second walks the 4096 inputs 512 at a time.
Two scratch accumulators are reset at the first step of each column block, added to at every step, and at the
last step their rounded combination is stored to the output block, which is written back there and only there.
-/
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the three operand arrays -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The bit-matrix block, the low-plane block and the high-plane block at point `t`, at their literal types. -/
abbrev xb (c : Dev nD) (t : Fin cfg0.N) : Vec F S1024x512 .bf16 := iblk0 V c 0 t
abbrev lb (c : Dev nD) (t : Fin cfg0.N) : Vec F S512x256 .bf16 := iblk0 V c 1 t
abbrev hb (c : Dev nD) (t : Fin cfg0.N) : Vec F S512x256 .bf16 := iblk0 V c 2 t

/-- The bit matrix and the two byte planes of the weight table, as the region finds them. -/
abbrev xarr (c : Dev nD) : Vec F S1024x4096 .bf16 := V c main_v31
abbrev loarr (c : Dev nD) : Vec F S4096x2048 .bf16 := V c main_v27
abbrev hiarr (c : Dev nD) : Vec F S4096x2048 .bf16 := V c main_v30

/-! ## What the two accumulators hold after each point -/

/-- The low-plane accumulator after point `n`: column block `n / 8`, after `n % 8 + 1` row blocks. -/
def sLo (c : Dev nD) (n : ℕ) : Vec F S1024x256 .f32 :=
  Spec.accLo (xarr V c) (loarr V c) ⟨n / 8 % 8, Nat.mod_lt _ (by decide)⟩ (n % 8 + 1)

/-- The high-plane accumulator after point `n`, likewise. -/
def sHi (c : Dev nD) (n : ℕ) : Vec F S1024x256 .f32 :=
  Spec.accHi (xarr V c) (hiarr V c) ⟨n / 8 % 8, Nat.mod_lt _ (by decide)⟩ (n % 8 + 1)

/-! ## The invariant between points -/

/-- The two accumulators as whole memrefs. -/
abbrev scM0 : Memref sig .tc .vmem S1024x256 .f32 := Memref.whole cc0_scratch0
abbrev scM1 : Memref sig .tc .vmem S1024x256 .f32 := Memref.whole cc0_scratch1

/-- The scoped buffers of the core that belong to the other kernel: each whole, at some contents. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before point `n`: the accumulators at some contents, which after the first point are what the point before
    left; the other kernel's scoped buffers and the generator register at anything. -/
def Phi0 (c : Dev nD) (n : ℕ) : sProp 𝕄 :=
  iprop(∃ (lo hi : Vec F S1024x256 .f32), ⌜n ≠ 0 → lo = sLo V c (n - 1) ∧ hi = sHi V c (n - 1)⌝
    ∗ owns (c : Thread nD τ) scM0 fullShare lo ∗ owns (c : Thread nD τ) scM1 fullShare hi ∗ rest6 c ∗ (∃ r, prngReg c r))

/-! ## The proof data -/

/-- The proof data of pipeline 0 on core `c`, at the entry contents `V`. -/
def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (sLo V c t.val) (sHi V c t.val)
  Φ t := Phi0 V c t.val
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := by
  dsimp only [dat0]
theorem owed0 (c : Dev nD) (t : Fin (cfg0.N + 1)) : (dat0 V c).owed t = 0 := by
  dsimp only [dat0]
/-- The waits recorded before the first point are left unbounded. -/
theorem rec0 (c : Dev nD) : (dat0 V c).recorded 0 = Set.univ := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay5 (sLo V c t.val) (sHi V c t.val) := by dsimp only [dat0]
theorem Phi_eq0 (c : Dev nD) (t : Fin (cfg0.N + 1)) : (dat0 V c).Φ t = Phi0 V c t.val := by dsimp only [dat0]

/-- Each input's current staging buffer holds its block at every point, fetched there or not: the windows are
    uncut and never idle, and the body leaves their blocks in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body's two conditions, and where the output window is idle, in closed form of the point -/

/-- The first condition (the second grid coordinate is 0): the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second condition (the second grid coordinate is 7): the result is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idleAt0_3 : ∀ t : Fin cfg0.N, t.val % 8 ≠ 7 → cfg0.idle 3 (grid0.coords t) = true := by decide +kernel
theorem noFlush0_3 : ∀ t : Fin cfg0.N, t.val % 8 ≠ 7 → (cfg0.win 3).flush t = false := by decide +kernel
theorem liveAt0_3 : ∀ t : Fin cfg0.N, t.val % 8 = 7 → cfg0.idle 3 (grid0.coords t) = false := by decide +kernel

/-! ## The body's triple, one per control case -/

theorem hz : (![0, 0] : Fin 2 → Nat) = fun _ => 0 := funext fun a => by fin_cases a <;> rfl

set_option maxHeartbeats 1000000 in
/-- A middle step: both accumulators are loaded, one matmul is added to each, and they are stored back. -/
theorem run_B (c : Dev nD) (E : Set ℕ) (i : grid0.Coords)
    (arg2 : Memref sig .tc .vmem S1024x512 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S1024x256 .i32) (harg5 : arg5.IsWhole)
    (arg6 : Memref sig .tc .vmem S1024x256 .f32) (harg6 : arg6.IsWhole) (arg7 : Memref sig .tc .vmem S1024x256 .f32) (harg7 : arg7.IsWhole)
    (hc0 : ¬cond0_0 i) (hc1 : ¬cond0_1 i)
    (x : Vec F S1024x512 .bf16) (wl wh : Vec F S512x256 .bf16) (lo hi : Vec F S1024x256 .f32) (K : PUnit → sProp 𝕄) :
    iprop(owns (c : Thread nD τ) arg2 fullShare x ∗ owns (c : Thread nD τ) arg3 fullShare wl ∗ owns (c : Thread nD τ) arg4 fullShare wh
        ∗ owns (c : Thread nD τ) arg6 fullShare lo ∗ owns (c : Thread nD τ) arg7 fullShare hi
        ∗ (iprop(owns (c : Thread nD τ) arg2 fullShare x ∗ owns (c : Thread nD τ) arg3 fullShare wl ∗ owns (c : Thread nD τ) arg4 fullShare wh
            ∗ owns (c : Thread nD τ) arg6 fullShare (k0_pay3 lo x wl) ∗ owns (c : Thread nD τ) arg7 fullShare (k0_pay4 hi x wh)) -∗ K ⟨⟩))
      ⊢ wp frame (wpE (defs₀ (F := F)) Variants.none c none) E (cc0__addr_kernel i arg2 harg2 arg3 harg3 arg4 harg4 arg5 harg5 arg6 harg6 arg7 harg7) K := by
  simp only [cc0__addr_kernel_eq_skeleton]; unfold cc0__addr_kernel_skel
  unfold owns
  iintro ⟨⟨%f2, %hf2, H2⟩, ⟨%f3, %hf3, H3⟩, ⟨%f4, %hf4, H4⟩, ⟨%f6, %hf6, H6⟩, ⟨%f7, %hf7, H7⟩, Hk⟩
  obtain rfl := harg2.eq_unread hf2; obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    rw [View.read_writes_eq_canon _ _ _ (fun y => ⟨_, List.mem_singleton_self _, View.mem_set_unit_zero hz inb_S1024x256_S1024x256_0_0 y⟩), View.canon_unit_zero hz]
    simp only [View.readAt_eq_ld, harg6.read_unread, harg2.read_unread, harg3.read_unread,
      View.ld_unit_zero (S := S1024x256) hz, View.ld_unit_zero (S := S1024x512) hz, View.ld_unit_zero (S := S512x256) hz]
  · iexists _; isplitr
    swap; · iexact H7
    ipureintro
    rw [View.read_writes_eq_canon _ _ _ (fun y => ⟨_, List.mem_singleton_self _, View.mem_set_unit_zero hz inb_S1024x256_S1024x256_0_0 y⟩), View.canon_unit_zero hz]
    simp only [View.readAt_eq_ld, harg7.read_unread, harg2.read_unread, harg4.read_unread,
      View.ld_unit_zero (S := S1024x256) hz, View.ld_unit_zero (S := S1024x512) hz, View.ld_unit_zero (S := S512x256) hz]

set_option maxHeartbeats 1000000 in
/-- The first step of a column block: both accumulators are zeroed, whatever they held, then the step is as any other. -/
theorem run_A (c : Dev nD) (E : Set ℕ) (i : grid0.Coords)
    (arg2 : Memref sig .tc .vmem S1024x512 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S1024x256 .i32) (harg5 : arg5.IsWhole)
    (arg6 : Memref sig .tc .vmem S1024x256 .f32) (harg6 : arg6.IsWhole) (arg7 : Memref sig .tc .vmem S1024x256 .f32) (harg7 : arg7.IsWhole)
    (hc0 : cond0_0 i) (hc1 : ¬cond0_1 i)
    (x : Vec F S1024x512 .bf16) (wl wh : Vec F S512x256 .bf16) (K : PUnit → sProp 𝕄) :
    iprop(owns (c : Thread nD τ) arg2 fullShare x ∗ owns (c : Thread nD τ) arg3 fullShare wl ∗ owns (c : Thread nD τ) arg4 fullShare wh
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare wl ∗ owns (c : Thread nD τ) arg4 fullShare wh
            ∗ owns (c : Thread nD τ) arg6 fullShare (k0_pay3 k0_pay1 x wl) ∗ owns (c : Thread nD τ) arg7 fullShare (k0_pay4 k0_pay2 x wh)) -∗ K ⟨⟩))
      ⊢ wp frame (wpE (defs₀ (F := F)) Variants.none c none) E (cc0__addr_kernel i arg2 harg2 arg3 harg3 arg4 harg4 arg5 harg5 arg6 harg6 arg7 harg7) K := by
  simp only [cc0__addr_kernel_eq_skeleton]; unfold cc0__addr_kernel_skel
  unfold owns
  iintro ⟨⟨%f2, %hf2, H2⟩, ⟨%f3, %hf3, H3⟩, ⟨%f4, %hf4, H4⟩, ⟨%d6, %f6, -, H6⟩, ⟨%d7, %f7, -, H7⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    sl_unfold_words
    rw [View.read_writes_eq_canon _ _ _ (fun y => ⟨_, List.mem_cons_self, View.mem_set_unit_zero hz inb_S1024x256_S1024x256_0_0 y⟩), View.canon_cons_unit_zero hz]
    simp only [View.readAt_eq_ld, View.readCov_unit_zero (S := S1024x256) _ hz, harg2.read_unread, harg3.read_unread,
      View.ld_unit_zero (S := S1024x512) hz, View.ld_unit_zero (S := S512x256) hz]
  · iexists _; isplitr
    swap; · iexact H7
    ipureintro
    sl_unfold_words
    rw [View.read_writes_eq_canon _ _ _ (fun y => ⟨_, List.mem_cons_self, View.mem_set_unit_zero hz inb_S1024x256_S1024x256_0_0 y⟩), View.canon_cons_unit_zero hz]
    simp only [View.readAt_eq_ld, View.readCov_unit_zero (S := S1024x256) _ hz, harg2.read_unread, harg4.read_unread,
      View.ld_unit_zero (S := S1024x512) hz, View.ld_unit_zero (S := S512x256) hz]

set_option maxHeartbeats 1000000 in
/-- The last step of a column block: after the step, the rounded combination of the two accumulators is stored to the output block. -/
theorem run_C (c : Dev nD) (E : Set ℕ) (i : grid0.Coords)
    (arg2 : Memref sig .tc .vmem S1024x512 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S1024x256 .i32) (harg5 : arg5.IsWhole)
    (arg6 : Memref sig .tc .vmem S1024x256 .f32) (harg6 : arg6.IsWhole) (arg7 : Memref sig .tc .vmem S1024x256 .f32) (harg7 : arg7.IsWhole)
    (hc0 : ¬cond0_0 i) (hc1 : cond0_1 i)
    (x : Vec F S1024x512 .bf16) (wl wh : Vec F S512x256 .bf16) (lo hi : Vec F S1024x256 .f32) (K : PUnit → sProp 𝕄) :
    iprop(owns (c : Thread nD τ) arg2 fullShare x ∗ owns (c : Thread nD τ) arg3 fullShare wl ∗ owns (c : Thread nD τ) arg4 fullShare wh
        ∗ (∃ d, owns (c : Thread nD τ) arg5 fullShare d)
        ∗ owns (c : Thread nD τ) arg6 fullShare lo ∗ owns (c : Thread nD τ) arg7 fullShare hi
        ∗ (iprop(owns (c : Thread nD τ) arg2 fullShare x ∗ owns (c : Thread nD τ) arg3 fullShare wl ∗ owns (c : Thread nD τ) arg4 fullShare wh
            ∗ owns (c : Thread nD τ) arg5 fullShare (k0_pay5 (k0_pay3 lo x wl) (k0_pay4 hi x wh))
            ∗ owns (c : Thread nD τ) arg6 fullShare (k0_pay3 lo x wl) ∗ owns (c : Thread nD τ) arg7 fullShare (k0_pay4 hi x wh)) -∗ K ⟨⟩))
      ⊢ wp frame (wpE (defs₀ (F := F)) Variants.none c none) E (cc0__addr_kernel i arg2 harg2 arg3 harg3 arg4 harg4 arg5 harg5 arg6 harg6 arg7 harg7) K := by
  simp only [cc0__addr_kernel_eq_skeleton]; unfold cc0__addr_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf2; obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_singleton_self _, View.mem_set_unit_zero hz inb_S1024x256_S1024x256_0_0 y⟩), View.canon_unit_zero hz]
    simp only [View.readCov_unit_zero (S := S1024x256) _ hz, View.readAt_eq_ld, harg6.read_unread, harg7.read_unread, harg2.read_unread,
      harg3.read_unread, harg4.read_unread,
      View.ld_unit_zero (S := S1024x256) hz, View.ld_unit_zero (S := S1024x512) hz, View.ld_unit_zero (S := S512x256) hz]
  isplitl [H6]
  · iexists _; isplitr
    swap; · iexact H6
    ipureintro
    sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg6.read_unread, harg2.read_unread, harg3.read_unread,
      View.ld_unit_zero (S := S1024x256) hz, View.ld_unit_zero (S := S1024x512) hz, View.ld_unit_zero (S := S512x256) hz]
  · iexists _; isplitr
    swap; · iexact H7
    ipureintro
    sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg7.read_unread, harg2.read_unread, harg4.read_unread,
      View.ld_unit_zero (S := S1024x256) hz, View.ld_unit_zero (S := S1024x512) hz, View.ld_unit_zero (S := S512x256) hz]

/-! ## The index maps in closed form of the point, and the blocks as restrictions of the arrays -/

/-- Point `t` is column block `t / 8`, row block `t % 8`: the bit matrix moves along its columns with the row
    block, the two planes along both, the result along its columns with the column block. -/
theorem idx_facts0 : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

theorem xb_eq (c : Dev nD) (t : Fin cfg0.N) :
    xb V c t = Spec.xblk (xarr V c) ⟨t.val % 8, Nat.mod_lt _ (by decide)⟩ := by
  obtain ⟨e0, e1, -⟩ := idx_facts0 t
  funext j
  show V c main_v31 (((cfg0.win 0).blk t).view.emb j) = V c main_v31 _
  refine congrArg (V c main_v31) (funext fun a => Fin.ext ?_)
  match a with
  | ⟨0, _⟩ => show win0_0.index t (0 : Fin 2) * 1024 + 1 * (j 0).val = (j 0).val; omega
  | ⟨1, _⟩ => show win0_0.index t (1 : Fin 2) * 512 + 1 * (j 1).val = 512 * (t.val % 8) + (j 1).val; omega

theorem lb_eq (c : Dev nD) (t : Fin cfg0.N) :
    lb V c t = Spec.wblk (loarr V c) ⟨t.val % 8, Nat.mod_lt _ (by decide)⟩ ⟨t.val / 8 % 8, Nat.mod_lt _ (by decide)⟩ := by
  obtain ⟨-, -, e0, e1, -⟩ := idx_facts0 t
  have hN : t.val < 64 := lt_of_lt_of_eq t.isLt (show cfg0.N = 64 from N_0)
  funext j
  show V c main_v27 (((cfg0.win 1).blk t).view.emb j) = V c main_v27 _
  refine congrArg (V c main_v27) (funext fun a => Fin.ext ?_)
  match a with
  | ⟨0, _⟩ => show win0_1.index t (0 : Fin 2) * 512 + 1 * (j 0).val = 512 * (t.val % 8) + (j 0).val; omega
  | ⟨1, _⟩ => show win0_1.index t (1 : Fin 2) * 256 + 1 * (j 1).val = 256 * (t.val / 8 % 8) + (j 1).val; omega

theorem hb_eq (c : Dev nD) (t : Fin cfg0.N) :
    hb V c t = Spec.wblk (hiarr V c) ⟨t.val % 8, Nat.mod_lt _ (by decide)⟩ ⟨t.val / 8 % 8, Nat.mod_lt _ (by decide)⟩ := by
  obtain ⟨-, -, -, -, e0, e1, -⟩ := idx_facts0 t
  have hN : t.val < 64 := lt_of_lt_of_eq t.isLt (show cfg0.N = 64 from N_0)
  funext j
  show V c main_v30 (((cfg0.win 2).blk t).view.emb j) = V c main_v30 _
  refine congrArg (V c main_v30) (funext fun a => Fin.ext ?_)
  match a with
  | ⟨0, _⟩ => show win0_2.index t (0 : Fin 2) * 512 + 1 * (j 0).val = 512 * (t.val % 8) + (j 0).val; omega
  | ⟨1, _⟩ => show win0_2.index t (1 : Fin 2) * 256 + 1 * (j 1).val = 256 * (t.val / 8 % 8) + (j 1).val; omega

/-! ## One step of each accumulator -/

theorem accLo_succ (x : Vec F S1024x4096 .bf16) (w : Vec F S4096x2048 .bf16) (i : Fin 8) (k : ℕ) (hk : k < 8) :
    Spec.accLo x w i (k + 1) = k0_pay3 (Spec.accLo x w i k) (Spec.xblk x ⟨k, hk⟩) (Spec.wblk w ⟨k, hk⟩ i) := by
  rw [Spec.accLo]; exact dif_pos hk

theorem accHi_succ (x : Vec F S1024x4096 .bf16) (w : Vec F S4096x2048 .bf16) (i : Fin 8) (k : ℕ) (hk : k < 8) :
    Spec.accHi x w i (k + 1) = k0_pay4 (Spec.accHi x w i k) (Spec.xblk x ⟨k, hk⟩) (Spec.wblk w ⟨k, hk⟩ i) := by
  rw [Spec.accHi]; exact dif_pos hk

/-- At the first row block of a column block the accumulator is the step applied to zero; -/
theorem sLo_first (c : Dev nD) (t : Fin cfg0.N) (h0 : t.val % 8 = 0) :
    sLo V c t.val = k0_pay3 k0_pay1 (xb V c t) (lb V c t) := by
  unfold sLo
  rw [accLo_succ _ _ _ (t.val % 8) (Nat.mod_lt _ (by decide)), xb_eq V c t, lb_eq V c t]
  have e : Spec.accLo (xarr V c) (loarr V c) ⟨t.val / 8 % 8, Nat.mod_lt _ (by decide)⟩ (t.val % 8) = k0_pay1 := by
    rw [h0]; rfl
  rw [e]

theorem sHi_first (c : Dev nD) (t : Fin cfg0.N) (h0 : t.val % 8 = 0) :
    sHi V c t.val = k0_pay4 k0_pay2 (xb V c t) (hb V c t) := by
  unfold sHi
  rw [accHi_succ _ _ _ (t.val % 8) (Nat.mod_lt _ (by decide)), xb_eq V c t, hb_eq V c t]
  have e : Spec.accHi (xarr V c) (hiarr V c) ⟨t.val / 8 % 8, Nat.mod_lt _ (by decide)⟩ (t.val % 8) = k0_pay2 := by
    rw [h0]; rfl
  rw [e]

/-- at every other row block, the step applied to what the point before left. -/
theorem sLo_next (c : Dev nD) (t : Fin cfg0.N) (h0 : t.val % 8 ≠ 0) :
    sLo V c t.val = k0_pay3 (sLo V c (t.val - 1)) (xb V c t) (lb V c t) := by
  unfold sLo
  rw [accLo_succ _ _ _ (t.val % 8) (Nat.mod_lt _ (by decide)), xb_eq V c t, lb_eq V c t]
  have e1 : (t.val - 1) / 8 % 8 = t.val / 8 % 8 := by omega
  have e2 : (t.val - 1) % 8 + 1 = t.val % 8 := by omega
  have hi : (⟨(t.val - 1) / 8 % 8, Nat.mod_lt _ (by decide)⟩ : Fin 8) = ⟨t.val / 8 % 8, Nat.mod_lt _ (by decide)⟩ := Fin.ext e1
  rw [hi, e2]

theorem sHi_next (c : Dev nD) (t : Fin cfg0.N) (h0 : t.val % 8 ≠ 0) :
    sHi V c t.val = k0_pay4 (sHi V c (t.val - 1)) (xb V c t) (hb V c t) := by
  unfold sHi
  rw [accHi_succ _ _ _ (t.val % 8) (Nat.mod_lt _ (by decide)), xb_eq V c t, hb_eq V c t]
  have e1 : (t.val - 1) / 8 % 8 = t.val / 8 % 8 := by omega
  have e2 : (t.val - 1) % 8 + 1 = t.val % 8 := by omega
  have hi : (⟨(t.val - 1) / 8 % 8, Nat.mod_lt _ (by decide)⟩ : Fin 8) = ⟨t.val / 8 % 8, Nat.mod_lt _ (by decide)⟩ := Fin.ext e1
  rw [hi, e2]

/-! ## The body obligation, at a generic point -/

/-- Each window's current staging memref at point `t`, as the pipeline passes it to the body. -/
abbrev ms0_0 (t : Fin cfg0.N) : Memref sig .tc .vmem S1024x512 .bf16 := win0_0.stage (cfg0.slots t 0)
abbrev ms0_1 (t : Fin cfg0.N) : Memref sig .tc .vmem S512x256 .bf16 := win0_1.stage (cfg0.slots t 1)
abbrev ms0_2 (t : Fin cfg0.N) : Memref sig .tc .vmem S512x256 .bf16 := win0_2.stage (cfg0.slots t 2)
abbrev ms0_3 (t : Fin cfg0.N) : Memref sig .tc .vmem S1024x256 .i32 := win0_3.stage (cfg0.slots t 3)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' memrefs hold their blocks; the point's row block says which of the three
    cases runs; the invariant hands the accumulators over at what the point before left (at anything where they
    are reset) and takes them back one step further; the output buffer is handed back untouched except at the
    last row block, where it receives the rounded combination. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi_eq0 V c t.castSucc, Phi_eq0 V c t.succ, Fin.coe_castSucc, Fin.val_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  unfold Phi0
  by_cases h0 : t.val % 8 = 0
  · have h7 : ¬t.val % 8 = 7 := by omega
    rw [Dat.leavesExact_idle (dat0 V c) 3 t (idleAt0_3 t h7) (noFlush0_3 t h7)]
    iintro ⟨⟨%lo, %hi, -, HS0, HS1, Hr6, Hg⟩, Ho, ⟨%d0, H0⟩, ⟨%d1, H1⟩, ⟨%d2, H2⟩, ⟨%d3, H3⟩⟩
    iapply (run_A c Set.univ (grid0.coords t) _ _ _ _ _ _ _ _ _ _ _ _ ((hcond0_0 t).mpr h0) (fun h => h7 ((hcond0_1 t).mp h)) (xb V c t) (lb V c t) (hb V c t) _)
    isplitl [H0]; · iexact H0
    isplitl [H1]; · iexact H1
    isplitl [H2]; · iexact H2
    isplitl [HS0]; · iexists _; iexact HS0
    isplitl [HS1]; · iexists _; iexact HS1
    iintro ⟨H0, H1, H2, HS0, HS1⟩
    isplitl [HS0 HS1 Hr6 Hg]
    · iexists _; iexists _; isplitr
      · ipureintro; intro _; rw [Nat.add_sub_cancel]; exact ⟨(sLo_first V c t h0).symm, (sHi_first V c t h0).symm⟩
      isplitl [HS0]; · iexact HS0
      isplitl [HS1]; · iexact HS1
      isplitl [Hr6]; · iexact Hr6
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h7 : t.val % 8 = 7
    · rw [show (dat0 V c).leavesExact 3 t = owns (c : Thread nD τ) (ms0_3 t) fullShare ((dat0 V c).after 3 t) from by
        unfold Dat.leavesExact; rw [liveAt0_3 t h7], after0_3, sLo_next V c t h0, sHi_next V c t h0]
      iintro ⟨⟨%lo, %hi, %hlh, HS0, HS1, Hr6, Hg⟩, Ho, ⟨%d0, H0⟩, ⟨%d1, H1⟩, ⟨%d2, H2⟩, ⟨%d3, H3⟩⟩
      obtain ⟨rfl, rfl⟩ := hlh hz
      iapply (run_C c Set.univ (grid0.coords t) _ _ _ _ _ _ _ _ _ _ _ _ (fun h => h0 ((hcond0_0 t).mp h)) ((hcond0_1 t).mpr h7) (xb V c t) (lb V c t) (hb V c t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr6 Hg]
      · iexists _; iexists _; isplitr
        · ipureintro; intro _; rw [Nat.add_sub_cancel]; exact ⟨(sLo_next V c t h0).symm, (sHi_next V c t h0).symm⟩
        isplitl [HS0]; · iexact HS0
        isplitl [HS1]; · iexact HS1
        isplitl [Hr6]; · iexact Hr6
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t h7) (noFlush0_3 t h7)]
      iintro ⟨⟨%lo, %hi, %hlh, HS0, HS1, Hr6, Hg⟩, Ho, ⟨%d0, H0⟩, ⟨%d1, H1⟩, ⟨%d2, H2⟩, ⟨%d3, H3⟩⟩
      obtain ⟨rfl, rfl⟩ := hlh hz
      iapply (run_B c Set.univ (grid0.coords t) _ _ _ _ _ _ _ _ _ _ _ _ (fun h => h0 ((hcond0_0 t).mp h)) (fun h => h7 ((hcond0_1 t).mp h)) (xb V c t) (lb V c t) (hb V c t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr6 Hg]
      · iexists _; iexists _; isplitr
        · ipureintro; intro _; rw [Nat.add_sub_cancel]; exact ⟨(sLo_next V c t h0).symm, (sHi_next V c t h0).symm⟩
        isplitl [HS0]; · iexact HS0
        isplitl [HS1]; · iexact HS1
        isplitl [Hr6]; · iexact Hr6
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant at the first point, from the generator register and the scoped buffers no window stages. -/
theorem hin0 (c : Dev nD) :
    iprop((∃ r, prngReg c r) ∗ Pipeline.prefHeld (pcfgs (F := F) 0).pre c (fun _ => fullShare) ((cfgs 0).toPCfg_adm (Val := Elt F)).1
        ∗ Pipeline.scopedRest (Ix := Unit) (Name := ℕ) (U := UR sig nD τ) (Lvl := ℕ) (Val := Elt F) spec0 c)
      ⊢ ((dat0 V c).Φ 0 : sProp 𝕄) := by
  rw [Phi_eq0, scopedRest0_eq, Fin.val_zero]
  unfold Phi0 rest6
  simp only [scM0, scM1, owns_whole]
  iintro ⟨Hp, -, ⟨%f0, H0⟩, ⟨%f1, H1⟩, Hrest⟩
  iexists f0; iexists f1
  isplitr; · ipureintro; intro h; exact absurd rfl h
  isplitl [H0]; · iexact H0
  isplitl [H1]; · iexact H1
  isplitl [Hrest]; · iexact Hrest
  iexact Hp

/-- The invariant at the last point gives both back. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Phi_eq0, scopedRest0_eq]
  unfold Phi0 rest6
  simp only [scM0, scM1, owns_whole]
  iintro ⟨%f0, %f1, -, H0, H1, Hrest, Hp⟩
  isplitl [Hp]; · iexact Hp
  isplitl [H0]; · iexists f0; iexact H0
  isplitl [H1]; · iexists f1; iexact H1
  iexact Hrest

end Cert.Kernel.R0

end
-- ==== Proof.K.Final0.lean ====
import proofs.«419280_j21818433864468_2_alg».proof.Proof.K.Dat0

/-!
# Region 0: the array it leaves

Only the last step of each column block writes the output block back, so the output array is covered by the eight blocks
flushed at the points 8·i + 7, each holding the rounded recombination of the two finished accumulators of column block i.
-/
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The output window's blocks over the grid -/

/-- The output window's block index at point `t`: all 1024 rows, column block `t / 8`. -/
private theorem idx_out0 : ∀ t : Fin cfg0.N, win0_3.index t (0 : Fin 2) = 0 ∧ win0_3.index t (1 : Fin 2) = t.val / 8 :=
  (by decide +kernel : ∀ t : Fin grid0.N, win0_3.index t (0 : Fin 2) = 0 ∧ win0_3.index t (1 : Fin 2) = t.val / 8)

/-- The address array read inside column block `i`: the last step's word of that block's two finished accumulators. -/
private theorem addrArr_at (x : Vec F S1024x4096 .bf16) (lo hi : Vec F S4096x2048 .bf16) (j : S1024x2048.Idx) (i : Fin 8)
    (y : S1024x256.Idx) (h0 : (j 0).val = (y 0).val) (h1 : (j 1).val = i.val * 256 + (y 1).val) :
    Spec.addrArr x lo hi j = k0_pay5 (Spec.accLo x lo i 8) (Spec.accHi x hi i 8) y := by
  have hy1 : (y 1).val < 256 := ValueIdx.idx2_lt1 y
  have ei : (⟨(j 1).val / 256, by have := ValueIdx.idx2_lt1 j; omega⟩ : Fin 8) = i := Fin.ext (by show (j 1).val / 256 = i.val; omega)
  have ey : ValueIdx.ix2 (n0 := 1024) (n1 := 256) ⟨(j 0).val, ValueIdx.idx2_lt0 j⟩ ⟨(j 1).val % 256, Nat.mod_lt _ (by decide)⟩ = y := by
    funext a
    match a with
    | ⟨0, _⟩ => exact Fin.ext h0
    | ⟨1, _⟩ => exact Fin.ext (by show (j 1).val % 256 = (y 1).val; omega)
  unfold Spec.addrArr
  rw [ei, ey]

/-- At a point that ends a column block the accumulators are the finished ones of that block. -/
private theorem sLo_last (c : Dev nD) (n : ℕ) (hn : n < 64) (h7 : n % 8 = 7) :
    sLo V c n = Spec.accLo (xarr V c) (loarr V c) ⟨n / 8, by omega⟩ 8 := by
  unfold sLo
  have ei : (⟨n / 8 % 8, Nat.mod_lt _ (by decide)⟩ : Fin 8) = ⟨n / 8, by omega⟩ := Fin.ext (by show n / 8 % 8 = n / 8; omega)
  have ek : n % 8 + 1 = 8 := by omega
  rw [ei, ek]

private theorem sHi_last (c : Dev nD) (n : ℕ) (hn : n < 64) (h7 : n % 8 = 7) :
    sHi V c n = Spec.accHi (xarr V c) (hiarr V c) ⟨n / 8, by omega⟩ 8 := by
  unfold sHi
  have ei : (⟨n / 8 % 8, Nat.mod_lt _ (by decide)⟩ : Fin 8) = ⟨n / 8, by omega⟩ := Fin.ext (by show n / 8 % 8 = n / 8; omega)
  have ek : n % 8 + 1 = 8 := by omega
  rw [ei, ek]

/-- WHAT A FLUSHING POINT WRITES BACK is its block of the address array of the three operand arrays. -/
private theorem flushed_eq0 (c : Dev nD) (t : Fin cfg0.N) (hf : (cfg0.win 3).flush t = true) :
    (dat0 V c).flushed 3 t
      = ((cfg0.win 3).blk t).view.read (Elt F) (Spec.addrArr (F := F) (V c main_v31) (V c main_v27) (V c main_v30)) := by
  have h7 : t.val % 8 = 7 := (flush0_3 t).mp hf
  have hN : t.val < 64 := t.isLt
  obtain ⟨e0, e1⟩ := idx_out0 t
  show (dat0 V c).after 3 t = _
  rw [after0_3, sLo_last V c t.val hN h7, sHi_last V c t.val hN h7]
  funext y
  show _ = Spec.addrArr (F := F) (V c main_v31) (V c main_v27) (V c main_v30) (((cfg0.win 3).blk t).view.emb y)
  refine (addrArr_at _ _ _ _ ⟨t.val / 8, by omega⟩ y ?_ ?_).symm
  · show win0_3.index t (0 : Fin 2) * 1024 + 1 * (y 0).val = (y 0).val
    rw [e0]; omega
  · show win0_3.index t (1 : Fin 2) * 256 + 1 * (y 1).val = t.val / 8 * 256 + (y 1).val
    rw [e1]; omega

/-- An index of the array is in point `t`'s block iff each coordinate is in the block's range on its axis. -/
private theorem mem_blk0 (t : Fin cfg0.N) (i : S1024x2048.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v32).slice (win0_3.rect t)).set ↔ _
  rw [View.set_slice_whole, Rect.mem_set_unit]
  exact Iff.rfl

/-- Every index of the output array lies in the block written back at the last step of its column block:
    column `n` at point `8·(n / 256) + 7`. -/
private theorem cover0 (i : S1024x2048.Idx) :
    ∃ t : Fin cfg0.N, (cfg0.win 3).flush t = true ∧ i ∈ ((cfg0.win 3).blk t).view.set := by
  have h0 : (i 0).val < 1024 := ValueIdx.idx2_lt0 i
  have h1 : (i 1).val < 2048 := ValueIdx.idx2_lt1 i
  have hb : 8 * ((i 1).val / 256) + 7 < 64 := by omega
  obtain ⟨t, htv⟩ : ∃ t : Fin cfg0.N, t.val = 8 * ((i 1).val / 256) + 7 := ⟨⟨_, hb⟩, rfl⟩
  refine ⟨t, (flush0_3 t).mpr (by rw [htv]; omega), ?_⟩
  obtain ⟨e0, e1⟩ := idx_out0 t
  rw [mem_blk0]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 256 ≤ (i 1).val ∧ (i 1).val < win0_3.index t (1 : Fin 2) * 256 + 256
    rw [e1, htv]; omega

/-- The input windows' arrays are never written. -/
theorem in0 (c : Dev nD) (w : Fin cfg0.W) (hw : w ≠ 3) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, hw => exact absurd rfl hw
  exact ((dat0 V c).arrAt_in w hin _).trans (A_eq0 V c w)

/-- THE VALUE: after the region the output array is the address array of the three operand arrays as entered. -/
theorem final0 (c : Dev nD) :
    (dat0 V c).arrAt 3 cfg0.N = Spec.addrArr (F := F) (V c main_v31) (V c main_v27) (V c main_v30) :=
  (dat0 V c).arrAt_eq_of_cover 3 _ (fun t hf => flushed_eq0 V c t hf) cover0

end Cert.Kernel.R0

end
-- ==== Proof.K.Dat1.lean ====
import proofs.«419280_j21818433864468_2_alg».proof.Proof.Gen.Kernel.Launch
import proofs.«419280_j21818433864468_2_alg».proof.Proof.Gen.Kernel.Skeleton
import proofs.«419280_j21818433864468_2_alg».proof.Proof.Gen.Kernel.Points
import proofs.«419280_j21818433864468_2_alg».proof.Proof.Gen.Kernel.Loops
import proofs.«419280_j21818433864468_2_alg».proof.Proof.K.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 1 (the one-hot memory lookup): proof data, body obligation, and the array it leaves

The grid has 256 points, one per block of eight neurons. Each point loads the block's 8 × 256 × 256 memory words once
and runs four trips of 256 samples: the addresses' high and low bytes select, through two one-hot products, the least
significant bit of one word per (neuron, sample), stored to the trip's slice of the output block.
-/
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! ## One trip's slice, and the block the four trips leave -/

/-- The loop runs four trips. -/
theorem trips_four : k1_t1_loop.trips = 4 := by decide +kernel

/-- The rectangle trip `k` reads of the address block and writes of the output block: all eight rows, columns
    `256·k … 256·k + 255`. -/
abbrev sliceR (k : Fin k1_t1_loop.trips) : Rect S8x1024 :=
  Rect.unit (s := S8x1024) (k1_off1 k) S8x256.size (k1_off1_inb k)

/-- A slice's element sits in the block at the same row `…` -/
theorem sliceR_row (k : Fin k1_t1_loop.trips) (x : S8x256.Idx) : ((sliceR k).emb x 0).val = (x 0).val := by
  rw [Rect.emb_apply, Rect.off_unit, Rect.stride_unit, k1_off1_eq]
  show 0 + 1 * (x 0).val = (x 0).val
  omega

/-- `…` and at column `256·k` plus its own. -/
theorem sliceR_col (k : Fin k1_t1_loop.trips) (x : S8x256.Idx) : ((sliceR k).emb x 1).val = 256 * k.val + (x 1).val := by
  rw [Rect.emb_apply, Rect.off_unit, Rect.stride_unit, k1_off1_eq]
  show 256 * k.val + 1 * (x 1).val = 256 * k.val + (x 1).val
  omega

/-- Samples `256·q … 256·q + 255` of a block of addresses (eight neurons × 1024 samples). -/
def chunk (a : Vec F S8x1024 .i32) (q : Fin 4) : Vec F S8x256 .i32 :=
  fun x => a (ix2 (n0 := 8) (n1 := 1024) ⟨(x 0).val, idx2_lt0 x⟩
    ⟨256 * q.val + (x 1).val, by have := idx2_lt1 x; have := q.isLt; omega⟩)

/-- What the body leaves in the output block, as one function of the address block `a` and the memory block `mb`:
    at (neuron, sample) the lookup word of the sample's chunk, at the sample's place in it. -/
def outBlk (a : Vec F S8x1024 .i32) (mb : Vec F S8x256x256 .i32) : Vec F S8x1024 .i32 :=
  fun j => k1_pay1 mb (chunk a ⟨(j 1).val / 256, by have := idx2_lt1 j; omega⟩)
    (ix2 (n0 := 8) (n1 := 256) ⟨(j 0).val, idx2_lt0 j⟩ ⟨(j 1).val % 256, Nat.mod_lt _ (by decide)⟩)

/-- The slice trip `k` loads of the address block is its chunk `k`. -/
theorem ld_sliceR (a : Vec F S8x1024 .i32) (k : Fin k1_t1_loop.trips) :
    View.ld a (sliceR k) = chunk a ⟨k.val, trips_four ▸ k.isLt⟩ := by
  funext x
  show a ((sliceR k).emb x) = _
  unfold chunk
  refine congrArg a (funext fun d => Fin.ext ?_)
  match d with
  | ⟨0, _⟩ => exact sliceR_row k x
  | ⟨1, _⟩ => exact sliceR_col k x

/-- Trip `k`'s store agrees with `outBlk` on its slice. -/
theorem piece_outBlk (a : Vec F S8x1024 .i32) (mb : Vec F S8x256x256 .i32) (k : Fin k1_t1_loop.trips) (x : S8x256.Idx) :
    k1_pay1 mb (View.ld a (sliceR k)) x = outBlk a mb ((sliceR k).emb x) := by
  have hk : k.val < 4 := trips_four ▸ k.isLt
  have h0 := sliceR_row k x
  have h1 := sliceR_col k x
  have hx1 : (x 1).val < 256 := idx2_lt1 x
  rw [ld_sliceR]
  unfold outBlk
  have eq : (⟨((sliceR k).emb x 1).val / 256, by have := idx2_lt1 ((sliceR k).emb x); omega⟩ : Fin 4) = ⟨k.val, hk⟩ :=
    Fin.ext (by show ((sliceR k).emb x 1).val / 256 = k.val; omega)
  rw [eq]
  refine congrArg (k1_pay1 mb (chunk a ⟨k.val, hk⟩)) (funext fun d => Fin.ext ?_)
  match d with
  | ⟨0, _⟩ => exact h0.symm
  | ⟨1, _⟩ => show (x 1).val = ((sliceR k).emb x 1).val % 256; omega

/-! ## The loop's pieces -/

section Pieces
variable (𝒱 : Variants) (c : Dev nD) (bd : Option 𝒱.V) (i : grid1.Coords) (arg1 : Memref sig .tc .vmem S8x1024 .i32) (harg1 : arg1.IsWhole) (arg2 : Memref sig .tc .vmem S8x256x256 .i32) (harg2 : arg2.IsWhole) (arg3 : Memref sig .tc .vmem S8x1024 .i32) (harg3 : arg3.IsWhole) (v0 : Vec F S8x256x256 .i32) (X_arg1 : BufTy.Contents (Elt F) arg1.view.ty)

/-- What trip `k` stores: its slice of the output block, holding the lookup of the slice it loaded of the address block `a`. -/
def piece (a : Vec F S8x1024 .i32) (mb : Vec F S8x256x256 .i32) (k : Fin k1_t1_loop.trips) : View.Piece (Elt F) S8x1024 .i32 :=
  ⟨sliceR k, k1_pay1 mb (View.ld a (sliceR k))⟩

/-- Trip `k`'s piece list is that one piece. -/
theorem tripL_eq (k : Fin k1_t1_loop.trips) :
    tripL_k1_t1 (F := F) 𝒱 c bd i arg1 harg1 arg2 harg2 arg3 harg3 v0 X_arg1 k
      = [piece (arg1.view.read (Elt F) X_arg1) v0 k] := by
  unfold tripL_k1_t1 trip_k1_t1
  rfl

/-- The pieces written before trip `n` are exactly those of the trips below `n`. -/
theorem mem_pb : ∀ n : ℕ, n ≤ k1_t1_loop.trips → ∀ p : View.Piece (Elt F) S8x1024 .i32,
    p ∈ pb_k1_t1 (F := F) 𝒱 c bd i arg1 harg1 arg2 harg2 arg3 harg3 v0 X_arg1 n
      ↔ ∃ k : Fin k1_t1_loop.trips, k.val < n ∧ p = piece (arg1.view.read (Elt F) X_arg1) v0 k
  | 0, _, p => by
    rw [pb_k1_t1.eq_1]
    exact ⟨fun h => absurd h List.not_mem_nil, fun ⟨_, h, _⟩ => absurd h (Nat.not_lt_zero _)⟩
  | n + 1, hn, p => by
    have ih := mem_pb n (Nat.le_of_succ_le hn) p
    have hs := pb_k1_t1_succ (F := F) 𝒱 c bd i arg1 harg1 arg2 harg2 arg3 harg3 v0 X_arg1 ⟨n, hn⟩
    rw [show pb_k1_t1 (F := F) 𝒱 c bd i arg1 harg1 arg2 harg2 arg3 harg3 v0 X_arg1 (n + 1) = _ from hs, tripL_eq,
      List.singleton_append, List.mem_cons, ih]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact .inr ⟨k, h, rfl⟩
      · exact .inl (congrArg _ (Fin.ext h))

/-- After the last trip the output block reads `outBlk` of the address block and the memory block, whatever it held
    before: every piece agrees with `outBlk` on its slice, and column `b` lies in the slice of trip `b / 256`. -/
theorem read_pb (G : BufTy.Contents (Elt F) arg3.view.ty) :
    arg3.view.read (Elt F) (arg3.view.writes (Elt F) G
        (pb_k1_t1 (F := F) 𝒱 c bd i arg1 harg1 arg2 harg2 arg3 harg3 v0 X_arg1 k1_t1_loop.trips))
      = outBlk (arg1.view.read (Elt F) X_arg1) v0 := by
  have hcover : ∀ y : S8x1024.Idx, ∃ p ∈ pb_k1_t1 (F := F) 𝒱 c bd i arg1 harg1 arg2 harg2 arg3 harg3 v0 X_arg1 k1_t1_loop.trips,
      y ∈ p.1.set := fun y => by
    have hy0 : (y 0).val < 8 := idx2_lt0 y
    have hy1 : (y 1).val < 1024 := idx2_lt1 y
    have hq : (y 1).val / 256 < k1_t1_loop.trips := by rw [trips_four]; omega
    refine ⟨piece (arg1.view.read (Elt F) X_arg1) v0 ⟨(y 1).val / 256, hq⟩,
      (mem_pb 𝒱 c bd i arg1 harg1 arg2 harg2 arg3 harg3 v0 X_arg1 _ (Nat.le_refl _) _).mpr ⟨_, hq, rfl⟩, ?_⟩
    show y ∈ (sliceR ⟨(y 1).val / 256, hq⟩).set
    rw [Rect.mem_set_unit, k1_off1_eq]
    intro a
    match a with
    | ⟨0, _⟩ => show 0 ≤ (y 0).val ∧ (y 0).val < 0 + 8; omega
    | ⟨1, _⟩ => show 256 * ((y 1).val / 256) ≤ (y 1).val ∧ (y 1).val < 256 * ((y 1).val / 256) + 256; omega
  rw [View.read_writes_eq_canon _ _ _ hcover]
  funext y
  refine View.canon_apply_of_pieces (outBlk (arg1.view.read (Elt F) X_arg1) v0) _ (fun p hp x => ?_) y (hcover y)
  obtain ⟨k, -, rfl⟩ := (mem_pb 𝒱 c bd i arg1 harg1 arg2 harg2 arg3 harg3 v0 X_arg1 _ (Nat.le_refl _) p).mp hp
  exact piece_outBlk _ _ k x

end Pieces

/-! ## The body's triple -/

theorem hz3 : (![0, 0, 0] : Fin 3 → Nat) = fun _ => 0 := funext fun a => by fin_cases a <;> rfl

set_option maxHeartbeats 1000000 in
/-- The kernel body on whole staging memrefs: the address block `a` and the memory block `mb` are read and kept, the output
    block ends at `outBlk a mb` whatever it held. The memory block is loaded once, the loop goes by its invariant (the
    pieces of the trips so far), and the four slices read back as one function. -/
theorem sound_kernel1 (c : Dev nD) (E : Set ℕ) (i : grid1.Coords) (arg1 : Memref sig .tc .vmem S8x1024 .i32) (harg1 : arg1.IsWhole)
    (arg2 : Memref sig .tc .vmem S8x256x256 .i32) (harg2 : arg2.IsWhole) (arg3 : Memref sig .tc .vmem S8x1024 .i32) (harg3 : arg3.IsWhole)
    (a : Vec F S8x1024 .i32) (mb : Vec F S8x256x256 .i32) (K : PUnit → sProp 𝕄) :
    iprop(owns (c : Thread nD τ) arg1 fullShare a ∗ owns (c : Thread nD τ) arg2 fullShare mb ∗ (∃ d, owns (c : Thread nD τ) arg3 fullShare d)
        ∗ (iprop(owns (c : Thread nD τ) arg1 fullShare a ∗ owns (c : Thread nD τ) arg2 fullShare mb
            ∗ owns (c : Thread nD τ) arg3 fullShare (outBlk a mb)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (read_pb Variants.none c none i arg1 harg1 arg2 harg2 arg3 harg3 _ f1 f3).trans (congrArg (outBlk _) ?_)
  rw [View.readAt_eq_ld]
  exact View.ld_unit_zero (S := S8x256x256) hz3 _ _

/-! ## The pipeline's proof data -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`, at the entry contents `V`: the two input windows keep their blocks, the
    output window's buffer ends at `outBlk` of them; the invariant is the scoped rest and the generator register,
    which the body never touches; nothing is owed. -/
def dat1 (V : (c : Dev nD) → (b : Ref sig .tc) → Buf (Elt F) ((c : Thread nD τ).loc b)) (c : Dev nD) :
    Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outBlk (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := by
  dsimp only [dat1]
theorem owed1 (c : Dev nD) (t : Fin (cfg1.N + 1)) : (dat1 V c).owed t = 0 := by
  dsimp only [dat1]

theorem rec1 (c : Dev nD) : (dat1 V c).recorded 0 = Set.univ := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = outBlk (iblk1 V c 0 t) (iblk1 V c 1 t) := by dsimp only [dat1]

/-- Both input windows are fetched at every point, so the body finds each one's block in its current buffer. -/
theorem before1_0 (c : Dev nD) (t : Fin cfg1.N) (d) : (dat1 V c).before 0 t d = iblk1 V c 0 t := by
  rw [(dat1 V c).before_fetched 0 t (fetch1_0 t)]
  unfold Dat.fetched Dat.blockOf iblk1
  rw [A_eq1]; rfl
theorem before1_1 (c : Dev nD) (t : Fin cfg1.N) (d) : (dat1 V c).before 1 t d = iblk1 V c 1 t := by
  rw [(dat1 V c).before_fetched 1 t (fetch1_1 t)]
  unfold Dat.fetched Dat.blockOf iblk1
  rw [A_eq1]; rfl

/-! ## The body obligation -/

/-- The body at point `t`: called with the two input blocks in their buffers and the output's buffer at anything, it
    returns them with the output's at `outBlk` of the blocks; the invariant and the core's dues pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
        (iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)) : sProp 𝕄)) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The invariant at the first point, from the generator register and the scoped buffers no window stages (the region
    has no prefetched table: that conjunct is dropped). -/
theorem hin1 (c : Dev nD) :
    iprop((∃ r, prngReg c r) ∗ Pipeline.prefHeld (pcfgs (F := F) 1).pre c (fun _ => fullShare) ((cfgs 1).toPCfg_adm (Val := Elt F)).1
        ∗ Pipeline.scopedRest (Ix := Unit) (Name := ℕ) (U := UR sig nD τ) (Lvl := ℕ) (Val := Elt F) spec1 c)
      ⊢ ((dat1 V c).Φ 0 : sProp 𝕄) := by
  show _ ⊢ Pipeline.ΦA spec1 c
  unfold Pipeline.ΦA
  iintro ⟨Hgen, -, Hscoped⟩
  isplitl [Hscoped]
  · iexact Hscoped
  · iexact Hgen

/-- The invariant at the last point gives both back. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  show Pipeline.ΦA spec1 c ⊢ _
  unfold Pipeline.ΦA
  iintro ⟨Hscoped, Hgen⟩
  isplitl [Hgen]
  · iexact Hgen
  · iexact Hscoped

/-! ## The arrays the region leaves -/

/-- The input windows' arrays are never written. -/
theorem in1 (c : Dev nD) (w : Fin cfg1.W) (hw : w ≠ 2) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, h => exact absurd rfl h
  exact ((dat1 V c).arrAt_in w hin cfg1.N).trans (A_eq1 V c w)

/-- The block index maps over the grid: point `t` stages block `t` along the neuron axis of each array and block 0 along
    every other axis. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)

/-- Point `t`'s address block is neurons `8·t … 8·t + 7` of the address array, every sample. -/
theorem iblk_addr (c : Dev nD) (t : Fin cfg1.N) (T : Fin 256) (hT : T.val = t.val) (x : S8x1024.Idx) :
    (iblk1 V c 0 t : Vec F S8x1024 .i32) x
      = (V c main_v33 : Vec F S2048x1024 .i32) (ix2 (n0 := 2048) (n1 := 1024)
          ⟨8 * T.val + (x 0).val, by have := idx2_lt0 x; have := T.isLt; omega⟩ ⟨(x 1).val, idx2_lt1 x⟩) := by
  obtain ⟨e0, e1⟩ := idx1_0 t
  unfold iblk1
  rw [View.read_apply]
  show V c main_v33 _ = V c main_v33 _
  refine congrArg (V c main_v33) (funext fun d => Fin.ext ?_)
  match d with
  | ⟨0, _⟩ => show win1_0.index t 0 * 8 + 1 * (x 0).val = 8 * T.val + (x 0).val; rw [e0, hT]; omega
  | ⟨1, _⟩ => show win1_0.index t 1 * 1024 + 1 * (x 1).val = (x 1).val; rw [e1]; omega

/-- So its chunk `q` is the specification's chunk of the array. -/
theorem chunk_iblk (c : Dev nD) (t : Fin cfg1.N) (T : Fin 256) (hT : T.val = t.val) (q : Fin 4) :
    chunk (iblk1 V c 0 t) q = Spec.addrchunk (F := F) (V c main_v33) T q := by
  funext x
  unfold chunk Spec.addrchunk
  rw [iblk_addr V c t T hT]

/-- Point `t`'s memory block is neurons `8·t … 8·t + 7` of the memory table. -/
theorem iblk_mem (c : Dev nD) (t : Fin cfg1.N) (T : Fin 256) (hT : T.val = t.val) :
    (iblk1 V c 1 t : Vec F S8x256x256 .i32) = Spec.memblk (F := F) (V c main_v34) T := by
  obtain ⟨e0, e1, e2⟩ := idx1_1 t
  funext x
  unfold iblk1 Spec.memblk
  rw [View.read_apply]
  show V c main_v34 _ = V c main_v34 _
  refine congrArg (V c main_v34) (funext fun d => Fin.ext ?_)
  match d with
  | ⟨0, _⟩ => show win1_1.index t 0 * 8 + 1 * (x 0).val = 8 * T.val + (x 0).val; rw [e0, hT]; omega
  | ⟨1, _⟩ => show win1_1.index t 1 * 256 + 1 * (x 1).val = (x 1).val; rw [e1]; omega
  | ⟨2, _⟩ => show win1_1.index t 2 * 256 + 1 * (x 2).val = (x 2).val; rw [e2]; omega

/-- What point `t` leaves at place `j` of its output block is the lookup array at neuron `8·t + j₀`, sample `j₁`. -/
theorem outBlk_gather (c : Dev nD) (t : Fin cfg1.N) (j : S8x1024.Idx) (i : S2048x1024.Idx)
    (hi0 : (i 0).val = 8 * t.val + (j 0).val) (hi1 : (i 1).val = (j 1).val) :
    outBlk (iblk1 V c 0 t) (iblk1 V c 1 t) j = Spec.gatherArr (F := F) (V c main_v33) (V c main_v34) i := by
  have hj0 : (j 0).val < 8 := idx2_lt0 j
  have hj1 : (j 1).val < 1024 := idx2_lt1 j
  have ht : t.val < 256 := Nat.lt_of_lt_of_eq t.isLt N_1
  have eT : (⟨(i 0).val / 8, by have := idx2_lt0 i; omega⟩ : Fin 256) = ⟨t.val, ht⟩ :=
    Fin.ext (by show (i 0).val / 8 = t.val; omega)
  have eQ : (⟨(i 1).val / 256, by have := idx2_lt1 i; omega⟩ : Fin 4) = ⟨(j 1).val / 256, by omega⟩ :=
    Fin.ext (by show (i 1).val / 256 = (j 1).val / 256; rw [hi1])
  unfold outBlk Spec.gatherArr
  rw [eT, eQ, iblk_mem V c t ⟨t.val, ht⟩ rfl, chunk_iblk V c t ⟨t.val, ht⟩ rfl]
  refine congrArg (k1_pay1 _ _) (funext fun d => Fin.ext ?_)
  match d with
  | ⟨0, _⟩ => show (j 0).val = (i 0).val % 8; omega
  | ⟨1, _⟩ => show (j 1).val % 256 = (i 1).val % 256; rw [hi1]

/-- What point `t` writes back is its block of the lookup array. -/
theorem flushed1_eq (c : Dev nD) (t : Fin cfg1.N) :
    (dat1 V c).flushed 2 t
      = ((cfg1.win 2).blk t).view.read (Elt F) (Spec.gatherArr (F := F) (V c main_v33) (V c main_v34)) := by
  obtain ⟨e0, e1⟩ := idx1_2 t
  show (cfg1.win 2).cut (grid1.coords t) ((dat1 V c).after 2 t) = _
  rw [after1_2]
  funext y
  rw [View.read_apply]
  refine outBlk_gather V c t _ _ ?_ ?_
  · show win1_2.index t 0 * 8 + 1 * (y 0).val = 8 * t.val + (y 0).val; rw [e0]; omega
  · show win1_2.index t 1 * 1024 + 1 * (y 1).val = (y 1).val; rw [e1]; omega

/-- THE VALUE: after the region the output array is the lookup array of the two operand arrays as entered: every point
    writes its block of it back, and neuron `n` lies in the block of point `n / 8`. -/
theorem final1 (c : Dev nD) :
    (dat1 V c).arrAt 2 cfg1.N = Spec.gatherArr (F := F) (V c main_v33) (V c main_v34) := by
  refine (dat1 V c).arrAt_eq_of_cover 2 _ (fun t _ => flushed1_eq V c t) fun i => ?_
  have hi0 : (i 0).val < 2048 := idx2_lt0 i
  have hi1 : (i 1).val < 1024 := idx2_lt1 i
  obtain ⟨tq, htq⟩ : ∃ tq : Fin cfg1.N, tq.val = (i 0).val / 8 :=
    ⟨⟨(i 0).val / 8, Nat.lt_of_lt_of_eq (by omega : (i 0).val / 8 < 256) N_1.symm⟩, rfl⟩
  obtain ⟨e0, e1⟩ := idx1_2 tq
  refine ⟨tq, flush1_2 tq, ?_⟩
  show i ∈ ((View.whole main_v35).slice (win1_2.rect tq)).set
  rw [View.set_slice_whole, Rect.mem_set_unit]
  intro a
  match a with
  | ⟨0, _⟩ =>
    show win1_2.index tq 0 * 8 ≤ (i 0).val ∧ (i 0).val < win1_2.index tq 0 * 8 + 8
    rw [e0, htq]; omega
  | ⟨1, _⟩ =>
    show win1_2.index tq 1 * 1024 ≤ (i 1).val ∧ (i 1).val < win1_2.index tq 1 * 1024 + 1024
    rw [e1]; omega

end Cert.Kernel.R1

end
-- ==== Proof.K.Run.lean ====
import proofs.«419280_j21818433864468_2_alg».proof.Proof.Gen.Kernel.Regions
import proofs.«419280_j21818433864468_2_alg».proof.Proof.K.Dat0
import proofs.«419280_j21818433864468_2_alg».proof.Proof.K.Final0
import proofs.«419280_j21818433864468_2_alg».proof.Proof.K.Dat1

/-!
# The run of @main: host stretch, region 0, host stretch, region 1, host stretch

The two regions enter the launch theorem for a list of segments as records over their proof data; between them every
unscoped buffer is held at the contents the items before left. The run's post names the result array: what the last
host stretch computes from region 1's output array.
-/
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's entry contents, read at the TensorCore's references. -/
abbrev VV1 : (c : Dev nD) → (b : Ref sig .tc) → Buf (Elt F) ((c : Thread nD τ).loc b) := fun c b => Gen.V1 m c b

/-! ## What the regions leave

Region 0's result array is read off its proof data at the entry contents `VV1`; region 1's off its proof data at the
contents the second host stretch makes of region 0's result. The family of unknowns the valuations are written over is
then these two arrays at the two references the regions write, and the launch contents anywhere else (never read). -/

/-- Region 0's output array, as its proof data leave it after the last grid point. -/
def o2 (c : Dev nD) : Buf (Elt F) ((c : Thread nD τ).loc main_v32) := (R0.dat0 (VV1 m) c).arrAt 3 cfg0.N

/-- The unknowns with region 0's result alone named: enough to write region 1's entry contents. -/
def outsA : Gen.Outs (F := F) := fun _ r c =>
  if h : r = main_v32 then h ▸ o2 m c else m ((c : Thread nD τ).loc r)

/-- Region 1's entry contents over those unknowns. -/
abbrev VV3A : (c : Dev nD) → (b : Ref sig .tc) → Buf (Elt F) ((c : Thread nD τ).loc b) := fun c b => Gen.V3 m (outsA m) c b

/-- Region 1's output array, as its proof data leave it after the last grid point. -/
def o4 (c : Dev nD) : Buf (Elt F) ((c : Thread nD τ).loc main_v35) := (R1.dat1 (VV3A m) c).arrAt 2 cfg1.N

/-- What the two regions leave in the arrays they write. -/
def outs (m : (ℓ : Loc nD τ sig) → Buf (Elt F) ℓ) : Gen.Outs (F := F) := fun _ r c =>
  if h : r = main_v32 then h ▸ o2 m c
  else if h' : r = main_v35 then h' ▸ o4 m c
  else m ((c : Thread nD τ).loc r)

/-- Region 1's entry contents, read at the TensorCore's references. -/
abbrev VV3 : (c : Dev nD) → (b : Ref sig .tc) → Buf (Elt F) ((c : Thread nD τ).loc b) := fun c b => Gen.V3 m (outs m) c b

theorem outs2 (c : Dev nD) : outs m 2 main_v32 c = (R0.dat0 (VV1 m) c).arrAt 3 cfg0.N := by
  unfold outs; rw [dif_pos rfl]; rfl

/-- Region 1's entry contents depend on the unknowns through region 0's result alone. -/
theorem V3_congr (o o' : Gen.Outs (F := F)) (h : ∀ c, o 2 main_v32 c = o' 2 main_v32 c) (c : Dev nD) :
    Gen.V3 m o c = Gen.V3 m o' c := by
  unfold Gen.V3 Gen.V2; rw [h c]

theorem outs4 (c : Dev nD) : outs m 4 main_v35 c = (R1.dat1 (VV3 m) c).arrAt 2 cfg1.N := by
  have hV : VV3 m = VV3A m := by
    funext c b
    exact congrFun (V3_congr m (outs m) (outsA m) (fun c => by unfold outs outsA; rw [dif_pos rfl, dif_pos rfl]) c) b
  rw [hV]; unfold outs; rw [dif_neg (by decide), dif_pos rfl]; rfl

/-! ## The proof data family, the algebra's parameters, the rest state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => R0.dat0 (VV1 m) c
  | ⟨1, _⟩ => fun c => R1.dat1 (VV3 m) c

/-- No core owes another anything: no level is assigned. -/
abbrev LL : GSem nD τ sig → Finset Unit := fun _ => ∅
abbrev lvv : GSem nD τ sig → Unit → ℕ := fun _ _ => 0

/-- What rides beside the buffers through every item: the core's generator register at some state and its dues, at
    nothing. -/
abbrev EE (c : Dev nD) : sProp 𝕄 :=
  iprop((∃ r, prngReg c r) ∗ ∃ W, owes (c : Thread nD τ) (0 : CellTallies nD τ sig Unit) W)

/-- Region 0's exit contents, read at the TensorCore's references. -/
abbrev VV2 : (c : Dev nD) → (b : Ref sig .tc) → Buf (Elt F) ((c : Thread nD τ).loc b) := fun c b => Gen.V2 m (outs m) c b
/-- Region 1's exit contents, read at the TensorCore's references. -/
abbrev VV4 : (c : Dev nD) → (b : Ref sig .tc) → Buf (Elt F) ((c : Thread nD τ).loc b) := fun c b => Gen.V4 m (outs m) c b

/-! ## The arrays at the regions' exits -/

/-- At region 0's exit each of its arrays holds what the pipeline leaves: the output array the named result, an input
    array what it held at entry. -/
theorem hF0 (c : Dev nD) (w : Fin cfg0.W) : (pdats m 0 c).arrAt w cfg0.N = VV2 m c (Pipeline.arrRef spec0 w) := by
  by_cases hw : w = 3
  · subst hw
    exact ((outs2 m c).symm.trans (Function.update_self (β := fun b : DevRef τ sig => b.ty.Contents (Elt F)) _ _ _).symm)
  · have hne : Pipeline.arrRef spec0 w ∉ ([main_v32] : List (Ref sig .tc)) := fun h =>
      hw (launch0.win.arr_inj ((List.mem_singleton.mp h).trans (rfl : main_v32 = Pipeline.arrRef spec0 3)))
    exact (R0.in0 (VV1 m) c w hw).trans (Gen.V2_of m (outs m) c _ hne).symm

/-- Every buffer that is no array of region 0 holds at its exit what it held at entry. -/
theorem hrest0 (c : Dev nD) : ∀ b, b ∉ Finset.univ.image (Pipeline.arrRef spec0) → VV2 m c b = VV1 m c b := fun b hb =>
  Gen.V2_of m (outs m) c b fun h => hb (Finset.mem_image.mpr ⟨3, Finset.mem_univ _, (List.mem_singleton.mp h).symm⟩)

/-- At region 1's exit, likewise. -/
theorem hF1 (c : Dev nD) (w : Fin cfg1.W) : (pdats m 1 c).arrAt w cfg1.N = VV4 m c (Pipeline.arrRef spec1 w) := by
  by_cases hw : w = 2
  · subst hw
    exact ((outs4 m c).symm.trans (Function.update_self (β := fun b : DevRef τ sig => b.ty.Contents (Elt F)) _ _ _).symm)
  · have hne : Pipeline.arrRef spec1 w ∉ ([main_v35] : List (Ref sig .tc)) := fun h =>
      hw (launch1.win.arr_inj ((List.mem_singleton.mp h).trans (rfl : main_v35 = Pipeline.arrRef spec1 2)))
    exact (R1.in1 (VV3 m) c w hw).trans (Gen.V4_of m (outs m) c _ hne).symm

theorem hrest1 (c : Dev nD) : ∀ b, b ∉ Finset.univ.image (Pipeline.arrRef spec1) → VV4 m c b = VV3 m c b := fun b hb =>
  Gen.V4_of m (outs m) c b fun h => hb (Finset.mem_image.mpr ⟨2, Finset.mem_univ _, (List.mem_singleton.mp h).symm⟩)

/-! ## The dues and the tables at a region's two ends -/

/-- A core that owes nothing, whatever pairs its waits have recorded, owes the proof data's first tallies within the
    first bound — when those tallies are zero and the bound leaves out no pair. -/
theorem owesAt_first {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [h0, hr, Set.univ_union]
  iintro ⟨%W, H⟩
  iexists W
  isplitr
  · ipureintro; exact Set.subset_univ _
  · iexact H

/-- At the last point the proof data's dues are nothing again: the bound on the recorded pairs is forgotten. -/
theorem owes_of_owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  unfold Pipeline.Dat.owesAt Pipeline.owesWithin
  rw [hN]
  iintro ⟨%W, -, H⟩
  iexists W
  iexact H

/-- Neither pallas_call has a prefetched table: holding the tables is holding nothing. -/
theorem prefHeld_none (p : Fin 2) (c : Dev nD) :
    (BI.emp : sProp 𝕄) ⊢ Pipeline.prefHeld (pcfgs (F := F) p).pre c (fun _ => fullShare) (Gen.adm (F := F) p).1 := by
  unfold Pipeline.prefHeld
  rw [Finset.univ_eq_empty, BI.bigSep_empty]

/-! ## The regions as segments -/

set_option backward.isDefEq.respectTransparency.types false in
/-- REGION 0 over the thread state: entered from every unscoped buffer at the contents the items before left, left at
    those contents with its output array replaced by the named result. Its arrays are split out of the unscoped buffers
    at entry and put back at exit; the generator register and the scoped buffers no window stages go into the proof
    data's invariant at the first point and come back at the last; nothing is owed; the kernel has no semaphore of its
    own. -/
def reg0 : RegionSeg (pcfgs (F := F)) Gen.adm (pdats m) () defs₀ Variants.none LL lvv 0 where
  win := launch0.win.to₀
  block_pos := launch0.block_pos
  stage_whole := launch0.stage_whole
  K := PEmpty
  osem k := k.elim
  ho := Pipeline.OwnSemFacts.none _
  hbody c := (R0.body_obligation0 (VV1 m) c).loose
  hwaits := Pipeline.hwaits_of_owed_zero _ _ _ _ LL lvv 0 fun c t => R0.owed0 (VV1 m) c t
  pre c := iprop(StableHlo.held (c : Thread nD τ) (Pipeline.ucRefs τ sig) (Gen.V1 m c) ∗ EE c)
  post c := iprop(StableHlo.held (c : Thread nD τ) (Pipeline.ucRefs τ sig) (Gen.V2 m (outs m) c) ∗ EE c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    have hsplit := Pipeline.arrays_of_unscopedBufs (p := 0) (pcfgs (F := F)) Gen.adm (pdats m) launch0.win launch0.arr_whole c
      ((pdats m 0 c).share_full fun w => R0.q0 (VV1 m) c w) (VV1 m c) fun w => R0.A_eq0 (VV1 m) c w
    rw [Pipeline.unscopedBufs_held] at hsplit
    have hdue := owesAt_first (pdats m 0 c) (R0.owed0 (VV1 m) c 0) (R0.rec0 (VV1 m) c)
    have htab := prefHeld_none (F := F) 0 c
    iintro ⟨⟨Hbufs, Hgen, Hdue⟩, -, -⟩
    imodintro
    ihave Hsp := hsplit $$ Hbufs
    icases Hsp with ⟨Harr, Hrest⟩
    isplitl [Harr]; · iexact Harr
    isplitr; · iapply htab; iempintro
    isplitl [Hdue]; · iapply hdue; iexact Hdue
    isplitl [Hgen]; · iexact Hgen
    iexact Hrest
  hin c := R0.hin0 (VV1 m) c
  hout c := by
    rw [Pipeline.ownSems0_none]
    refine (R0.hout0 (VV1 m) c).trans ?_
    iintro ⟨Hgen, Hsc⟩
    isplitl [Hgen]; · iexact Hgen
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => R0.q0 (VV1 m) c w)
      (VV1 m c) (VV2 m c) ((pdats m 0 c).arrAt · cfg0.N) (hF0 m c) (hrest0 m c)
    rw [Pipeline.unscopedBufs_held] at hjoin
    have hdue := owes_of_owesAt_last (pdats m 0 c) (R0.owed0 (VV1 m) c (Fin.last _))
    iintro ⟨Harr, Hdue, Hgen, Hrest⟩
    imodintro
    isplitl [Harr Hrest]
    · iapply hjoin; isplitl [Harr]; · iexact Harr
      iexact Hrest
    isplitl [Hgen]; · iexact Hgen
    iapply hdue; iexact Hdue

set_option backward.isDefEq.respectTransparency.types false in
/-- REGION 1 over the thread state: entered from every unscoped buffer at the contents the items before left, left at
    those contents with its output array replaced by the named result. Its arrays are split out of the unscoped buffers
    at entry and put back at exit; the generator register and the scoped buffers no window stages go into the proof
    data's invariant at the first point and come back at the last; nothing is owed; the kernel has no semaphore of its
    own. -/
def reg1 : RegionSeg (pcfgs (F := F)) Gen.adm (pdats m) () defs₀ Variants.none LL lvv 1 where
  win := launch1.win.to₀
  block_pos := launch1.block_pos
  stage_whole := launch1.stage_whole
  K := PEmpty
  osem k := k.elim
  ho := Pipeline.OwnSemFacts.none _
  hbody c := (R1.body_obligation1 (VV3 m) c).loose
  hwaits := Pipeline.hwaits_of_owed_zero _ _ _ _ LL lvv 1 fun c t => R1.owed1 (VV3 m) c t
  pre c := iprop(StableHlo.held (c : Thread nD τ) (Pipeline.ucRefs τ sig) (Gen.V3 m (outs m) c) ∗ EE c)
  post c := iprop(StableHlo.held (c : Thread nD τ) (Pipeline.ucRefs τ sig) (Gen.V4 m (outs m) c) ∗ EE c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    have hsplit := Pipeline.arrays_of_unscopedBufs (p := 1) (pcfgs (F := F)) Gen.adm (pdats m) launch1.win launch1.arr_whole c
      ((pdats m 1 c).share_full fun w => R1.q1 (VV3 m) c w) (VV3 m c) fun w => R1.A_eq1 (VV3 m) c w
    rw [Pipeline.unscopedBufs_held] at hsplit
    have hdue := owesAt_first (pdats m 1 c) (R1.owed1 (VV3 m) c 0) (R1.rec1 (VV3 m) c)
    have htab := prefHeld_none (F := F) 1 c
    iintro ⟨⟨Hbufs, Hgen, Hdue⟩, -, -⟩
    imodintro
    ihave Hsp := hsplit $$ Hbufs
    icases Hsp with ⟨Harr, Hrest⟩
    isplitl [Harr]; · iexact Harr
    isplitr; · iapply htab; iempintro
    isplitl [Hdue]; · iapply hdue; iexact Hdue
    isplitl [Hgen]; · iexact Hgen
    iexact Hrest
  hin c := R1.hin1 (VV3 m) c
  hout c := by
    rw [Pipeline.ownSems0_none]
    refine (R1.hout1 (VV3 m) c).trans ?_
    iintro ⟨Hgen, Hsc⟩
    isplitl [Hgen]; · iexact Hgen
    isplitr; · iempintro
    iexact Hsc
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => R1.q1 (VV3 m) c w)
      (VV3 m c) (VV4 m c) ((pdats m 1 c).arrAt · cfg1.N) (hF1 m c) (hrest1 m c)
    rw [Pipeline.unscopedBufs_held] at hjoin
    have hdue := owes_of_owesAt_last (pdats m 1 c) (R1.owed1 (VV3 m) c (Fin.last _))
    iintro ⟨Harr, Hdue, Hgen, Hrest⟩
    imodintro
    isplitl [Harr Hrest]
    · iapply hjoin; isplitl [Harr]; · iexact Harr
      iexact Hrest
    isplitl [Hgen]; · iexact Hgen
    iapply hdue; iexact Hdue

/-! ## The launch -/

set_option backward.isDefEq.respectTransparency.types false in
/-- THE RUN, GIVEN THE REGIONS' RECORDS. For any user algebra, level assignment, launch dues and ghost resources, any rest
    states `E` the launch makes on every core at once and that end owing nothing, any contents the regions leave and any
    proof data: given, per region, a segment record entered from the thread state before it and left at the one after
    it, every weakly fair execution of @main from memory `m` with zero counters terminates, and every final memory holds
    the result array at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V3 m outs c) ∗ E 1 c) ⊢ R1.pre c)
    (hpost1 : ∀ c : Dev nD, R1.post c ⊢ iprop(StableHlo.held (c : Thread nD τ) (Pipeline.ucRefs τ sig) (Gen.V4 m outs c) ∗ E 2 c)) :
    θ_run defs (onTc (τ := τ) (main (F := F))) ⟨m, fun _ => 0, ρ⟩ (fun r => ∀ c : Dev nD,
      r.2.mem ((c.tc : Thread nD τ).loc main_v39) = Gen.V5 m outs c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m outs c))
    (hch := fun c => ⟨.rfl, hpre0 c, hpost0 c, hpre1 c, hpost1 c, sep_mono .rfl (hE2 c)⟩)
    (hinit := ?_) (QY := fun c s => s.mem ((c.tc : Thread nD τ).loc main_v39) = Gen.V5 m outs c main_v39 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result array and each argument's buffer read off the last valuation
    unfold StableHlo.held
    iintro ⟨Hh, HSI⟩
    ihave Hr := (pointsTo_read_all (Pipeline.ucRefs τ sig) (fun b => ((c : Thread nD τ).1, b)) (Gen.V5 m outs c) s') $$ [Hh HSI]
    · isplitl [Hh] <;> iassumption
    icases Hr with ⟨%h, HSI⟩
    imodintro
    isplitr
    · ipureintro
      exact ⟨h (Proc.devRef .tc main_v39) (Finset.mem_filter.mpr ⟨StableHlo.devRef_mem_tcRefs main_v39, by decide⟩),
        (h (Proc.devRef .tc main_arg0) (Finset.mem_filter.mpr ⟨StableHlo.devRef_mem_tcRefs main_arg0, by decide⟩)).trans (Gen.V5_main_arg0 m outs c),
        (h (Proc.devRef .tc main_arg1) (Finset.mem_filter.mpr ⟨StableHlo.devRef_mem_tcRefs main_arg1, by decide⟩)).trans (Gen.V5_main_arg1 m outs c),
        (h (Proc.devRef .tc main_arg2) (Finset.mem_filter.mpr ⟨StableHlo.devRef_mem_tcRefs main_arg2, by decide⟩)).trans (Gen.V5_main_arg2 m outs c)⟩
    · iexact HSI

/-- The launch element: the pipeline library's at every pipeline's staging cells, no further ghost resource. -/
abbrev u₀ : UR sig nD τ := initOf (Pipeline.cells cfgs cellOf_inj) (Pipeline.launchToks cfgs cellOf_inj)

/-- The launch element yields the pipeline library's; no core gets a ghost resource of the certificate's own. -/
theorem launch_elem : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [BI.bigSep_emp_const]
  iintro Hu
  imodintro
  isplitl [Hu]
  · iapply (show (ownU u₀ : sProp 𝕄) ⊢ BI.own (emb₁ u₀) from .rfl); iexact Hu
  · iempintro

/-- Every core makes its first rest state from what the launch deals it: the generator register at the launched state,
    the dues at nothing with no pair recorded. -/
theorem rest_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts LL lvv)
      ⊢ (|={Set.univ}=> bigSep Finset.univ (fun c : Dev nD => EE (F := F) c) : sProp 𝕄) :=
  Pipeline.initEach LL lvv fun c => by
    iintro ⟨⟨-, Hdue, -, Hgen, -⟩, -⟩
    imodintro
    isplitl [Hgen]
    · iexists _; iexact Hgen
    · iexists ∅; iexact Hdue

/-- THE RUN: every weakly fair execution of @main terminates; the result array ends at what the last host stretch makes of
    region 1's output, and the arguments end as launched. -/
theorem run_main : θ_run defs (onTc (τ := τ) (main (F := F))) ⟨m, fun _ => 0, ρ⟩ (fun r => ∀ c : Dev nD,
      r.2.mem ((c.tc : Thread nD τ).loc main_v39) = Gen.V5 m (outs m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m ρ emb₁ () Variants.none LL lvv (fun _ _ => rfl) (outs m) (pdats m) 0 (fun _ => iprop(emp)) u₀ launch_elem
    (fun _ c => EE c) (rest_init ρ) (fun c => by iintro ⟨-, Hdue⟩; iexact Hdue)
    (reg0 m) (fun _ => .rfl) (fun _ => .rfl) (reg1 m) (fun _ => .rfl) (fun _ => .rfl)

end Cert.Kernel.Run

end
-- ==== Proof.KI.Spec.lean ====
import proofs.«419280_j21818433864468_2_alg».proof.Proof.Gen.KernelIdeal.Skeleton
import Idealize.ShloMosaic.Lib.ValueIdx

/-!
# What the two kernel regions compute, as whole-array functions

Region 0 multiplies the 1024×4096 bit matrix with the low and the high byte plane of the 4096×2048 weight table,
512 rows of the table at a time (eight steps per column block of 256 neurons), and at the last step
writes `round(lo) + 256·round(hi)` as an integer: the address of each (sample, neuron). Region 1 reads,
for eight neurons at a time and 256 samples per trip, the least significant bit of the memory word at that address
through two one-hot selections. The definitions below spell both results over the body's own arithmetic
(the generated payload terms), at any float instance; the arithmetic specification over the naturals follows.
-/

set_option synthInstance.maxSize 4096

noncomputable section

open scoped BigOperators

namespace Cert.KernelIdeal.Spec

open Idealize.ShloMosaic Idealize.SL.Sem Idealize.ShloMosaic.ValueIdx
open Cert.KernelIdeal Cert.KernelIdeal.Gen

variable {F : FTy → Type} [FloatOps F]

/-! ## Region 0: the address matmul, accumulated over eight row blocks of the weight table -/

/-- Columns `512·k … 512·k + 511` of the bit matrix. -/
def xblk (x : Vec F S1024x4096 .bf16) (k : Fin 8) : Vec F S1024x512 .bf16 :=
  fun j => x (ix2 (n0 := 1024) (n1 := 4096) ⟨(j 0).val, idx2_lt0 j⟩
    ⟨512 * k.val + (j 1).val, by have := idx2_lt1 j; have := k.isLt; omega⟩)

/-- Rows `512·k …` and columns `256·i …` of a byte plane of the weight table. -/
def wblk (w : Vec F S4096x2048 .bf16) (k i : Fin 8) : Vec F S512x256 .bf16 :=
  fun j => w (ix2 (n0 := 4096) (n1 := 2048)
    ⟨512 * k.val + (j 0).val, by have := idx2_lt0 j; have := k.isLt; omega⟩
    ⟨256 * i.val + (j 1).val, by have := idx2_lt1 j; have := i.isLt; omega⟩)

/-- The low-plane accumulator of column block `i` after `k` row blocks: zero, then one matmul added per block. -/
def accLo (x : Vec F S1024x4096 .bf16) (w : Vec F S4096x2048 .bf16) (i : Fin 8) : ℕ → Vec F S1024x256 .f32
  | 0 => k0_pay1
  | k + 1 => if h : k < 8 then k0_pay3 (accLo x w i k) (xblk x ⟨k, h⟩) (wblk w ⟨k, h⟩ i) else accLo x w i k

/-- The high-plane accumulator, likewise. -/
def accHi (x : Vec F S1024x4096 .bf16) (w : Vec F S4096x2048 .bf16) (i : Fin 8) : ℕ → Vec F S1024x256 .f32
  | 0 => k0_pay2
  | k + 1 => if h : k < 8 then k0_pay4 (accHi x w i k) (xblk x ⟨k, h⟩) (wblk w ⟨k, h⟩ i) else accHi x w i k

/-- Region 0's result array: at (sample, neuron) the last step's word of the neuron's column block. -/
def addrArr (x : Vec F S1024x4096 .bf16) (wlo whi : Vec F S4096x2048 .bf16) : IVec S1024x2048 32 :=
  fun j => k0_pay5
    (accLo x wlo ⟨(j 1).val / 256, by have := idx2_lt1 j; omega⟩ 8)
    (accHi x whi ⟨(j 1).val / 256, by have := idx2_lt1 j; omega⟩ 8)
    (ix2 (n0 := 1024) (n1 := 256) ⟨(j 0).val, idx2_lt0 j⟩ ⟨(j 1).val % 256, Nat.mod_lt _ (by decide)⟩)

/-! ## Region 1: the two-level one-hot lookup, eight neurons per grid point, 256 samples per trip -/

/-- Neurons `8·t … 8·t + 7` of the memory table read as 256 × 256 words each. -/
def memblk (mem : Vec F S2048x256x256 .i32) (t : Fin 256) : Vec F S8x256x256 .i32 :=
  fun j => mem (ix3 (n0 := 2048) (n1 := 256) (n2 := 256)
    ⟨8 * t.val + (j 0).val, by have h : (j 0).val < 8 := (j 0).isLt; have := t.isLt; omega⟩
    ⟨(j 1).val, (j 1).isLt⟩ ⟨(j 2).val, (j 2).isLt⟩)

/-- Neurons `8·t …`, samples `256·q …` of the transposed address array. -/
def addrchunk (a : Vec F S2048x1024 .i32) (t : Fin 256) (q : Fin 4) : Vec F S8x256 .i32 :=
  fun j => a (ix2 (n0 := 2048) (n1 := 1024)
    ⟨8 * t.val + (j 0).val, by have := idx2_lt0 j; have := t.isLt; omega⟩
    ⟨256 * q.val + (j 1).val, by have := idx2_lt1 j; have := q.isLt; omega⟩)

/-- Region 1's result array: at (neuron, sample) the trip's word for the neuron's block and the sample's chunk. -/
def gatherArr (a : Vec F S2048x1024 .i32) (mem : Vec F S2048x256x256 .i32) : IVec S2048x1024 32 :=
  fun j => k1_pay1
    (memblk mem ⟨(j 0).val / 8, by have := idx2_lt0 j; omega⟩)
    (addrchunk a ⟨(j 0).val / 8, by have := idx2_lt0 j; omega⟩ ⟨(j 1).val / 256, by have := idx2_lt1 j; omega⟩)
    (ix2 (n0 := 8) (n1 := 256) ⟨(j 0).val % 8, Nat.mod_lt _ (by decide)⟩ ⟨(j 1).val % 256, Nat.mod_lt _ (by decide)⟩)

/-! ## The arithmetic specification, over the naturals -/

/-- Input bit (sample `b`, input `t`) as a natural number. -/
def bitNat (bits : IVec S1024x4096 32) (b : Fin 1024) (t : Fin 4096) : ℕ := (bits (ix2 b t)).toNat
/-- Connection `k` of neuron `n` as a natural number. -/
def connNat (conn : IVec S2048x16 32) (n : Fin 2048) (k : Fin 16) : ℕ := (conn (ix2 n k)).toNat

/-- The domain the claim is stated on: inputs are bits, connections index the 4096 inputs. -/
def PreOK (bits : IVec S1024x4096 32) (conn : IVec S2048x16 32) : Prop :=
  (∀ b t, bitNat bits b t ≤ 1) ∧ (∀ n k, connNat conn n k < 4096)

/-- The weight table: entry (input `t`, neuron `n`) sums `2^k` over the connections `k` of `n` wired to `t`. -/
def Wnat (conn : IVec S2048x16 32) (t : Fin 4096) (n : Fin 2048) : ℕ :=
  ∑ k : Fin 16, if connNat conn n k = t.val then 2 ^ k.val else 0

/-- The address of (sample `b`, neuron `n`): the wired bits weighted by powers of two. -/
def addrNat (bits : IVec S1024x4096 32) (conn : IVec S2048x16 32) (b : Fin 1024) (n : Fin 2048) : ℕ :=
  ∑ k : Fin 16, 2 ^ k.val * bitNat bits b ⟨connNat conn n k % 4096, Nat.mod_lt _ (by decide)⟩

/-- The result: whether the memory word of neuron `n` at the address of (`b`, `n`) is odd. -/
def outSpec (bits : IVec S1024x4096 32) (conn : IVec S2048x16 32) (mem : IVec S2048x65536 32) : IVec S1024x2048 1 :=
  fun j => if (mem (ix2 (n0 := 2048) (n1 := 65536) ⟨(j 1).val, idx2_lt1 j⟩
      ⟨addrNat bits conn ⟨(j 0).val, idx2_lt0 j⟩ ⟨(j 1).val, idx2_lt1 j⟩ % 65536, Nat.mod_lt _ (by decide)⟩)) &&& 1#32 = 0#32
    then 0#1 else 1#1

/-! ## The kernel's host-side arrays at the ideal instance, as reals -/

/-- The bit matrix converted to floats: each integer word as the real number it denotes (signed). -/
def xR (bits : IVec S1024x4096 32) : Vec Ideal S1024x4096 .bf16 :=
  fun j => (((bits j).toInt : ℝ) : EReal)
/-- The low byte plane of the weight table, as reals. -/
def wloR (conn : IVec S2048x16 32) : Vec Ideal S4096x2048 .bf16 :=
  fun j => (((Wnat conn ⟨(j 0).val, idx2_lt0 j⟩ ⟨(j 1).val, idx2_lt1 j⟩ % 256 : ℕ) : ℝ) : EReal)
/-- The high byte plane of the weight table, as reals. -/
def whiR (conn : IVec S2048x16 32) : Vec Ideal S4096x2048 .bf16 :=
  fun j => (((Wnat conn ⟨(j 0).val, idx2_lt0 j⟩ ⟨(j 1).val, idx2_lt1 j⟩ / 256 : ℕ) : ℝ) : EReal)

/-- The address array as 32-bit words. -/
def addrW (bits : IVec S1024x4096 32) (conn : IVec S2048x16 32) : IVec S1024x2048 32 :=
  fun j => BitVec.ofNat 32 (addrNat bits conn ⟨(j 0).val, idx2_lt0 j⟩ ⟨(j 1).val, idx2_lt1 j⟩)

end Cert.KernelIdeal.Spec

end
-- ==== Proof.KI.Dat0.lean ====
import proofs.«419280_j21818433864468_2_alg».proof.Proof.Gen.KernelIdeal.Launch
import proofs.«419280_j21818433864468_2_alg».proof.Proof.Gen.KernelIdeal.Skeleton
import proofs.«419280_j21818433864468_2_alg».proof.Proof.Gen.KernelIdeal.Points
import proofs.«419280_j21818433864468_2_alg».proof.Proof.Gen.KernelIdeal.Loops
import proofs.«419280_j21818433864468_2_alg».proof.Proof.KI.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0 (the address matmul): proof data, body obligation, and the array it leaves

The grid is 8 × 8: the first coordinate picks a block of 256 neurons, the second walks the 4096 inputs 512 at a time.
Two scratch accumulators are reset at the first step of each column block, added to at every step, and at the
last step their rounded combination is stored to the output block, which is written back there and only there.
-/
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the three operand arrays -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The bit-matrix block, the low-plane block and the high-plane block at point `t`, at their literal types. -/
abbrev xb (c : Dev nD) (t : Fin cfg0.N) : Vec F S1024x512 .bf16 := iblk0 V c 0 t
abbrev lb (c : Dev nD) (t : Fin cfg0.N) : Vec F S512x256 .bf16 := iblk0 V c 1 t
abbrev hb (c : Dev nD) (t : Fin cfg0.N) : Vec F S512x256 .bf16 := iblk0 V c 2 t

/-- The bit matrix and the two byte planes of the weight table, as the region finds them. -/
abbrev xarr (c : Dev nD) : Vec F S1024x4096 .bf16 := V c main_v31
abbrev loarr (c : Dev nD) : Vec F S4096x2048 .bf16 := V c main_v27
abbrev hiarr (c : Dev nD) : Vec F S4096x2048 .bf16 := V c main_v30

/-! ## What the two accumulators hold after each point -/

/-- The low-plane accumulator after point `n`: column block `n / 8`, after `n % 8 + 1` row blocks. -/
def sLo (c : Dev nD) (n : ℕ) : Vec F S1024x256 .f32 :=
  Spec.accLo (xarr V c) (loarr V c) ⟨n / 8 % 8, Nat.mod_lt _ (by decide)⟩ (n % 8 + 1)

/-- The high-plane accumulator after point `n`, likewise. -/
def sHi (c : Dev nD) (n : ℕ) : Vec F S1024x256 .f32 :=
  Spec.accHi (xarr V c) (hiarr V c) ⟨n / 8 % 8, Nat.mod_lt _ (by decide)⟩ (n % 8 + 1)

/-! ## The invariant between points -/

/-- The two accumulators as whole memrefs. -/
abbrev scM0 : Memref sig .tc .vmem S1024x256 .f32 := Memref.whole cc0_scratch0
abbrev scM1 : Memref sig .tc .vmem S1024x256 .f32 := Memref.whole cc0_scratch1

/-- The scoped buffers of the core that belong to the other kernel: each whole, at some contents. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before point `n`: the accumulators at some contents, which after the first point are what the point before
    left; the other kernel's scoped buffers and the generator register at anything. -/
def Phi0 (c : Dev nD) (n : ℕ) : sProp 𝕄 :=
  iprop(∃ (lo hi : Vec F S1024x256 .f32), ⌜n ≠ 0 → lo = sLo V c (n - 1) ∧ hi = sHi V c (n - 1)⌝
    ∗ owns (c : Thread nD τ) scM0 fullShare lo ∗ owns (c : Thread nD τ) scM1 fullShare hi ∗ rest6 c ∗ (∃ r, prngReg c r))

/-! ## The proof data -/

/-- The proof data of pipeline 0 on core `c`, at the entry contents `V`. -/
def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (sLo V c t.val) (sHi V c t.val)
  Φ t := Phi0 V c t.val
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := by
  dsimp only [dat0]
theorem owed0 (c : Dev nD) (t : Fin (cfg0.N + 1)) : (dat0 V c).owed t = 0 := by
  dsimp only [dat0]
/-- The waits recorded before the first point are left unbounded. -/
theorem rec0 (c : Dev nD) : (dat0 V c).recorded 0 = Set.univ := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay5 (sLo V c t.val) (sHi V c t.val) := by dsimp only [dat0]
theorem Phi_eq0 (c : Dev nD) (t : Fin (cfg0.N + 1)) : (dat0 V c).Φ t = Phi0 V c t.val := by dsimp only [dat0]

/-- Each input's current staging buffer holds its block at every point, fetched there or not: the windows are
    uncut and never idle, and the body leaves their blocks in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body's two conditions, and where the output window is idle, in closed form of the point -/

/-- The first condition (the second grid coordinate is 0): the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second condition (the second grid coordinate is 7): the result is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idleAt0_3 : ∀ t : Fin cfg0.N, t.val % 8 ≠ 7 → cfg0.idle 3 (grid0.coords t) = true := by decide +kernel
theorem noFlush0_3 : ∀ t : Fin cfg0.N, t.val % 8 ≠ 7 → (cfg0.win 3).flush t = false := by decide +kernel
theorem liveAt0_3 : ∀ t : Fin cfg0.N, t.val % 8 = 7 → cfg0.idle 3 (grid0.coords t) = false := by decide +kernel

/-! ## The body's triple, one per control case -/

theorem hz : (![0, 0] : Fin 2 → Nat) = fun _ => 0 := funext fun a => by fin_cases a <;> rfl

set_option maxHeartbeats 1000000 in
/-- A middle step: both accumulators are loaded, one matmul is added to each, and they are stored back. -/
theorem run_B (c : Dev nD) (E : Set ℕ) (i : grid0.Coords)
    (arg2 : Memref sig .tc .vmem S1024x512 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S1024x256 .i32) (harg5 : arg5.IsWhole)
    (arg6 : Memref sig .tc .vmem S1024x256 .f32) (harg6 : arg6.IsWhole) (arg7 : Memref sig .tc .vmem S1024x256 .f32) (harg7 : arg7.IsWhole)
    (hc0 : ¬cond0_0 i) (hc1 : ¬cond0_1 i)
    (x : Vec F S1024x512 .bf16) (wl wh : Vec F S512x256 .bf16) (lo hi : Vec F S1024x256 .f32) (K : PUnit → sProp 𝕄) :
    iprop(owns (c : Thread nD τ) arg2 fullShare x ∗ owns (c : Thread nD τ) arg3 fullShare wl ∗ owns (c : Thread nD τ) arg4 fullShare wh
        ∗ owns (c : Thread nD τ) arg6 fullShare lo ∗ owns (c : Thread nD τ) arg7 fullShare hi
        ∗ (iprop(owns (c : Thread nD τ) arg2 fullShare x ∗ owns (c : Thread nD τ) arg3 fullShare wl ∗ owns (c : Thread nD τ) arg4 fullShare wh
            ∗ owns (c : Thread nD τ) arg6 fullShare (k0_pay3 lo x wl) ∗ owns (c : Thread nD τ) arg7 fullShare (k0_pay4 hi x wh)) -∗ K ⟨⟩))
      ⊢ wp frame (wpE (defs₀ (F := F)) Variants.none c none) E (cc0__addr_kernel i arg2 harg2 arg3 harg3 arg4 harg4 arg5 harg5 arg6 harg6 arg7 harg7) K := by
  simp only [cc0__addr_kernel_eq_skeleton]; unfold cc0__addr_kernel_skel
  unfold owns
  iintro ⟨⟨%f2, %hf2, H2⟩, ⟨%f3, %hf3, H3⟩, ⟨%f4, %hf4, H4⟩, ⟨%f6, %hf6, H6⟩, ⟨%f7, %hf7, H7⟩, Hk⟩
  obtain rfl := harg2.eq_unread hf2; obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    rw [View.read_writes_eq_canon _ _ _ (fun y => ⟨_, List.mem_singleton_self _, View.mem_set_unit_zero hz inb_S1024x256_S1024x256_0_0 y⟩), View.canon_unit_zero hz]
    simp only [View.readAt_eq_ld, harg6.read_unread, harg2.read_unread, harg3.read_unread,
      View.ld_unit_zero (S := S1024x256) hz, View.ld_unit_zero (S := S1024x512) hz, View.ld_unit_zero (S := S512x256) hz]
  · iexists _; isplitr
    swap; · iexact H7
    ipureintro
    rw [View.read_writes_eq_canon _ _ _ (fun y => ⟨_, List.mem_singleton_self _, View.mem_set_unit_zero hz inb_S1024x256_S1024x256_0_0 y⟩), View.canon_unit_zero hz]
    simp only [View.readAt_eq_ld, harg7.read_unread, harg2.read_unread, harg4.read_unread,
      View.ld_unit_zero (S := S1024x256) hz, View.ld_unit_zero (S := S1024x512) hz, View.ld_unit_zero (S := S512x256) hz]

set_option maxHeartbeats 1000000 in
/-- The first step of a column block: both accumulators are zeroed, whatever they held, then the step is as any other. -/
theorem run_A (c : Dev nD) (E : Set ℕ) (i : grid0.Coords)
    (arg2 : Memref sig .tc .vmem S1024x512 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S1024x256 .i32) (harg5 : arg5.IsWhole)
    (arg6 : Memref sig .tc .vmem S1024x256 .f32) (harg6 : arg6.IsWhole) (arg7 : Memref sig .tc .vmem S1024x256 .f32) (harg7 : arg7.IsWhole)
    (hc0 : cond0_0 i) (hc1 : ¬cond0_1 i)
    (x : Vec F S1024x512 .bf16) (wl wh : Vec F S512x256 .bf16) (K : PUnit → sProp 𝕄) :
    iprop(owns (c : Thread nD τ) arg2 fullShare x ∗ owns (c : Thread nD τ) arg3 fullShare wl ∗ owns (c : Thread nD τ) arg4 fullShare wh
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare wl ∗ owns (c : Thread nD τ) arg4 fullShare wh
            ∗ owns (c : Thread nD τ) arg6 fullShare (k0_pay3 k0_pay1 x wl) ∗ owns (c : Thread nD τ) arg7 fullShare (k0_pay4 k0_pay2 x wh)) -∗ K ⟨⟩))
      ⊢ wp frame (wpE (defs₀ (F := F)) Variants.none c none) E (cc0__addr_kernel i arg2 harg2 arg3 harg3 arg4 harg4 arg5 harg5 arg6 harg6 arg7 harg7) K := by
  simp only [cc0__addr_kernel_eq_skeleton]; unfold cc0__addr_kernel_skel
  unfold owns
  iintro ⟨⟨%f2, %hf2, H2⟩, ⟨%f3, %hf3, H3⟩, ⟨%f4, %hf4, H4⟩, ⟨%d6, %f6, -, H6⟩, ⟨%d7, %f7, -, H7⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr
    swap; · iexact H6
    ipureintro
    sl_unfold_words
    rw [View.read_writes_eq_canon _ _ _ (fun y => ⟨_, List.mem_cons_self, View.mem_set_unit_zero hz inb_S1024x256_S1024x256_0_0 y⟩), View.canon_cons_unit_zero hz]
    simp only [View.readAt_eq_ld, View.readCov_unit_zero (S := S1024x256) _ hz, harg2.read_unread, harg3.read_unread,
      View.ld_unit_zero (S := S1024x512) hz, View.ld_unit_zero (S := S512x256) hz]
  · iexists _; isplitr
    swap; · iexact H7
    ipureintro
    sl_unfold_words
    rw [View.read_writes_eq_canon _ _ _ (fun y => ⟨_, List.mem_cons_self, View.mem_set_unit_zero hz inb_S1024x256_S1024x256_0_0 y⟩), View.canon_cons_unit_zero hz]
    simp only [View.readAt_eq_ld, View.readCov_unit_zero (S := S1024x256) _ hz, harg2.read_unread, harg4.read_unread,
      View.ld_unit_zero (S := S1024x512) hz, View.ld_unit_zero (S := S512x256) hz]

set_option maxHeartbeats 1000000 in
/-- The last step of a column block: after the step, the rounded combination of the two accumulators is stored to the output block. -/
theorem run_C (c : Dev nD) (E : Set ℕ) (i : grid0.Coords)
    (arg2 : Memref sig .tc .vmem S1024x512 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S1024x256 .i32) (harg5 : arg5.IsWhole)
    (arg6 : Memref sig .tc .vmem S1024x256 .f32) (harg6 : arg6.IsWhole) (arg7 : Memref sig .tc .vmem S1024x256 .f32) (harg7 : arg7.IsWhole)
    (hc0 : ¬cond0_0 i) (hc1 : cond0_1 i)
    (x : Vec F S1024x512 .bf16) (wl wh : Vec F S512x256 .bf16) (lo hi : Vec F S1024x256 .f32) (K : PUnit → sProp 𝕄) :
    iprop(owns (c : Thread nD τ) arg2 fullShare x ∗ owns (c : Thread nD τ) arg3 fullShare wl ∗ owns (c : Thread nD τ) arg4 fullShare wh
        ∗ (∃ d, owns (c : Thread nD τ) arg5 fullShare d)
        ∗ owns (c : Thread nD τ) arg6 fullShare lo ∗ owns (c : Thread nD τ) arg7 fullShare hi
        ∗ (iprop(owns (c : Thread nD τ) arg2 fullShare x ∗ owns (c : Thread nD τ) arg3 fullShare wl ∗ owns (c : Thread nD τ) arg4 fullShare wh
            ∗ owns (c : Thread nD τ) arg5 fullShare (k0_pay5 (k0_pay3 lo x wl) (k0_pay4 hi x wh))
            ∗ owns (c : Thread nD τ) arg6 fullShare (k0_pay3 lo x wl) ∗ owns (c : Thread nD τ) arg7 fullShare (k0_pay4 hi x wh)) -∗ K ⟨⟩))
      ⊢ wp frame (wpE (defs₀ (F := F)) Variants.none c none) E (cc0__addr_kernel i arg2 harg2 arg3 harg3 arg4 harg4 arg5 harg5 arg6 harg6 arg7 harg7) K := by
  simp only [cc0__addr_kernel_eq_skeleton]; unfold cc0__addr_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf2; obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_singleton_self _, View.mem_set_unit_zero hz inb_S1024x256_S1024x256_0_0 y⟩), View.canon_unit_zero hz]
    simp only [View.readCov_unit_zero (S := S1024x256) _ hz, View.readAt_eq_ld, harg6.read_unread, harg7.read_unread, harg2.read_unread,
      harg3.read_unread, harg4.read_unread,
      View.ld_unit_zero (S := S1024x256) hz, View.ld_unit_zero (S := S1024x512) hz, View.ld_unit_zero (S := S512x256) hz]
  isplitl [H6]
  · iexists _; isplitr
    swap; · iexact H6
    ipureintro
    sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg6.read_unread, harg2.read_unread, harg3.read_unread,
      View.ld_unit_zero (S := S1024x256) hz, View.ld_unit_zero (S := S1024x512) hz, View.ld_unit_zero (S := S512x256) hz]
  · iexists _; isplitr
    swap; · iexact H7
    ipureintro
    sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg7.read_unread, harg2.read_unread, harg4.read_unread,
      View.ld_unit_zero (S := S1024x256) hz, View.ld_unit_zero (S := S1024x512) hz, View.ld_unit_zero (S := S512x256) hz]

/-! ## The index maps in closed form of the point, and the blocks as restrictions of the arrays -/

/-- Point `t` is column block `t / 8`, row block `t % 8`: the bit matrix moves along its columns with the row
    block, the two planes along both, the result along its columns with the column block. -/
theorem idx_facts0 : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

theorem xb_eq (c : Dev nD) (t : Fin cfg0.N) :
    xb V c t = Spec.xblk (xarr V c) ⟨t.val % 8, Nat.mod_lt _ (by decide)⟩ := by
  obtain ⟨e0, e1, -⟩ := idx_facts0 t
  funext j
  show V c main_v31 (((cfg0.win 0).blk t).view.emb j) = V c main_v31 _
  refine congrArg (V c main_v31) (funext fun a => Fin.ext ?_)
  match a with
  | ⟨0, _⟩ => show win0_0.index t (0 : Fin 2) * 1024 + 1 * (j 0).val = (j 0).val; omega
  | ⟨1, _⟩ => show win0_0.index t (1 : Fin 2) * 512 + 1 * (j 1).val = 512 * (t.val % 8) + (j 1).val; omega

theorem lb_eq (c : Dev nD) (t : Fin cfg0.N) :
    lb V c t = Spec.wblk (loarr V c) ⟨t.val % 8, Nat.mod_lt _ (by decide)⟩ ⟨t.val / 8 % 8, Nat.mod_lt _ (by decide)⟩ := by
  obtain ⟨-, -, e0, e1, -⟩ := idx_facts0 t
  have hN : t.val < 64 := lt_of_lt_of_eq t.isLt (show cfg0.N = 64 from N_0)
  funext j
  show V c main_v27 (((cfg0.win 1).blk t).view.emb j) = V c main_v27 _
  refine congrArg (V c main_v27) (funext fun a => Fin.ext ?_)
  match a with
  | ⟨0, _⟩ => show win0_1.index t (0 : Fin 2) * 512 + 1 * (j 0).val = 512 * (t.val % 8) + (j 0).val; omega
  | ⟨1, _⟩ => show win0_1.index t (1 : Fin 2) * 256 + 1 * (j 1).val = 256 * (t.val / 8 % 8) + (j 1).val; omega

theorem hb_eq (c : Dev nD) (t : Fin cfg0.N) :
    hb V c t = Spec.wblk (hiarr V c) ⟨t.val % 8, Nat.mod_lt _ (by decide)⟩ ⟨t.val / 8 % 8, Nat.mod_lt _ (by decide)⟩ := by
  obtain ⟨-, -, -, -, e0, e1, -⟩ := idx_facts0 t
  have hN : t.val < 64 := lt_of_lt_of_eq t.isLt (show cfg0.N = 64 from N_0)
  funext j
  show V c main_v30 (((cfg0.win 2).blk t).view.emb j) = V c main_v30 _
  refine congrArg (V c main_v30) (funext fun a => Fin.ext ?_)
  match a with
  | ⟨0, _⟩ => show win0_2.index t (0 : Fin 2) * 512 + 1 * (j 0).val = 512 * (t.val % 8) + (j 0).val; omega
  | ⟨1, _⟩ => show win0_2.index t (1 : Fin 2) * 256 + 1 * (j 1).val = 256 * (t.val / 8 % 8) + (j 1).val; omega

/-! ## One step of each accumulator -/

theorem accLo_succ (x : Vec F S1024x4096 .bf16) (w : Vec F S4096x2048 .bf16) (i : Fin 8) (k : ℕ) (hk : k < 8) :
    Spec.accLo x w i (k + 1) = k0_pay3 (Spec.accLo x w i k) (Spec.xblk x ⟨k, hk⟩) (Spec.wblk w ⟨k, hk⟩ i) := by
  rw [Spec.accLo]; exact dif_pos hk

theorem accHi_succ (x : Vec F S1024x4096 .bf16) (w : Vec F S4096x2048 .bf16) (i : Fin 8) (k : ℕ) (hk : k < 8) :
    Spec.accHi x w i (k + 1) = k0_pay4 (Spec.accHi x w i k) (Spec.xblk x ⟨k, hk⟩) (Spec.wblk w ⟨k, hk⟩ i) := by
  rw [Spec.accHi]; exact dif_pos hk

/-- At the first row block of a column block the accumulator is the step applied to zero; -/
theorem sLo_first (c : Dev nD) (t : Fin cfg0.N) (h0 : t.val % 8 = 0) :
    sLo V c t.val = k0_pay3 k0_pay1 (xb V c t) (lb V c t) := by
  unfold sLo
  rw [accLo_succ _ _ _ (t.val % 8) (Nat.mod_lt _ (by decide)), xb_eq V c t, lb_eq V c t]
  have e : Spec.accLo (xarr V c) (loarr V c) ⟨t.val / 8 % 8, Nat.mod_lt _ (by decide)⟩ (t.val % 8) = k0_pay1 := by
    rw [h0]; rfl
  rw [e]

theorem sHi_first (c : Dev nD) (t : Fin cfg0.N) (h0 : t.val % 8 = 0) :
    sHi V c t.val = k0_pay4 k0_pay2 (xb V c t) (hb V c t) := by
  unfold sHi
  rw [accHi_succ _ _ _ (t.val % 8) (Nat.mod_lt _ (by decide)), xb_eq V c t, hb_eq V c t]
  have e : Spec.accHi (xarr V c) (hiarr V c) ⟨t.val / 8 % 8, Nat.mod_lt _ (by decide)⟩ (t.val % 8) = k0_pay2 := by
    rw [h0]; rfl
  rw [e]

/-- at every other row block, the step applied to what the point before left. -/
theorem sLo_next (c : Dev nD) (t : Fin cfg0.N) (h0 : t.val % 8 ≠ 0) :
    sLo V c t.val = k0_pay3 (sLo V c (t.val - 1)) (xb V c t) (lb V c t) := by
  unfold sLo
  rw [accLo_succ _ _ _ (t.val % 8) (Nat.mod_lt _ (by decide)), xb_eq V c t, lb_eq V c t]
  have e1 : (t.val - 1) / 8 % 8 = t.val / 8 % 8 := by omega
  have e2 : (t.val - 1) % 8 + 1 = t.val % 8 := by omega
  have hi : (⟨(t.val - 1) / 8 % 8, Nat.mod_lt _ (by decide)⟩ : Fin 8) = ⟨t.val / 8 % 8, Nat.mod_lt _ (by decide)⟩ := Fin.ext e1
  rw [hi, e2]

theorem sHi_next (c : Dev nD) (t : Fin cfg0.N) (h0 : t.val % 8 ≠ 0) :
    sHi V c t.val = k0_pay4 (sHi V c (t.val - 1)) (xb V c t) (hb V c t) := by
  unfold sHi
  rw [accHi_succ _ _ _ (t.val % 8) (Nat.mod_lt _ (by decide)), xb_eq V c t, hb_eq V c t]
  have e1 : (t.val - 1) / 8 % 8 = t.val / 8 % 8 := by omega
  have e2 : (t.val - 1) % 8 + 1 = t.val % 8 := by omega
  have hi : (⟨(t.val - 1) / 8 % 8, Nat.mod_lt _ (by decide)⟩ : Fin 8) = ⟨t.val / 8 % 8, Nat.mod_lt _ (by decide)⟩ := Fin.ext e1
  rw [hi, e2]

/-! ## The body obligation, at a generic point -/

/-- Each window's current staging memref at point `t`, as the pipeline passes it to the body. -/
abbrev ms0_0 (t : Fin cfg0.N) : Memref sig .tc .vmem S1024x512 .bf16 := win0_0.stage (cfg0.slots t 0)
abbrev ms0_1 (t : Fin cfg0.N) : Memref sig .tc .vmem S512x256 .bf16 := win0_1.stage (cfg0.slots t 1)
abbrev ms0_2 (t : Fin cfg0.N) : Memref sig .tc .vmem S512x256 .bf16 := win0_2.stage (cfg0.slots t 2)
abbrev ms0_3 (t : Fin cfg0.N) : Memref sig .tc .vmem S1024x256 .i32 := win0_3.stage (cfg0.slots t 3)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' memrefs hold their blocks; the point's row block says which of the three
    cases runs; the invariant hands the accumulators over at what the point before left (at anything where they
    are reset) and takes them back one step further; the output buffer is handed back untouched except at the
    last row block, where it receives the rounded combination. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi_eq0 V c t.castSucc, Phi_eq0 V c t.succ, Fin.coe_castSucc, Fin.val_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  unfold Phi0
  by_cases h0 : t.val % 8 = 0
  · have h7 : ¬t.val % 8 = 7 := by omega
    rw [Dat.leavesExact_idle (dat0 V c) 3 t (idleAt0_3 t h7) (noFlush0_3 t h7)]
    iintro ⟨⟨%lo, %hi, -, HS0, HS1, Hr6, Hg⟩, Ho, ⟨%d0, H0⟩, ⟨%d1, H1⟩, ⟨%d2, H2⟩, ⟨%d3, H3⟩⟩
    iapply (run_A c Set.univ (grid0.coords t) _ _ _ _ _ _ _ _ _ _ _ _ ((hcond0_0 t).mpr h0) (fun h => h7 ((hcond0_1 t).mp h)) (xb V c t) (lb V c t) (hb V c t) _)
    isplitl [H0]; · iexact H0
    isplitl [H1]; · iexact H1
    isplitl [H2]; · iexact H2
    isplitl [HS0]; · iexists _; iexact HS0
    isplitl [HS1]; · iexists _; iexact HS1
    iintro ⟨H0, H1, H2, HS0, HS1⟩
    isplitl [HS0 HS1 Hr6 Hg]
    · iexists _; iexists _; isplitr
      · ipureintro; intro _; rw [Nat.add_sub_cancel]; exact ⟨(sLo_first V c t h0).symm, (sHi_first V c t h0).symm⟩
      isplitl [HS0]; · iexact HS0
      isplitl [HS1]; · iexact HS1
      isplitl [Hr6]; · iexact Hr6
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h7 : t.val % 8 = 7
    · rw [show (dat0 V c).leavesExact 3 t = owns (c : Thread nD τ) (ms0_3 t) fullShare ((dat0 V c).after 3 t) from by
        unfold Dat.leavesExact; rw [liveAt0_3 t h7], after0_3, sLo_next V c t h0, sHi_next V c t h0]
      iintro ⟨⟨%lo, %hi, %hlh, HS0, HS1, Hr6, Hg⟩, Ho, ⟨%d0, H0⟩, ⟨%d1, H1⟩, ⟨%d2, H2⟩, ⟨%d3, H3⟩⟩
      obtain ⟨rfl, rfl⟩ := hlh hz
      iapply (run_C c Set.univ (grid0.coords t) _ _ _ _ _ _ _ _ _ _ _ _ (fun h => h0 ((hcond0_0 t).mp h)) ((hcond0_1 t).mpr h7) (xb V c t) (lb V c t) (hb V c t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr6 Hg]
      · iexists _; iexists _; isplitr
        · ipureintro; intro _; rw [Nat.add_sub_cancel]; exact ⟨(sLo_next V c t h0).symm, (sHi_next V c t h0).symm⟩
        isplitl [HS0]; · iexact HS0
        isplitl [HS1]; · iexact HS1
        isplitl [Hr6]; · iexact Hr6
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t h7) (noFlush0_3 t h7)]
      iintro ⟨⟨%lo, %hi, %hlh, HS0, HS1, Hr6, Hg⟩, Ho, ⟨%d0, H0⟩, ⟨%d1, H1⟩, ⟨%d2, H2⟩, ⟨%d3, H3⟩⟩
      obtain ⟨rfl, rfl⟩ := hlh hz
      iapply (run_B c Set.univ (grid0.coords t) _ _ _ _ _ _ _ _ _ _ _ _ (fun h => h0 ((hcond0_0 t).mp h)) (fun h => h7 ((hcond0_1 t).mp h)) (xb V c t) (lb V c t) (hb V c t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr6 Hg]
      · iexists _; iexists _; isplitr
        · ipureintro; intro _; rw [Nat.add_sub_cancel]; exact ⟨(sLo_next V c t h0).symm, (sHi_next V c t h0).symm⟩
        isplitl [HS0]; · iexact HS0
        isplitl [HS1]; · iexact HS1
        isplitl [Hr6]; · iexact Hr6
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant at the first point, from the generator register and the scoped buffers no window stages. -/
theorem hin0 (c : Dev nD) :
    iprop((∃ r, prngReg c r) ∗ Pipeline.prefHeld (pcfgs (F := F) 0).pre c (fun _ => fullShare) ((cfgs 0).toPCfg_adm (Val := Elt F)).1
        ∗ Pipeline.scopedRest (Ix := Unit) (Name := ℕ) (U := UR sig nD τ) (Lvl := ℕ) (Val := Elt F) spec0 c)
      ⊢ ((dat0 V c).Φ 0 : sProp 𝕄) := by
  rw [Phi_eq0, scopedRest0_eq, Fin.val_zero]
  unfold Phi0 rest6
  simp only [scM0, scM1, owns_whole]
  iintro ⟨Hp, -, ⟨%f0, H0⟩, ⟨%f1, H1⟩, Hrest⟩
  iexists f0; iexists f1
  isplitr; · ipureintro; intro h; exact absurd rfl h
  isplitl [H0]; · iexact H0
  isplitl [H1]; · iexact H1
  isplitl [Hrest]; · iexact Hrest
  iexact Hp

/-- The invariant at the last point gives both back. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Phi_eq0, scopedRest0_eq]
  unfold Phi0 rest6
  simp only [scM0, scM1, owns_whole]
  iintro ⟨%f0, %f1, -, H0, H1, Hrest, Hp⟩
  isplitl [Hp]; · iexact Hp
  isplitl [H0]; · iexists f0; iexact H0
  isplitl [H1]; · iexists f1; iexact H1
  iexact Hrest

end Cert.KernelIdeal.R0

end
-- ==== Proof.KI.Final0.lean ====
import proofs.«419280_j21818433864468_2_alg».proof.Proof.KI.Dat0

/-!
# Region 0: the array it leaves

Only the last step of each column block writes the output block back, so the output array is covered by the eight blocks
flushed at the points 8·i + 7, each holding the rounded recombination of the two finished accumulators of column block i.
-/
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The output window's blocks over the grid -/

/-- The output window's block index at point `t`: all 1024 rows, column block `t / 8`. -/
private theorem idx_out0 : ∀ t : Fin cfg0.N, win0_3.index t (0 : Fin 2) = 0 ∧ win0_3.index t (1 : Fin 2) = t.val / 8 :=
  (by decide +kernel : ∀ t : Fin grid0.N, win0_3.index t (0 : Fin 2) = 0 ∧ win0_3.index t (1 : Fin 2) = t.val / 8)

/-- The address array read inside column block `i`: the last step's word of that block's two finished accumulators. -/
private theorem addrArr_at (x : Vec F S1024x4096 .bf16) (lo hi : Vec F S4096x2048 .bf16) (j : S1024x2048.Idx) (i : Fin 8)
    (y : S1024x256.Idx) (h0 : (j 0).val = (y 0).val) (h1 : (j 1).val = i.val * 256 + (y 1).val) :
    Spec.addrArr x lo hi j = k0_pay5 (Spec.accLo x lo i 8) (Spec.accHi x hi i 8) y := by
  have hy1 : (y 1).val < 256 := ValueIdx.idx2_lt1 y
  have ei : (⟨(j 1).val / 256, by have := ValueIdx.idx2_lt1 j; omega⟩ : Fin 8) = i := Fin.ext (by show (j 1).val / 256 = i.val; omega)
  have ey : ValueIdx.ix2 (n0 := 1024) (n1 := 256) ⟨(j 0).val, ValueIdx.idx2_lt0 j⟩ ⟨(j 1).val % 256, Nat.mod_lt _ (by decide)⟩ = y := by
    funext a
    match a with
    | ⟨0, _⟩ => exact Fin.ext h0
    | ⟨1, _⟩ => exact Fin.ext (by show (j 1).val % 256 = (y 1).val; omega)
  unfold Spec.addrArr
  rw [ei, ey]

/-- At a point that ends a column block the accumulators are the finished ones of that block. -/
private theorem sLo_last (c : Dev nD) (n : ℕ) (hn : n < 64) (h7 : n % 8 = 7) :
    sLo V c n = Spec.accLo (xarr V c) (loarr V c) ⟨n / 8, by omega⟩ 8 := by
  unfold sLo
  have ei : (⟨n / 8 % 8, Nat.mod_lt _ (by decide)⟩ : Fin 8) = ⟨n / 8, by omega⟩ := Fin.ext (by show n / 8 % 8 = n / 8; omega)
  have ek : n % 8 + 1 = 8 := by omega
  rw [ei, ek]

private theorem sHi_last (c : Dev nD) (n : ℕ) (hn : n < 64) (h7 : n % 8 = 7) :
    sHi V c n = Spec.accHi (xarr V c) (hiarr V c) ⟨n / 8, by omega⟩ 8 := by
  unfold sHi
  have ei : (⟨n / 8 % 8, Nat.mod_lt _ (by decide)⟩ : Fin 8) = ⟨n / 8, by omega⟩ := Fin.ext (by show n / 8 % 8 = n / 8; omega)
  have ek : n % 8 + 1 = 8 := by omega
  rw [ei, ek]

/-- WHAT A FLUSHING POINT WRITES BACK is its block of the address array of the three operand arrays. -/
private theorem flushed_eq0 (c : Dev nD) (t : Fin cfg0.N) (hf : (cfg0.win 3).flush t = true) :
    (dat0 V c).flushed 3 t
      = ((cfg0.win 3).blk t).view.read (Elt F) (Spec.addrArr (F := F) (V c main_v31) (V c main_v27) (V c main_v30)) := by
  have h7 : t.val % 8 = 7 := (flush0_3 t).mp hf
  have hN : t.val < 64 := t.isLt
  obtain ⟨e0, e1⟩ := idx_out0 t
  show (dat0 V c).after 3 t = _
  rw [after0_3, sLo_last V c t.val hN h7, sHi_last V c t.val hN h7]
  funext y
  show _ = Spec.addrArr (F := F) (V c main_v31) (V c main_v27) (V c main_v30) (((cfg0.win 3).blk t).view.emb y)
  refine (addrArr_at _ _ _ _ ⟨t.val / 8, by omega⟩ y ?_ ?_).symm
  · show win0_3.index t (0 : Fin 2) * 1024 + 1 * (y 0).val = (y 0).val
    rw [e0]; omega
  · show win0_3.index t (1 : Fin 2) * 256 + 1 * (y 1).val = t.val / 8 * 256 + (y 1).val
    rw [e1]; omega

/-- An index of the array is in point `t`'s block iff each coordinate is in the block's range on its axis. -/
private theorem mem_blk0 (t : Fin cfg0.N) (i : S1024x2048.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v32).slice (win0_3.rect t)).set ↔ _
  rw [View.set_slice_whole, Rect.mem_set_unit]
  exact Iff.rfl

/-- Every index of the output array lies in the block written back at the last step of its column block:
    column `n` at point `8·(n / 256) + 7`. -/
private theorem cover0 (i : S1024x2048.Idx) :
    ∃ t : Fin cfg0.N, (cfg0.win 3).flush t = true ∧ i ∈ ((cfg0.win 3).blk t).view.set := by
  have h0 : (i 0).val < 1024 := ValueIdx.idx2_lt0 i
  have h1 : (i 1).val < 2048 := ValueIdx.idx2_lt1 i
  have hb : 8 * ((i 1).val / 256) + 7 < 64 := by omega
  obtain ⟨t, htv⟩ : ∃ t : Fin cfg0.N, t.val = 8 * ((i 1).val / 256) + 7 := ⟨⟨_, hb⟩, rfl⟩
  refine ⟨t, (flush0_3 t).mpr (by rw [htv]; omega), ?_⟩
  obtain ⟨e0, e1⟩ := idx_out0 t
  rw [mem_blk0]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 256 ≤ (i 1).val ∧ (i 1).val < win0_3.index t (1 : Fin 2) * 256 + 256
    rw [e1, htv]; omega

/-- The input windows' arrays are never written. -/
theorem in0 (c : Dev nD) (w : Fin cfg0.W) (hw : w ≠ 3) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, hw => exact absurd rfl hw
  exact ((dat0 V c).arrAt_in w hin _).trans (A_eq0 V c w)

/-- THE VALUE: after the region the output array is the address array of the three operand arrays as entered. -/
theorem final0 (c : Dev nD) :
    (dat0 V c).arrAt 3 cfg0.N = Spec.addrArr (F := F) (V c main_v31) (V c main_v27) (V c main_v30) :=
  (dat0 V c).arrAt_eq_of_cover 3 _ (fun t hf => flushed_eq0 V c t hf) cover0

end Cert.KernelIdeal.R0

end
-- ==== Proof.KI.Dat1.lean ====
import proofs.«419280_j21818433864468_2_alg».proof.Proof.Gen.KernelIdeal.Launch
import proofs.«419280_j21818433864468_2_alg».proof.Proof.Gen.KernelIdeal.Skeleton
import proofs.«419280_j21818433864468_2_alg».proof.Proof.Gen.KernelIdeal.Points
import proofs.«419280_j21818433864468_2_alg».proof.Proof.Gen.KernelIdeal.Loops
import proofs.«419280_j21818433864468_2_alg».proof.Proof.KI.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 1 (the one-hot memory lookup): proof data, body obligation, and the array it leaves

The grid has 256 points, one per block of eight neurons. Each point loads the block's 8 × 256 × 256 memory words once
and runs four trips of 256 samples: the addresses' high and low bytes select, through two one-hot products, the least
significant bit of one word per (neuron, sample), stored to the trip's slice of the output block.
-/
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! ## One trip's slice, and the block the four trips leave -/

/-- The loop runs four trips. -/
theorem trips_four : k1_t1_loop.trips = 4 := by decide +kernel

/-- The rectangle trip `k` reads of the address block and writes of the output block: all eight rows, columns
    `256·k … 256·k + 255`. -/
abbrev sliceR (k : Fin k1_t1_loop.trips) : Rect S8x1024 :=
  Rect.unit (s := S8x1024) (k1_off1 k) S8x256.size (k1_off1_inb k)

/-- A slice's element sits in the block at the same row `…` -/
theorem sliceR_row (k : Fin k1_t1_loop.trips) (x : S8x256.Idx) : ((sliceR k).emb x 0).val = (x 0).val := by
  rw [Rect.emb_apply, Rect.off_unit, Rect.stride_unit, k1_off1_eq]
  show 0 + 1 * (x 0).val = (x 0).val
  omega

/-- `…` and at column `256·k` plus its own. -/
theorem sliceR_col (k : Fin k1_t1_loop.trips) (x : S8x256.Idx) : ((sliceR k).emb x 1).val = 256 * k.val + (x 1).val := by
  rw [Rect.emb_apply, Rect.off_unit, Rect.stride_unit, k1_off1_eq]
  show 256 * k.val + 1 * (x 1).val = 256 * k.val + (x 1).val
  omega

/-- Samples `256·q … 256·q + 255` of a block of addresses (eight neurons × 1024 samples). -/
def chunk (a : Vec F S8x1024 .i32) (q : Fin 4) : Vec F S8x256 .i32 :=
  fun x => a (ix2 (n0 := 8) (n1 := 1024) ⟨(x 0).val, idx2_lt0 x⟩
    ⟨256 * q.val + (x 1).val, by have := idx2_lt1 x; have := q.isLt; omega⟩)

/-- What the body leaves in the output block, as one function of the address block `a` and the memory block `mb`:
    at (neuron, sample) the lookup word of the sample's chunk, at the sample's place in it. -/
def outBlk (a : Vec F S8x1024 .i32) (mb : Vec F S8x256x256 .i32) : Vec F S8x1024 .i32 :=
  fun j => k1_pay1 mb (chunk a ⟨(j 1).val / 256, by have := idx2_lt1 j; omega⟩)
    (ix2 (n0 := 8) (n1 := 256) ⟨(j 0).val, idx2_lt0 j⟩ ⟨(j 1).val % 256, Nat.mod_lt _ (by decide)⟩)

/-- The slice trip `k` loads of the address block is its chunk `k`. -/
theorem ld_sliceR (a : Vec F S8x1024 .i32) (k : Fin k1_t1_loop.trips) :
    View.ld a (sliceR k) = chunk a ⟨k.val, trips_four ▸ k.isLt⟩ := by
  funext x
  show a ((sliceR k).emb x) = _
  unfold chunk
  refine congrArg a (funext fun d => Fin.ext ?_)
  match d with
  | ⟨0, _⟩ => exact sliceR_row k x
  | ⟨1, _⟩ => exact sliceR_col k x

/-- Trip `k`'s store agrees with `outBlk` on its slice. -/
theorem piece_outBlk (a : Vec F S8x1024 .i32) (mb : Vec F S8x256x256 .i32) (k : Fin k1_t1_loop.trips) (x : S8x256.Idx) :
    k1_pay1 mb (View.ld a (sliceR k)) x = outBlk a mb ((sliceR k).emb x) := by
  have hk : k.val < 4 := trips_four ▸ k.isLt
  have h0 := sliceR_row k x
  have h1 := sliceR_col k x
  have hx1 : (x 1).val < 256 := idx2_lt1 x
  rw [ld_sliceR]
  unfold outBlk
  have eq : (⟨((sliceR k).emb x 1).val / 256, by have := idx2_lt1 ((sliceR k).emb x); omega⟩ : Fin 4) = ⟨k.val, hk⟩ :=
    Fin.ext (by show ((sliceR k).emb x 1).val / 256 = k.val; omega)
  rw [eq]
  refine congrArg (k1_pay1 mb (chunk a ⟨k.val, hk⟩)) (funext fun d => Fin.ext ?_)
  match d with
  | ⟨0, _⟩ => exact h0.symm
  | ⟨1, _⟩ => show (x 1).val = ((sliceR k).emb x 1).val % 256; omega

/-! ## The loop's pieces -/

section Pieces
variable (𝒱 : Variants) (c : Dev nD) (bd : Option 𝒱.V) (i : grid1.Coords) (arg1 : Memref sig .tc .vmem S8x1024 .i32) (harg1 : arg1.IsWhole) (arg2 : Memref sig .tc .vmem S8x256x256 .i32) (harg2 : arg2.IsWhole) (arg3 : Memref sig .tc .vmem S8x1024 .i32) (harg3 : arg3.IsWhole) (v0 : Vec F S8x256x256 .i32) (X_arg1 : BufTy.Contents (Elt F) arg1.view.ty)

/-- What trip `k` stores: its slice of the output block, holding the lookup of the slice it loaded of the address block `a`. -/
def piece (a : Vec F S8x1024 .i32) (mb : Vec F S8x256x256 .i32) (k : Fin k1_t1_loop.trips) : View.Piece (Elt F) S8x1024 .i32 :=
  ⟨sliceR k, k1_pay1 mb (View.ld a (sliceR k))⟩

/-- Trip `k`'s piece list is that one piece. -/
theorem tripL_eq (k : Fin k1_t1_loop.trips) :
    tripL_k1_t1 (F := F) 𝒱 c bd i arg1 harg1 arg2 harg2 arg3 harg3 v0 X_arg1 k
      = [piece (arg1.view.read (Elt F) X_arg1) v0 k] := by
  unfold tripL_k1_t1 trip_k1_t1
  rfl

/-- The pieces written before trip `n` are exactly those of the trips below `n`. -/
theorem mem_pb : ∀ n : ℕ, n ≤ k1_t1_loop.trips → ∀ p : View.Piece (Elt F) S8x1024 .i32,
    p ∈ pb_k1_t1 (F := F) 𝒱 c bd i arg1 harg1 arg2 harg2 arg3 harg3 v0 X_arg1 n
      ↔ ∃ k : Fin k1_t1_loop.trips, k.val < n ∧ p = piece (arg1.view.read (Elt F) X_arg1) v0 k
  | 0, _, p => by
    rw [pb_k1_t1.eq_1]
    exact ⟨fun h => absurd h List.not_mem_nil, fun ⟨_, h, _⟩ => absurd h (Nat.not_lt_zero _)⟩
  | n + 1, hn, p => by
    have ih := mem_pb n (Nat.le_of_succ_le hn) p
    have hs := pb_k1_t1_succ (F := F) 𝒱 c bd i arg1 harg1 arg2 harg2 arg3 harg3 v0 X_arg1 ⟨n, hn⟩
    rw [show pb_k1_t1 (F := F) 𝒱 c bd i arg1 harg1 arg2 harg2 arg3 harg3 v0 X_arg1 (n + 1) = _ from hs, tripL_eq,
      List.singleton_append, List.mem_cons, ih]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact .inr ⟨k, h, rfl⟩
      · exact .inl (congrArg _ (Fin.ext h))

/-- After the last trip the output block reads `outBlk` of the address block and the memory block, whatever it held
    before: every piece agrees with `outBlk` on its slice, and column `b` lies in the slice of trip `b / 256`. -/
theorem read_pb (G : BufTy.Contents (Elt F) arg3.view.ty) :
    arg3.view.read (Elt F) (arg3.view.writes (Elt F) G
        (pb_k1_t1 (F := F) 𝒱 c bd i arg1 harg1 arg2 harg2 arg3 harg3 v0 X_arg1 k1_t1_loop.trips))
      = outBlk (arg1.view.read (Elt F) X_arg1) v0 := by
  have hcover : ∀ y : S8x1024.Idx, ∃ p ∈ pb_k1_t1 (F := F) 𝒱 c bd i arg1 harg1 arg2 harg2 arg3 harg3 v0 X_arg1 k1_t1_loop.trips,
      y ∈ p.1.set := fun y => by
    have hy0 : (y 0).val < 8 := idx2_lt0 y
    have hy1 : (y 1).val < 1024 := idx2_lt1 y
    have hq : (y 1).val / 256 < k1_t1_loop.trips := by rw [trips_four]; omega
    refine ⟨piece (arg1.view.read (Elt F) X_arg1) v0 ⟨(y 1).val / 256, hq⟩,
      (mem_pb 𝒱 c bd i arg1 harg1 arg2 harg2 arg3 harg3 v0 X_arg1 _ (Nat.le_refl _) _).mpr ⟨_, hq, rfl⟩, ?_⟩
    show y ∈ (sliceR ⟨(y 1).val / 256, hq⟩).set
    rw [Rect.mem_set_unit, k1_off1_eq]
    intro a
    match a with
    | ⟨0, _⟩ => show 0 ≤ (y 0).val ∧ (y 0).val < 0 + 8; omega
    | ⟨1, _⟩ => show 256 * ((y 1).val / 256) ≤ (y 1).val ∧ (y 1).val < 256 * ((y 1).val / 256) + 256; omega
  rw [View.read_writes_eq_canon _ _ _ hcover]
  funext y
  refine View.canon_apply_of_pieces (outBlk (arg1.view.read (Elt F) X_arg1) v0) _ (fun p hp x => ?_) y (hcover y)
  obtain ⟨k, -, rfl⟩ := (mem_pb 𝒱 c bd i arg1 harg1 arg2 harg2 arg3 harg3 v0 X_arg1 _ (Nat.le_refl _) p).mp hp
  exact piece_outBlk _ _ k x

end Pieces

/-! ## The body's triple -/

theorem hz3 : (![0, 0, 0] : Fin 3 → Nat) = fun _ => 0 := funext fun a => by fin_cases a <;> rfl

set_option maxHeartbeats 1000000 in
/-- The kernel body on whole staging memrefs: the address block `a` and the memory block `mb` are read and kept, the output
    block ends at `outBlk a mb` whatever it held. The memory block is loaded once, the loop goes by its invariant (the
    pieces of the trips so far), and the four slices read back as one function. -/
theorem sound_kernel1 (c : Dev nD) (E : Set ℕ) (i : grid1.Coords) (arg1 : Memref sig .tc .vmem S8x1024 .i32) (harg1 : arg1.IsWhole)
    (arg2 : Memref sig .tc .vmem S8x256x256 .i32) (harg2 : arg2.IsWhole) (arg3 : Memref sig .tc .vmem S8x1024 .i32) (harg3 : arg3.IsWhole)
    (a : Vec F S8x1024 .i32) (mb : Vec F S8x256x256 .i32) (K : PUnit → sProp 𝕄) :
    iprop(owns (c : Thread nD τ) arg1 fullShare a ∗ owns (c : Thread nD τ) arg2 fullShare mb ∗ (∃ d, owns (c : Thread nD τ) arg3 fullShare d)
        ∗ (iprop(owns (c : Thread nD τ) arg1 fullShare a ∗ owns (c : Thread nD τ) arg2 fullShare mb
            ∗ owns (c : Thread nD τ) arg3 fullShare (outBlk a mb)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (read_pb Variants.none c none i arg1 harg1 arg2 harg2 arg3 harg3 _ f1 f3).trans (congrArg (outBlk _) ?_)
  rw [View.readAt_eq_ld]
  exact View.ld_unit_zero (S := S8x256x256) hz3 _ _

/-! ## The pipeline's proof data -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`, at the entry contents `V`: the two input windows keep their blocks, the
    output window's buffer ends at `outBlk` of them; the invariant is the scoped rest and the generator register,
    which the body never touches; nothing is owed. -/
def dat1 (V : (c : Dev nD) → (b : Ref sig .tc) → Buf (Elt F) ((c : Thread nD τ).loc b)) (c : Dev nD) :
    Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outBlk (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := by
  dsimp only [dat1]
theorem owed1 (c : Dev nD) (t : Fin (cfg1.N + 1)) : (dat1 V c).owed t = 0 := by
  dsimp only [dat1]

theorem rec1 (c : Dev nD) : (dat1 V c).recorded 0 = Set.univ := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = outBlk (iblk1 V c 0 t) (iblk1 V c 1 t) := by dsimp only [dat1]

/-- Both input windows are fetched at every point, so the body finds each one's block in its current buffer. -/
theorem before1_0 (c : Dev nD) (t : Fin cfg1.N) (d) : (dat1 V c).before 0 t d = iblk1 V c 0 t := by
  rw [(dat1 V c).before_fetched 0 t (fetch1_0 t)]
  unfold Dat.fetched Dat.blockOf iblk1
  rw [A_eq1]; rfl
theorem before1_1 (c : Dev nD) (t : Fin cfg1.N) (d) : (dat1 V c).before 1 t d = iblk1 V c 1 t := by
  rw [(dat1 V c).before_fetched 1 t (fetch1_1 t)]
  unfold Dat.fetched Dat.blockOf iblk1
  rw [A_eq1]; rfl

/-! ## The body obligation -/

/-- The body at point `t`: called with the two input blocks in their buffers and the output's buffer at anything, it
    returns them with the output's at `outBlk` of the blocks; the invariant and the core's dues pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
        (iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)) : sProp 𝕄)) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The invariant at the first point, from the generator register and the scoped buffers no window stages (the region
    has no prefetched table: that conjunct is dropped). -/
theorem hin1 (c : Dev nD) :
    iprop((∃ r, prngReg c r) ∗ Pipeline.prefHeld (pcfgs (F := F) 1).pre c (fun _ => fullShare) ((cfgs 1).toPCfg_adm (Val := Elt F)).1
        ∗ Pipeline.scopedRest (Ix := Unit) (Name := ℕ) (U := UR sig nD τ) (Lvl := ℕ) (Val := Elt F) spec1 c)
      ⊢ ((dat1 V c).Φ 0 : sProp 𝕄) := by
  show _ ⊢ Pipeline.ΦA spec1 c
  unfold Pipeline.ΦA
  iintro ⟨Hgen, -, Hscoped⟩
  isplitl [Hscoped]
  · iexact Hscoped
  · iexact Hgen

/-- The invariant at the last point gives both back. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  show Pipeline.ΦA spec1 c ⊢ _
  unfold Pipeline.ΦA
  iintro ⟨Hscoped, Hgen⟩
  isplitl [Hgen]
  · iexact Hgen
  · iexact Hscoped

/-! ## The arrays the region leaves -/

/-- The input windows' arrays are never written. -/
theorem in1 (c : Dev nD) (w : Fin cfg1.W) (hw : w ≠ 2) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, h => exact absurd rfl h
  exact ((dat1 V c).arrAt_in w hin cfg1.N).trans (A_eq1 V c w)

/-- The block index maps over the grid: point `t` stages block `t` along the neuron axis of each array and block 0 along
    every other axis. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)

/-- Point `t`'s address block is neurons `8·t … 8·t + 7` of the address array, every sample. -/
theorem iblk_addr (c : Dev nD) (t : Fin cfg1.N) (T : Fin 256) (hT : T.val = t.val) (x : S8x1024.Idx) :
    (iblk1 V c 0 t : Vec F S8x1024 .i32) x
      = (V c main_v33 : Vec F S2048x1024 .i32) (ix2 (n0 := 2048) (n1 := 1024)
          ⟨8 * T.val + (x 0).val, by have := idx2_lt0 x; have := T.isLt; omega⟩ ⟨(x 1).val, idx2_lt1 x⟩) := by
  obtain ⟨e0, e1⟩ := idx1_0 t
  unfold iblk1
  rw [View.read_apply]
  show V c main_v33 _ = V c main_v33 _
  refine congrArg (V c main_v33) (funext fun d => Fin.ext ?_)
  match d with
  | ⟨0, _⟩ => show win1_0.index t 0 * 8 + 1 * (x 0).val = 8 * T.val + (x 0).val; rw [e0, hT]; omega
  | ⟨1, _⟩ => show win1_0.index t 1 * 1024 + 1 * (x 1).val = (x 1).val; rw [e1]; omega

/-- So its chunk `q` is the specification's chunk of the array. -/
theorem chunk_iblk (c : Dev nD) (t : Fin cfg1.N) (T : Fin 256) (hT : T.val = t.val) (q : Fin 4) :
    chunk (iblk1 V c 0 t) q = Spec.addrchunk (F := F) (V c main_v33) T q := by
  funext x
  unfold chunk Spec.addrchunk
  rw [iblk_addr V c t T hT]

/-- Point `t`'s memory block is neurons `8·t … 8·t + 7` of the memory table. -/
theorem iblk_mem (c : Dev nD) (t : Fin cfg1.N) (T : Fin 256) (hT : T.val = t.val) :
    (iblk1 V c 1 t : Vec F S8x256x256 .i32) = Spec.memblk (F := F) (V c main_v34) T := by
  obtain ⟨e0, e1, e2⟩ := idx1_1 t
  funext x
  unfold iblk1 Spec.memblk
  rw [View.read_apply]
  show V c main_v34 _ = V c main_v34 _
  refine congrArg (V c main_v34) (funext fun d => Fin.ext ?_)
  match d with
  | ⟨0, _⟩ => show win1_1.index t 0 * 8 + 1 * (x 0).val = 8 * T.val + (x 0).val; rw [e0, hT]; omega
  | ⟨1, _⟩ => show win1_1.index t 1 * 256 + 1 * (x 1).val = (x 1).val; rw [e1]; omega
  | ⟨2, _⟩ => show win1_1.index t 2 * 256 + 1 * (x 2).val = (x 2).val; rw [e2]; omega

/-- What point `t` leaves at place `j` of its output block is the lookup array at neuron `8·t + j₀`, sample `j₁`. -/
theorem outBlk_gather (c : Dev nD) (t : Fin cfg1.N) (j : S8x1024.Idx) (i : S2048x1024.Idx)
    (hi0 : (i 0).val = 8 * t.val + (j 0).val) (hi1 : (i 1).val = (j 1).val) :
    outBlk (iblk1 V c 0 t) (iblk1 V c 1 t) j = Spec.gatherArr (F := F) (V c main_v33) (V c main_v34) i := by
  have hj0 : (j 0).val < 8 := idx2_lt0 j
  have hj1 : (j 1).val < 1024 := idx2_lt1 j
  have ht : t.val < 256 := Nat.lt_of_lt_of_eq t.isLt N_1
  have eT : (⟨(i 0).val / 8, by have := idx2_lt0 i; omega⟩ : Fin 256) = ⟨t.val, ht⟩ :=
    Fin.ext (by show (i 0).val / 8 = t.val; omega)
  have eQ : (⟨(i 1).val / 256, by have := idx2_lt1 i; omega⟩ : Fin 4) = ⟨(j 1).val / 256, by omega⟩ :=
    Fin.ext (by show (i 1).val / 256 = (j 1).val / 256; rw [hi1])
  unfold outBlk Spec.gatherArr
  rw [eT, eQ, iblk_mem V c t ⟨t.val, ht⟩ rfl, chunk_iblk V c t ⟨t.val, ht⟩ rfl]
  refine congrArg (k1_pay1 _ _) (funext fun d => Fin.ext ?_)
  match d with
  | ⟨0, _⟩ => show (j 0).val = (i 0).val % 8; omega
  | ⟨1, _⟩ => show (j 1).val % 256 = (i 1).val % 256; rw [hi1]

/-- What point `t` writes back is its block of the lookup array. -/
theorem flushed1_eq (c : Dev nD) (t : Fin cfg1.N) :
    (dat1 V c).flushed 2 t
      = ((cfg1.win 2).blk t).view.read (Elt F) (Spec.gatherArr (F := F) (V c main_v33) (V c main_v34)) := by
  obtain ⟨e0, e1⟩ := idx1_2 t
  show (cfg1.win 2).cut (grid1.coords t) ((dat1 V c).after 2 t) = _
  rw [after1_2]
  funext y
  rw [View.read_apply]
  refine outBlk_gather V c t _ _ ?_ ?_
  · show win1_2.index t 0 * 8 + 1 * (y 0).val = 8 * t.val + (y 0).val; rw [e0]; omega
  · show win1_2.index t 1 * 1024 + 1 * (y 1).val = (y 1).val; rw [e1]; omega

/-- THE VALUE: after the region the output array is the lookup array of the two operand arrays as entered: every point
    writes its block of it back, and neuron `n` lies in the block of point `n / 8`. -/
theorem final1 (c : Dev nD) :
    (dat1 V c).arrAt 2 cfg1.N = Spec.gatherArr (F := F) (V c main_v33) (V c main_v34) := by
  refine (dat1 V c).arrAt_eq_of_cover 2 _ (fun t _ => flushed1_eq V c t) fun i => ?_
  have hi0 : (i 0).val < 2048 := idx2_lt0 i
  have hi1 : (i 1).val < 1024 := idx2_lt1 i
  obtain ⟨tq, htq⟩ : ∃ tq : Fin cfg1.N, tq.val = (i 0).val / 8 :=
    ⟨⟨(i 0).val / 8, Nat.lt_of_lt_of_eq (by omega : (i 0).val / 8 < 256) N_1.symm⟩, rfl⟩
  obtain ⟨e0, e1⟩ := idx1_2 tq
  refine ⟨tq, flush1_2 tq, ?_⟩
  show i ∈ ((View.whole main_v35).slice (win1_2.rect tq)).set
  rw [View.set_slice_whole, Rect.mem_set_unit]
  intro a
  match a with
  | ⟨0, _⟩ =>
    show win1_2.index tq 0 * 8 ≤ (i 0).val ∧ (i 0).val < win1_2.index tq 0 * 8 + 8
    rw [e0, htq]; omega
  | ⟨1, _⟩ =>
    show win1_2.index tq 1 * 1024 ≤ (i 1).val ∧ (i 1).val < win1_2.index tq 1 * 1024 + 1024
    rw [e1]; omega

end Cert.KernelIdeal.R1

end
-- ==== Proof.KI.Run.lean ====
import proofs.«419280_j21818433864468_2_alg».proof.Proof.Gen.KernelIdeal.Regions
import proofs.«419280_j21818433864468_2_alg».proof.Proof.KI.Dat0
import proofs.«419280_j21818433864468_2_alg».proof.Proof.KI.Final0
import proofs.«419280_j21818433864468_2_alg».proof.Proof.KI.Dat1

/-!
# The run of @main: host stretch, region 0, host stretch, region 1, host stretch

The two regions enter the launch theorem for a list of segments as records over their proof data; between them every
unscoped buffer is held at the contents the items before left. The run's post names the result array: what the last
host stretch computes from region 1's output array.
-/
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's entry contents, read at the TensorCore's references. -/
abbrev VV1 : (c : Dev nD) → (b : Ref sig .tc) → Buf (Elt F) ((c : Thread nD τ).loc b) := fun c b => Gen.V1 m c b

/-! ## What the regions leave

Region 0's result array is read off its proof data at the entry contents `VV1`; region 1's off its proof data at the
contents the second host stretch makes of region 0's result. The family of unknowns the valuations are written over is
then these two arrays at the two references the regions write, and the launch contents anywhere else (never read). -/

/-- Region 0's output array, as its proof data leave it after the last grid point. -/
def o2 (c : Dev nD) : Buf (Elt F) ((c : Thread nD τ).loc main_v32) := (R0.dat0 (VV1 m) c).arrAt 3 cfg0.N

/-- The unknowns with region 0's result alone named: enough to write region 1's entry contents. -/
def outsA : Gen.Outs (F := F) := fun _ r c =>
  if h : r = main_v32 then h ▸ o2 m c else m ((c : Thread nD τ).loc r)

/-- Region 1's entry contents over those unknowns. -/
abbrev VV3A : (c : Dev nD) → (b : Ref sig .tc) → Buf (Elt F) ((c : Thread nD τ).loc b) := fun c b => Gen.V3 m (outsA m) c b

/-- Region 1's output array, as its proof data leave it after the last grid point. -/
def o4 (c : Dev nD) : Buf (Elt F) ((c : Thread nD τ).loc main_v35) := (R1.dat1 (VV3A m) c).arrAt 2 cfg1.N

/-- What the two regions leave in the arrays they write. -/
def outs (m : (ℓ : Loc nD τ sig) → Buf (Elt F) ℓ) : Gen.Outs (F := F) := fun _ r c =>
  if h : r = main_v32 then h ▸ o2 m c
  else if h' : r = main_v35 then h' ▸ o4 m c
  else m ((c : Thread nD τ).loc r)

/-- Region 1's entry contents, read at the TensorCore's references. -/
abbrev VV3 : (c : Dev nD) → (b : Ref sig .tc) → Buf (Elt F) ((c : Thread nD τ).loc b) := fun c b => Gen.V3 m (outs m) c b

theorem outs2 (c : Dev nD) : outs m 2 main_v32 c = (R0.dat0 (VV1 m) c).arrAt 3 cfg0.N := by
  unfold outs; rw [dif_pos rfl]; rfl

/-- Region 1's entry contents depend on the unknowns through region 0's result alone. -/
theorem V3_congr (o o' : Gen.Outs (F := F)) (h : ∀ c, o 2 main_v32 c = o' 2 main_v32 c) (c : Dev nD) :
    Gen.V3 m o c = Gen.V3 m o' c := by
  unfold Gen.V3 Gen.V2; rw [h c]

theorem outs4 (c : Dev nD) : outs m 4 main_v35 c = (R1.dat1 (VV3 m) c).arrAt 2 cfg1.N := by
  have hV : VV3 m = VV3A m := by
    funext c b
    exact congrFun (V3_congr m (outs m) (outsA m) (fun c => by unfold outs outsA; rw [dif_pos rfl, dif_pos rfl]) c) b
  rw [hV]; unfold outs; rw [dif_neg (by decide), dif_pos rfl]; rfl

/-! ## The proof data family, the algebra's parameters, the rest state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => R0.dat0 (VV1 m) c
  | ⟨1, _⟩ => fun c => R1.dat1 (VV3 m) c

/-- No core owes another anything: no level is assigned. -/
abbrev LL : GSem nD τ sig → Finset Unit := fun _ => ∅
abbrev lvv : GSem nD τ sig → Unit → ℕ := fun _ _ => 0

/-- What rides beside the buffers through every item: the core's generator register at some state and its dues, at
    nothing. -/
abbrev EE (c : Dev nD) : sProp 𝕄 :=
  iprop((∃ r, prngReg c r) ∗ ∃ W, owes (c : Thread nD τ) (0 : CellTallies nD τ sig Unit) W)

/-- Region 0's exit contents, read at the TensorCore's references. -/
abbrev VV2 : (c : Dev nD) → (b : Ref sig .tc) → Buf (Elt F) ((c : Thread nD τ).loc b) := fun c b => Gen.V2 m (outs m) c b
/-- Region 1's exit contents, read at the TensorCore's references. -/
abbrev VV4 : (c : Dev nD) → (b : Ref sig .tc) → Buf (Elt F) ((c : Thread nD τ).loc b) := fun c b => Gen.V4 m (outs m) c b

/-! ## The arrays at the regions' exits -/

/-- At region 0's exit each of its arrays holds what the pipeline leaves: the output array the named result, an input
    array what it held at entry. -/
theorem hF0 (c : Dev nD) (w : Fin cfg0.W) : (pdats m 0 c).arrAt w cfg0.N = VV2 m c (Pipeline.arrRef spec0 w) := by
  by_cases hw : w = 3
  · subst hw
    exact ((outs2 m c).symm.trans (Function.update_self (β := fun b : DevRef τ sig => b.ty.Contents (Elt F)) _ _ _).symm)
  · have hne : Pipeline.arrRef spec0 w ∉ ([main_v32] : List (Ref sig .tc)) := fun h =>
      hw (launch0.win.arr_inj ((List.mem_singleton.mp h).trans (rfl : main_v32 = Pipeline.arrRef spec0 3)))
    exact (R0.in0 (VV1 m) c w hw).trans (Gen.V2_of m (outs m) c _ hne).symm

/-- Every buffer that is no array of region 0 holds at its exit what it held at entry. -/
theorem hrest0 (c : Dev nD) : ∀ b, b ∉ Finset.univ.image (Pipeline.arrRef spec0) → VV2 m c b = VV1 m c b := fun b hb =>
  Gen.V2_of m (outs m) c b fun h => hb (Finset.mem_image.mpr ⟨3, Finset.mem_univ _, (List.mem_singleton.mp h).symm⟩)

/-- At region 1's exit, likewise. -/
theorem hF1 (c : Dev nD) (w : Fin cfg1.W) : (pdats m 1 c).arrAt w cfg1.N = VV4 m c (Pipeline.arrRef spec1 w) := by
  by_cases hw : w = 2
  · subst hw
    exact ((outs4 m c).symm.trans (Function.update_self (β := fun b : DevRef τ sig => b.ty.Contents (Elt F)) _ _ _).symm)
  · have hne : Pipeline.arrRef spec1 w ∉ ([main_v35] : List (Ref sig .tc)) := fun h =>
      hw (launch1.win.arr_inj ((List.mem_singleton.mp h).trans (rfl : main_v35 = Pipeline.arrRef spec1 2)))
    exact (R1.in1 (VV3 m) c w hw).trans (Gen.V4_of m (outs m) c _ hne).symm

theorem hrest1 (c : Dev nD) : ∀ b, b ∉ Finset.univ.image (Pipeline.arrRef spec1) → VV4 m c b = VV3 m c b := fun b hb =>
  Gen.V4_of m (outs m) c b fun h => hb (Finset.mem_image.mpr ⟨2, Finset.mem_univ _, (List.mem_singleton.mp h).symm⟩)

/-! ## The dues and the tables at a region's two ends -/

/-- A core that owes nothing, whatever pairs its waits have recorded, owes the proof data's first tallies within the
    first bound — when those tallies are zero and the bound leaves out no pair. -/
theorem owesAt_first {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [h0, hr, Set.univ_union]
  iintro ⟨%W, H⟩
  iexists W
  isplitr
  · ipureintro; exact Set.subset_univ _
  · iexact H

/-- At the last point the proof data's dues are nothing again: the bound on the recorded pairs is forgotten. -/
theorem owes_of_owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  unfold Pipeline.Dat.owesAt Pipeline.owesWithin
  rw [hN]
  iintro ⟨%W, -, H⟩
  iexists W
  iexact H

/-- Neither pallas_call has a prefetched table: holding the tables is holding nothing. -/
theorem prefHeld_none (p : Fin 2) (c : Dev nD) :
    (BI.emp : sProp 𝕄) ⊢ Pipeline.prefHeld (pcfgs (F := F) p).pre c (fun _ => fullShare) (Gen.adm (F := F) p).1 := by
  unfold Pipeline.prefHeld
  rw [Finset.univ_eq_empty, BI.bigSep_empty]

/-! ## The regions as segments -/

set_option backward.isDefEq.respectTransparency.types false in
/-- REGION 0 over the thread state: entered from every unscoped buffer at the contents the items before left, left at
    those contents with its output array replaced by the named result. Its arrays are split out of the unscoped buffers
    at entry and put back at exit; the generator register and the scoped buffers no window stages go into the proof
    data's invariant at the first point and come back at the last; nothing is owed; the kernel has no semaphore of its
    own. -/
def reg0 : RegionSeg (pcfgs (F := F)) Gen.adm (pdats m) () defs₀ Variants.none LL lvv 0 where
  win := launch0.win.to₀
  block_pos := launch0.block_pos
  stage_whole := launch0.stage_whole
  K := PEmpty
  osem k := k.elim
  ho := Pipeline.OwnSemFacts.none _
  hbody c := (R0.body_obligation0 (VV1 m) c).loose
  hwaits := Pipeline.hwaits_of_owed_zero _ _ _ _ LL lvv 0 fun c t => R0.owed0 (VV1 m) c t
  pre c := iprop(StableHlo.held (c : Thread nD τ) (Pipeline.ucRefs τ sig) (Gen.V1 m c) ∗ EE c)
  post c := iprop(StableHlo.held (c : Thread nD τ) (Pipeline.ucRefs τ sig) (Gen.V2 m (outs m) c) ∗ EE c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    have hsplit := Pipeline.arrays_of_unscopedBufs (p := 0) (pcfgs (F := F)) Gen.adm (pdats m) launch0.win launch0.arr_whole c
      ((pdats m 0 c).share_full fun w => R0.q0 (VV1 m) c w) (VV1 m c) fun w => R0.A_eq0 (VV1 m) c w
    rw [Pipeline.unscopedBufs_held] at hsplit
    have hdue := owesAt_first (pdats m 0 c) (R0.owed0 (VV1 m) c 0) (R0.rec0 (VV1 m) c)
    have htab := prefHeld_none (F := F) 0 c
    iintro ⟨⟨Hbufs, Hgen, Hdue⟩, -, -⟩
    imodintro
    ihave Hsp := hsplit $$ Hbufs
    icases Hsp with ⟨Harr, Hrest⟩
    isplitl [Harr]; · iexact Harr
    isplitr; · iapply htab; iempintro
    isplitl [Hdue]; · iapply hdue; iexact Hdue
    isplitl [Hgen]; · iexact Hgen
    iexact Hrest
  hin c := R0.hin0 (VV1 m) c
  hout c := by
    rw [Pipeline.ownSems0_none]
    refine (R0.hout0 (VV1 m) c).trans ?_
    iintro ⟨Hgen, Hsc⟩
    isplitl [Hgen]; · iexact Hgen
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => R0.q0 (VV1 m) c w)
      (VV1 m c) (VV2 m c) ((pdats m 0 c).arrAt · cfg0.N) (hF0 m c) (hrest0 m c)
    rw [Pipeline.unscopedBufs_held] at hjoin
    have hdue := owes_of_owesAt_last (pdats m 0 c) (R0.owed0 (VV1 m) c (Fin.last _))
    iintro ⟨Harr, Hdue, Hgen, Hrest⟩
    imodintro
    isplitl [Harr Hrest]
    · iapply hjoin; isplitl [Harr]; · iexact Harr
      iexact Hrest
    isplitl [Hgen]; · iexact Hgen
    iapply hdue; iexact Hdue

set_option backward.isDefEq.respectTransparency.types false in
/-- REGION 1 over the thread state: entered from every unscoped buffer at the contents the items before left, left at
    those contents with its output array replaced by the named result. Its arrays are split out of the unscoped buffers
    at entry and put back at exit; the generator register and the scoped buffers no window stages go into the proof
    data's invariant at the first point and come back at the last; nothing is owed; the kernel has no semaphore of its
    own. -/
def reg1 : RegionSeg (pcfgs (F := F)) Gen.adm (pdats m) () defs₀ Variants.none LL lvv 1 where
  win := launch1.win.to₀
  block_pos := launch1.block_pos
  stage_whole := launch1.stage_whole
  K := PEmpty
  osem k := k.elim
  ho := Pipeline.OwnSemFacts.none _
  hbody c := (R1.body_obligation1 (VV3 m) c).loose
  hwaits := Pipeline.hwaits_of_owed_zero _ _ _ _ LL lvv 1 fun c t => R1.owed1 (VV3 m) c t
  pre c := iprop(StableHlo.held (c : Thread nD τ) (Pipeline.ucRefs τ sig) (Gen.V3 m (outs m) c) ∗ EE c)
  post c := iprop(StableHlo.held (c : Thread nD τ) (Pipeline.ucRefs τ sig) (Gen.V4 m (outs m) c) ∗ EE c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    have hsplit := Pipeline.arrays_of_unscopedBufs (p := 1) (pcfgs (F := F)) Gen.adm (pdats m) launch1.win launch1.arr_whole c
      ((pdats m 1 c).share_full fun w => R1.q1 (VV3 m) c w) (VV3 m c) fun w => R1.A_eq1 (VV3 m) c w
    rw [Pipeline.unscopedBufs_held] at hsplit
    have hdue := owesAt_first (pdats m 1 c) (R1.owed1 (VV3 m) c 0) (R1.rec1 (VV3 m) c)
    have htab := prefHeld_none (F := F) 1 c
    iintro ⟨⟨Hbufs, Hgen, Hdue⟩, -, -⟩
    imodintro
    ihave Hsp := hsplit $$ Hbufs
    icases Hsp with ⟨Harr, Hrest⟩
    isplitl [Harr]; · iexact Harr
    isplitr; · iapply htab; iempintro
    isplitl [Hdue]; · iapply hdue; iexact Hdue
    isplitl [Hgen]; · iexact Hgen
    iexact Hrest
  hin c := R1.hin1 (VV3 m) c
  hout c := by
    rw [Pipeline.ownSems0_none]
    refine (R1.hout1 (VV3 m) c).trans ?_
    iintro ⟨Hgen, Hsc⟩
    isplitl [Hgen]; · iexact Hgen
    isplitr; · iempintro
    iexact Hsc
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => R1.q1 (VV3 m) c w)
      (VV3 m c) (VV4 m c) ((pdats m 1 c).arrAt · cfg1.N) (hF1 m c) (hrest1 m c)
    rw [Pipeline.unscopedBufs_held] at hjoin
    have hdue := owes_of_owesAt_last (pdats m 1 c) (R1.owed1 (VV3 m) c (Fin.last _))
    iintro ⟨Harr, Hdue, Hgen, Hrest⟩
    imodintro
    isplitl [Harr Hrest]
    · iapply hjoin; isplitl [Harr]; · iexact Harr
      iexact Hrest
    isplitl [Hgen]; · iexact Hgen
    iapply hdue; iexact Hdue

/-! ## The launch -/

set_option backward.isDefEq.respectTransparency.types false in
/-- THE RUN, GIVEN THE REGIONS' RECORDS. For any user algebra, level assignment, launch dues and ghost resources, any rest
    states `E` the launch makes on every core at once and that end owing nothing, any contents the regions leave and any
    proof data: given, per region, a segment record entered from the thread state before it and left at the one after
    it, every weakly fair execution of @main from memory `m` with zero counters terminates, and every final memory holds
    the result array at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V3 m outs c) ∗ E 1 c) ⊢ R1.pre c)
    (hpost1 : ∀ c : Dev nD, R1.post c ⊢ iprop(StableHlo.held (c : Thread nD τ) (Pipeline.ucRefs τ sig) (Gen.V4 m outs c) ∗ E 2 c)) :
    θ_run defs (onTc (τ := τ) (main (F := F))) ⟨m, fun _ => 0, ρ⟩ (fun r => ∀ c : Dev nD,
      r.2.mem ((c.tc : Thread nD τ).loc main_v39) = Gen.V5 m outs c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m outs c))
    (hch := fun c => ⟨.rfl, hpre0 c, hpost0 c, hpre1 c, hpost1 c, sep_mono .rfl (hE2 c)⟩)
    (hinit := ?_) (QY := fun c s => s.mem ((c.tc : Thread nD τ).loc main_v39) = Gen.V5 m outs c main_v39 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result array and each argument's buffer read off the last valuation
    unfold StableHlo.held
    iintro ⟨Hh, HSI⟩
    ihave Hr := (pointsTo_read_all (Pipeline.ucRefs τ sig) (fun b => ((c : Thread nD τ).1, b)) (Gen.V5 m outs c) s') $$ [Hh HSI]
    · isplitl [Hh] <;> iassumption
    icases Hr with ⟨%h, HSI⟩
    imodintro
    isplitr
    · ipureintro
      exact ⟨h (Proc.devRef .tc main_v39) (Finset.mem_filter.mpr ⟨StableHlo.devRef_mem_tcRefs main_v39, by decide⟩),
        (h (Proc.devRef .tc main_arg0) (Finset.mem_filter.mpr ⟨StableHlo.devRef_mem_tcRefs main_arg0, by decide⟩)).trans (Gen.V5_main_arg0 m outs c),
        (h (Proc.devRef .tc main_arg1) (Finset.mem_filter.mpr ⟨StableHlo.devRef_mem_tcRefs main_arg1, by decide⟩)).trans (Gen.V5_main_arg1 m outs c),
        (h (Proc.devRef .tc main_arg2) (Finset.mem_filter.mpr ⟨StableHlo.devRef_mem_tcRefs main_arg2, by decide⟩)).trans (Gen.V5_main_arg2 m outs c)⟩
    · iexact HSI

/-- The launch element: the pipeline library's at every pipeline's staging cells, no further ghost resource. -/
abbrev u₀ : UR sig nD τ := initOf (Pipeline.cells cfgs cellOf_inj) (Pipeline.launchToks cfgs cellOf_inj)

/-- The launch element yields the pipeline library's; no core gets a ghost resource of the certificate's own. -/
theorem launch_elem : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [BI.bigSep_emp_const]
  iintro Hu
  imodintro
  isplitl [Hu]
  · iapply (show (ownU u₀ : sProp 𝕄) ⊢ BI.own (emb₁ u₀) from .rfl); iexact Hu
  · iempintro

/-- Every core makes its first rest state from what the launch deals it: the generator register at the launched state,
    the dues at nothing with no pair recorded. -/
theorem rest_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts LL lvv)
      ⊢ (|={Set.univ}=> bigSep Finset.univ (fun c : Dev nD => EE (F := F) c) : sProp 𝕄) :=
  Pipeline.initEach LL lvv fun c => by
    iintro ⟨⟨-, Hdue, -, Hgen, -⟩, -⟩
    imodintro
    isplitl [Hgen]
    · iexists _; iexact Hgen
    · iexists ∅; iexact Hdue

/-- THE RUN: every weakly fair execution of @main terminates; the result array ends at what the last host stretch makes of
    region 1's output, and the arguments end as launched. -/
theorem run_main : θ_run defs (onTc (τ := τ) (main (F := F))) ⟨m, fun _ => 0, ρ⟩ (fun r => ∀ c : Dev nD,
      r.2.mem ((c.tc : Thread nD τ).loc main_v39) = Gen.V5 m (outs m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m ρ emb₁ () Variants.none LL lvv (fun _ _ => rfl) (outs m) (pdats m) 0 (fun _ => iprop(emp)) u₀ launch_elem
    (fun _ c => EE c) (rest_init ρ) (fun c => by iintro ⟨-, Hdue⟩; iexact Hdue)
    (reg0 m) (fun _ => .rfl) (fun _ => .rfl) (reg1 m) (fun _ => .rfl) (fun _ => .rfl)

end Cert.KernelIdeal.Run

end
-- ==== Proof.KI.HostW.lean ====
import proofs.«419280_j21818433864468_2_alg».proof.Proof.Gen.KernelIdeal.Regions
import proofs.«419280_j21818433864468_2_alg».proof.Proof.KI.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-!
# The weight table the host builds, read at an index

The first host stretch scatter-adds `2^k` at (connection `k` of neuron `n`, `n`) into a zero table: entry (`t`, `n`) is the sum of
`2^k` over the connections of `n` wired to `t`, an integer below 65536; its conversion to an integer word, the two byte planes
and their conversions back to floats are exact at the ideal instance.
-/

noncomputable section

open scoped BigOperators

namespace Cert.KernelIdeal.HostW

open Idealize.ShloMosaic Idealize.ShloMosaic.TcCoe Idealize.SL.Sem Idealize.ShloMosaic.ValueIdx
open Cert.KernelIdeal Cert.KernelIdeal.Gen Cert.KernelIdeal.Spec

/-! ## The host stretch's results as terms of the two arguments, at any float instance -/

section Generic

variable {F : FTy → Type} [FloatOps F]

/-- The update values: `2^k` as a float at (neuron, connection `k`). -/
def updF : Vec F S2048x16 .f32 :=
  broadcastInDim S2048x16 ![0, 1] bcast_S1x16_S2048x16_0_1
    (broadcastInDim S1x16 ![1] bcast_S16_S1x16_1
      (sitofp .f32 (Host.shli (broadcastInDim S16 ![] bcast_S_S16 (constantI S_ 32 1#32)) (iotaInDim S16 32 0))))

/-- The negative-index wrap: `x + N` where `x` is negative, else `x`. -/
def wrapI (N : BitVec 32) (x : IVec S2048x16 32) : IVec S2048x16 32 :=
  select (cmpi .slt x (broadcastInDim S2048x16 ![] bcast_S_S2048x16 (constantI S_ 32 0#32)))
    (addi x (broadcastInDim S2048x16 ![] bcast_S_S2048x16 (constantI S_ 32 N))) x

/-- The neuron's number at (neuron, connection). -/
def rowI : IVec S2048x16 32 :=
  broadcastInDim S2048x16 ![0, 1] bcast_S2048x1_S2048x16_0_1
    (broadcastInDim S2048x1 ![0] bcast_S2048_S2048x1_0 (iotaInDim S2048 32 0))

/-- The scatter's index pairs: (wrapped connection, wrapped neuron number) at (neuron, connection). -/
def idxI (conn : IVec S2048x16 32) : IVec S2048x16x2 32 :=
  concatenate S2048x16x2 2
    [⟨S2048x16x1, broadcastInDim S2048x16x1 ![0, 1] bcast_S2048x16_S2048x16x1_0_1 (wrapI 4096#32 conn)⟩,
     ⟨S2048x16x1, broadcastInDim S2048x16x1 ![0, 1] bcast_S2048x16_S2048x16x1_0_1 (wrapI 2048#32 rowI)⟩]
    concatenates_S2048x16x1_S2048x16x1_S2048x16x2_d2

/-- The weight table as floats: the updates scatter-added into zeros. -/
def tabF (conn : IVec S2048x16 32) : Vec F S4096x2048 .f32 :=
  Host.scatterAdd scatter_S4096x2048_S2048x16x2_S2048x16_n_01_01_2
    (broadcastInDim S4096x2048 ![] bcast_S_S4096x2048 (constant (F := F) S_ .f32 0x00000000#32)) (idxI conn) updF

/-- The weight table as integer words. -/
def tabW (conn : IVec S2048x16 32) : IVec S4096x2048 32 := fptosi 32 (tabF (F := F) conn)

variable (m : (ℓ : Loc nD τ sig) → Buf (Elt F) ℓ)

theorem V1_x_term (c : Dev nD) :
    Gen.V1 m c main_v31 = (sitofp .bf16 (m ((c : Thread nD τ).loc main_arg0)) : Vec F S1024x4096 .bf16) := by
  show StableHlo.after hostOps0 _ (Proc.devRef .tc main_v31) = _
  after_results

set_option maxHeartbeats 4000000 in
theorem V1_wlo_term (c : Dev nD) :
    Gen.V1 m c main_v27 = (sitofp .bf16 (andi (tabW (F := F) (m ((c : Thread nD τ).loc main_arg1)))
      (broadcastInDim S4096x2048 ![] bcast_S_S4096x2048 (constantI S_ 32 255#32))) : Vec F S4096x2048 .bf16) := by
  unfold tabW tabF idxI wrapI rowI updF
  show StableHlo.after hostOps0 _ (Proc.devRef .tc main_v27) = _
  after_results_simp
  rfl

set_option maxHeartbeats 4000000 in
theorem V1_whi_term (c : Dev nD) :
    Gen.V1 m c main_v30 = (sitofp .bf16 (Host.shrsi (tabW (F := F) (m ((c : Thread nD τ).loc main_arg1)))
      (broadcastInDim S4096x2048 ![] bcast_S_S4096x2048 (constantI S_ 32 8#32))) : Vec F S4096x2048 .bf16) := by
  unfold tabW tabF idxI wrapI rowI updF
  show StableHlo.after hostOps0 _ (Proc.devRef .tc main_v30) = _
  after_results_simp
  rfl

end Generic

/-! ## The scatter's landing index -/

section Scatter

/-- An update lands at `i` exactly when its start plus its window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · constructor
    · intro e a
      have e1 := congrFun (Option.some.inj e) a
      have e2 := congrArg Fin.val e1
      simp only at e2
      have := h a
      omega
    · intro e
      congr 1
      funext a
      apply Fin.ext
      have := e a
      simp only
      omega
  · constructor
    · intro e; exact absurd e (by simp)
    · intro e
      exfalso; apply h; intro a
      have := e a; have := (i a).isLt
      omega

/-- The scatter's dimension numbers. -/
abbrev dW : ScatterDims S4096x2048 S2048x16x2 S2048x16 := scatter_S4096x2048_S2048x16x2_S2048x16_n_01_01_2

theorem dW_window (j : S2048x16.Idx) (a : Fin 2) : dW.window j a = 0 := by
  unfold ScatterDims.window
  rw [dif_neg]
  fin_cases a <;> decide

theorem dW_siIdx (j : S2048x16.Idx) (c : Fin dW.scatterDimsToOperandDims.length) :
    dW.siIdx j c = ix3 (j 0) (j 1) ⟨c.val, c.isLt⟩ := by
  funext b; fin_cases b <;> rfl

theorem dW_start0 (j : S2048x16.Idx) (idx : IVec S2048x16x2 32) :
    dW.start j idx 0 = (idx (ix3 (j 0) (j 1) 0)).toInt := by
  unfold ScatterDims.start; rw [dif_pos (by decide), dW_siIdx]; rfl

theorem dW_start1 (j : S2048x16.Idx) (idx : IVec S2048x16x2 32) :
    dW.start j idx 1 = (idx (ix3 (j 0) (j 1) 1)).toInt := by
  unfold ScatterDims.start; rw [dif_pos (by decide), dW_siIdx]; rfl

theorem dW_resultIdx (idx : IVec S2048x16x2 32) (a : Fin 2048) (b : Fin 16) (t : Fin 4096) (n : Fin 2048) :
    dW.resultIdx? (ix2 a b) idx = some (ix2 t n) ↔
      (idx (ix3 a b 0)).toInt = (t.val : ℤ) ∧ (idx (ix3 a b 1)).toInt = (n.val : ℤ) := by
  rw [resultIdx?_eq_some_iff]
  constructor
  · intro e
    have e0 := e 0; have e1 := e 1
    rw [dW_start0, dW_window] at e0
    rw [dW_start1, dW_window] at e1
    exact ⟨by simpa using e0, by simpa using e1⟩
  · rintro ⟨e0, e1⟩ x
    fin_cases x
    · show dW.start _ idx 0 + (dW.window _ 0 : ℤ) = _
      rw [dW_start0, dW_window]; simpa using e0
    · show dW.start _ idx 1 + (dW.window _ 1 : ℤ) = _
      rw [dW_start1, dW_window]; simpa using e1

end Scatter

/-! ## The scatter's operands read at an index -/

section Reads

theorem bcast3_apply {α : Type} (x : S2048x16.Idx → α) (n : Fin 2048) (k : Fin 16) (z : Fin 1) :
    broadcastInDim S2048x16x1 ![0, 1] bcast_S2048x16_S2048x16x1_0_1 x (ix3 n k z) = x (ix2 n k) := by
  unfold broadcastInDim
  congr 1; funext a; fin_cases a <;> rfl

theorem idxI_0 (conn : IVec S2048x16 32) (n : Fin 2048) (k : Fin 16) :
    idxI conn (ix3 n k 0) = wrapI 4096#32 conn (ix2 n k) := by
  unfold idxI
  rw [concatenate_pair_apply_left 2 _ _ concatenates_S2048x16x1_S2048x16x1_S2048x16x2_d2 (ix3 n k 0) rfl (ix3 n k 0)
    (fun b => by fin_cases b <;> rfl)]
  exact bcast3_apply _ n k 0

theorem idxI_1 (conn : IVec S2048x16 32) (n : Fin 2048) (k : Fin 16) :
    idxI conn (ix3 n k 1) = wrapI 2048#32 rowI (ix2 n k) := by
  unfold idxI
  rw [concatenate_pair_apply_right 2 _ _ concatenates_S2048x16x1_S2048x16x1_S2048x16x2_d2 (ix3 n k 1) rfl rfl (ix3 n k 0)
    (fun b hb => by fin_cases b <;> first | rfl | exact absurd rfl hb) rfl]
  exact bcast3_apply _ n k 0

theorem rowI_apply (n : Fin 2048) (k : Fin 16) : rowI (ix2 n k) = BitVec.ofNat 32 n.val := rfl

/-- The wrap leaves a word whose sign bit is clear as it is. -/
theorem wrapI_apply_of_lt (N : BitVec 32) (x : IVec S2048x16 32) (j : S2048x16.Idx) (hx : (x j).toNat < 2 ^ 31) :
    wrapI N x j = x j := by
  have hm : (x j).msb = false := BitVec.msb_eq_false_iff_two_mul_lt.mpr (by omega)
  have hc : IntOp.cmpi .slt (x j) 0#32 = 0#1 := by
    show BitVec.ofBool ((x j).slt 0#32) = 0#1
    rw [BitVec.slt_zero_eq_msb, hm]; rfl
  show Scalar.select (IntOp.cmpi .slt (x j) 0#32) _ _ = _
  rw [hc, select_zero]

/-- The first index component: the connection, when it is in range. -/
theorem idxI_0_toInt (conn : IVec S2048x16 32) (n : Fin 2048) (k : Fin 16) (h : connNat conn n k < 4096) :
    (idxI conn (ix3 n k 0)).toInt = ((connNat conn n k : ℕ) : ℤ) := by
  have hc : (conn (ix2 n k)).toNat < 4096 := h
  rw [idxI_0, wrapI_apply_of_lt _ _ _ (by omega)]
  exact BitVec.toInt_eq_toNat_of_lt (by omega)

/-- The second index component: the neuron's number. -/
theorem idxI_1_toInt (conn : IVec S2048x16 32) (n : Fin 2048) (k : Fin 16) :
    (idxI conn (ix3 n k 1)).toInt = ((n.val : ℕ) : ℤ) := by
  have hn := n.isLt
  have e : (BitVec.ofNat 32 n.val).toNat = n.val := by rw [BitVec.toNat_ofNat]; omega
  rw [idxI_1, wrapI_apply_of_lt _ _ _ (by rw [rowI_apply, e]; omega), rowI_apply,
    BitVec.toInt_eq_toNat_of_lt (by rw [e]; omega), e]

theorem shl_one_toInt : ∀ k : Fin 16, (IntOp.shli .host 1#32 (BitVec.ofNat 32 k.val)).toInt = ((2 ^ k.val : ℕ) : ℤ) := by
  decide

/-- The update at (neuron, connection `k`) is `2^k`. -/
theorem updF_apply (n : Fin 2048) (k : Fin 16) : updF (F := Ideal) (ix2 n k) = (((2 ^ k.val : ℕ) : ℝ) : EReal) := by
  show (((IntOp.shli .host 1#32 (BitVec.ofNat 32 k.val)).toInt : ℝ) : EReal) = _
  rw [shl_one_toInt, Int.cast_natCast]

end Reads

/-! ## The weight table at an index -/

section Table

theorem ereal_coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Entry (`t`, `n`) of the float table is the sum of `2^k` over the connections of `n` wired to `t`. -/
theorem tabF_apply (conn : IVec S2048x16 32) (h : ∀ n k, connNat conn n k < 4096) (t : Fin 4096) (n : Fin 2048) :
    tabF (F := Ideal) conn (ix2 t n) = (((Wnat conn t n : ℕ) : ℝ) : EReal) := by
  unfold tabF Host.scatterAdd
  rw [Ideal.hostScatterAdd_def]
  unfold Ideal.hostScatterAdd
  beta_reduce
  rw [show broadcastInDim S4096x2048 ![] bcast_S_S4096x2048 (constant (F := Ideal) S_ .f32 0x00000000#32) (ix2 t n)
      = (0 : EReal) from Ideal.ofBits_zero_f32]
  rw [zero_add, Finset.sum_filter, sum_idx2, Finset.sum_eq_single n]
  · unfold Wnat
    rw [Nat.cast_sum, ereal_coe_sum]
    refine Finset.sum_congr rfl fun k _ => ?_
    have e0 := idxI_0_toInt conn n k (h n k)
    have e1 := idxI_1_toInt conn n k
    rw [updF_apply]
    by_cases hk : connNat conn n k = t.val
    · rw [if_pos hk, if_pos ((dW_resultIdx _ _ _ _ _).mpr ⟨by rw [e0, hk], e1⟩)]
    · rw [if_neg hk, if_neg (fun hr => hk (by
        have := ((dW_resultIdx _ _ _ _ _).mp hr).1
        rw [e0] at this; exact_mod_cast this))]
      simp
  · intro a _ hne
    refine Finset.sum_eq_zero fun k _ => ?_
    rw [if_neg]
    intro hr
    have := ((dW_resultIdx _ _ _ _ _).mp hr).2
    rw [idxI_1_toInt] at this
    exact hne (Fin.ext (by exact_mod_cast this))
  · intro hn; exact absurd (Finset.mem_univ n) hn

end Table

/-! ## The integer table and its two byte planes -/

section Planes

theorem Wnat_le (conn : IVec S2048x16 32) (t : Fin 4096) (n : Fin 2048) : Wnat conn t n ≤ 65535 := by
  unfold Wnat
  calc (∑ k : Fin 16, if connNat conn n k = t.val then 2 ^ k.val else 0)
      ≤ ∑ k : Fin 16, 2 ^ k.val := Finset.sum_le_sum fun k _ => by split_ifs <;> simp
    _ = 65535 := by decide

/-- The conversion to an integer word is exact: the table's entries are naturals far below `2^31`. -/
theorem tabW_apply (conn : IVec S2048x16 32) (h : ∀ n k, connNat conn n k < 4096) (t : Fin 4096) (n : Fin 2048) :
    tabW (F := Ideal) conn (ix2 t n) = BitVec.ofNat 32 (Wnat conn t n) := by
  have hW := Wnat_le conn t n
  show Ideal.fptosi 32 (tabF (F := Ideal) conn (ix2 t n)) = _
  rw [tabF_apply conn h, Ideal.fptosi, Ideal.toIntClamped_coe, if_pos (Nat.cast_nonneg _), Int.floor_natCast]
  have h1 : ((Wnat conn t n : ℕ) : ℤ) ≤ ((2 ^ (32 - 1) : ℕ) : ℤ) - 1 := by
    have : ((2 ^ (32 - 1) : ℕ) : ℤ) = 2147483648 := by norm_num
    omega
  have h2 : -((2 ^ (32 - 1) : ℕ) : ℤ) ≤ ((Wnat conn t n : ℕ) : ℤ) := by
    have : (0 : ℤ) ≤ ((2 ^ (32 - 1) : ℕ) : ℤ) := Int.natCast_nonneg _
    omega
  rw [min_eq_right h1, max_eq_right h2]
  exact BitVec.ofInt_natCast 32 _

/-- The low byte of a small word, read signed. -/
theorem and255_toInt (W : ℕ) (hW : W ≤ 65535) : (IntOp.andi (BitVec.ofNat 32 W) 255#32).toInt = ((W % 256 : ℕ) : ℤ) := by
  have e : (BitVec.ofNat 32 W &&& 255#32).toNat = W % 256 := by
    rw [BitVec.toNat_and, BitVec.toNat_ofNat, Nat.mod_eq_of_lt (by omega)]
    exact Nat.and_two_pow_sub_one_eq_mod W 8
  show (BitVec.ofNat 32 W &&& 255#32).toInt = _
  rw [BitVec.toInt_eq_toNat_of_lt (by rw [e]; omega), e]

/-- The arithmetic shift right by eight of a small word, read signed. -/
theorem shr8_toInt (W : ℕ) (hW : W ≤ 65535) : (IntOp.shrsi .host (BitVec.ofNat 32 W) 8#32).toInt = ((W / 256 : ℕ) : ℤ) := by
  have hm : (BitVec.ofNat 32 W).msb = false :=
    BitVec.msb_eq_false_iff_two_mul_lt.mpr (by rw [BitVec.toNat_ofNat]; omega)
  have e : (BitVec.ofNat 32 W >>> 8).toNat = W / 256 := by
    rw [BitVec.toNat_ushiftRight, BitVec.toNat_ofNat, Nat.mod_eq_of_lt (by omega), Nat.shiftRight_eq_div_pow]
  show (if (8#32).toNat < 32 then (BitVec.ofNat 32 W).sshiftRight' 8#32 else _).toInt = _
  rw [if_pos (by decide)]
  show ((BitVec.ofNat 32 W).sshiftRight 8).toInt = _
  rw [BitVec.sshiftRight_eq_of_msb_false hm, BitVec.toInt_eq_toNat_of_lt (by rw [e]; omega), e]

end Planes

/-! ## Region 0's three operands -/

variable (m : (ℓ : Loc nD τ sig) → Buf (Elt Ideal) ℓ)

/-- Region 0's first operand: the bit matrix as reals. -/
theorem V1_x (c : Dev nD) : Gen.V1 m c main_v31 = xR (m ((c : Thread nD τ).loc main_arg0)) := by
  rw [V1_x_term]
  funext j
  rfl

/-- Region 0's second operand: the low byte plane of the weight table, when the connections are in range. -/
theorem V1_wlo (c : Dev nD) (h : ∀ n k, connNat (m ((c : Thread nD τ).loc main_arg1)) n k < 4096) :
    Gen.V1 m c main_v27 = wloR (m ((c : Thread nD τ).loc main_arg1)) := by
  rw [V1_wlo_term]
  funext j
  obtain ⟨t, n, rfl⟩ : ∃ t n, j = ix2 t n := ⟨j 0, j 1, eq_ix2 j⟩
  show (((IntOp.andi (tabW (F := Ideal) (m ((c : Thread nD τ).loc main_arg1)) (ix2 t n)) 255#32).toInt : ℝ) : EReal)
      = (((Wnat (m ((c : Thread nD τ).loc main_arg1)) t n % 256 : ℕ) : ℝ) : EReal)
  rw [tabW_apply _ h, and255_toInt _ (Wnat_le _ _ _), Int.cast_natCast]

/-- Region 0's third operand: the high byte plane. -/
theorem V1_whi (c : Dev nD) (h : ∀ n k, connNat (m ((c : Thread nD τ).loc main_arg1)) n k < 4096) :
    Gen.V1 m c main_v30 = whiR (m ((c : Thread nD τ).loc main_arg1)) := by
  rw [V1_whi_term]
  funext j
  obtain ⟨t, n, rfl⟩ : ∃ t n, j = ix2 t n := ⟨j 0, j 1, eq_ix2 j⟩
  show (((IntOp.shrsi .host (tabW (F := Ideal) (m ((c : Thread nD τ).loc main_arg1)) (ix2 t n)) 8#32).toInt : ℝ) : EReal)
      = (((Wnat (m ((c : Thread nD τ).loc main_arg1)) t n / 256 : ℕ) : ℝ) : EReal)
  rw [tabW_apply _ h, shr8_toInt _ (Wnat_le _ _ _), Int.cast_natCast]

end Cert.KernelIdeal.HostW

end
-- ==== Proof.KI.AddrMath.lean ====
import proofs.«419280_j21818433864468_2_alg».proof.Proof.KI.Spec
import Idealize.ShloMosaic.Lib.ValueIdx
import Idealize.ShloMosaic.Lib.ValueLayout
import Idealize.ShloMosaic.Lib.Pipeline.Value
import Idealize.ShloMosaic.PureOps.Ideal.Laws

/-!
# The address matmul over the reals is the weighted sum of the wired bits

At the ideal instance the bit matrix, the two byte planes and every partial sum are exact integers, so rounding is the
identity, `lo + 256·hi` recombines the weight table, and the sum over the 4096 inputs of bit × weight regroups into the
sum over a neuron's 16 connections of `2^k` × wired bit.
-/

noncomputable section

open scoped BigOperators

namespace Cert.KernelIdeal.AddrMath

open Idealize.ShloMosaic Idealize.ShloMosaic.ValueIdx
open Cert.KernelIdeal Cert.KernelIdeal.Gen Cert.KernelIdeal.Spec

/-! ## The contraction's operand indices -/

private theorem lhs_dot_0 (j : S1024x256.Idx) (k : dot_S1024x512_S512x256_S1024x256_1_0_0_1_n_n.contr.Idx) :
    (dot_S1024x512_S512x256_S1024x256_1_0_0_1_n_n.lhsIdx j k 0).val = (j 0).val := by
  simp [DotDims.lhsIdx, dot_S1024x512_S512x256_S1024x256_1_0_0_1_n_n]; rfl

private theorem lhs_dot_1 (j : S1024x256.Idx) (k : dot_S1024x512_S512x256_S1024x256_1_0_0_1_n_n.contr.Idx) :
    (dot_S1024x512_S512x256_S1024x256_1_0_0_1_n_n.lhsIdx j k 1).val = (k ⟨0, by decide⟩).val :=
  dot_S1024x512_S512x256_S1024x256_1_0_0_1_n_n.lhsIdx_val_of_single rfl j k

private theorem rhs_dot_0 (j : S1024x256.Idx) (k : dot_S1024x512_S512x256_S1024x256_1_0_0_1_n_n.contr.Idx) :
    (dot_S1024x512_S512x256_S1024x256_1_0_0_1_n_n.rhsIdx j k 0).val = (k ⟨0, by decide⟩).val :=
  dot_S1024x512_S512x256_S1024x256_1_0_0_1_n_n.rhsIdx_val_of_single rfl j k

private theorem rhs_dot_1 (j : S1024x256.Idx) (k : dot_S1024x512_S512x256_S1024x256_1_0_0_1_n_n.contr.Idx) :
    (dot_S1024x512_S512x256_S1024x256_1_0_0_1_n_n.rhsIdx j k 1).val = (j 1).val := by
  simp [DotDims.rhsIdx, dot_S1024x512_S512x256_S1024x256_1_0_0_1_n_n]; rfl

/-- The block product read at (p, q): the sum over the 512 contracted coordinates of the entries' products. -/
private theorem matmul_dot_apply (A : FVec Ideal S1024x512 .bf16) (B : FVec Ideal S512x256 .bf16) (p : Fin 1024) (q : Fin 256) :
    matmul dot_S1024x512_S512x256_S1024x256_1_0_0_1_n_n none A B (constant (F := Ideal) S1024x256 .f32 0x00000000#32) (ix2 p q)
      = ∑ c : Fin 512, A (ix2 p c) * B (ix2 c q) := by
  simp only [matmul]
  rw [Ideal.matmul_constant_zero_apply,
    ← Equiv.sum_comp (contrEquiv1 dot_S1024x512_S512x256_S1024x256_1_0_0_1_n_n 512 rfl rfl).symm]
  refine Finset.sum_congr rfl fun c _ => ?_
  have hk := contrEquiv1_symm_val dot_S1024x512_S512x256_S1024x256_1_0_0_1_n_n 512 rfl rfl c
  have l2 : dot_S1024x512_S512x256_S1024x256_1_0_0_1_n_n.lhsIdx (ix2 p q)
      ((contrEquiv1 dot_S1024x512_S512x256_S1024x256_1_0_0_1_n_n 512 rfl rfl).symm c) = ix2 p c := by
    funext ax; apply Fin.ext
    match ax with
    | ⟨0, _⟩ => exact lhs_dot_0 _ _
    | ⟨1, _⟩ => exact (lhs_dot_1 _ _).trans hk
  have r2 : dot_S1024x512_S512x256_S1024x256_1_0_0_1_n_n.rhsIdx (ix2 p q)
      ((contrEquiv1 dot_S1024x512_S512x256_S1024x256_1_0_0_1_n_n 512 rfl rfl).symm c) = ix2 c q := by
    funext ax; apply Fin.ext
    match ax with
    | ⟨0, _⟩ => exact (rhs_dot_0 _ _).trans hk
    | ⟨1, _⟩ => exact rhs_dot_1 _ _
  rw [l2, r2]

/-- One accumulation step read at (p, q). -/
private theorem pay3_apply (v3 : Vec Ideal S1024x256 .f32) (v4 : Vec Ideal S1024x512 .bf16) (v6 : Vec Ideal S512x256 .bf16)
    (p : Fin 1024) (q : Fin 256) :
    k0_pay3 (F := Ideal) v3 v4 v6 (ix2 p q) = v3 (ix2 p q) + ∑ c : Fin 512, v4 (ix2 p c) * v6 (ix2 c q) := by
  unfold k0_pay3
  simp only [shapeCast_self]
  rw [addf_apply, matmul_dot_apply]

private theorem pay4_apply (v3 : Vec Ideal S1024x256 .f32) (v4 : Vec Ideal S1024x512 .bf16) (v6 : Vec Ideal S512x256 .bf16)
    (p : Fin 1024) (q : Fin 256) :
    k0_pay4 (F := Ideal) v3 v4 v6 (ix2 p q) = v3 (ix2 p q) + ∑ c : Fin 512, v4 (ix2 p c) * v6 (ix2 c q) := by
  unfold k0_pay4
  simp only [shapeCast_self]
  rw [addf_apply, matmul_dot_apply]

private theorem pay1_apply (j : S1024x256.Idx) : k0_pay1 (F := Ideal) j = 0 := by
  unfold k0_pay1
  simp only [shapeCast_self]
  rw [broadcast_apply]
  exact Ideal.ofBits_zero_f32

private theorem pay2_apply (j : S1024x256.Idx) : k0_pay2 (F := Ideal) j = 0 := by
  unfold k0_pay2
  simp only [shapeCast_self]
  rw [broadcast_apply]
  exact Ideal.ofBits_zero_f32

/-! ## The accumulators as sums over the inputs read so far -/

/-- Row `p` of the bit matrix as a function on all naturals (zero past the 4096 inputs). -/
private def xT (x : Vec Ideal S1024x4096 .bf16) (p : Fin 1024) (t : ℕ) : EReal :=
  if h : t < 4096 then x (ix2 p ⟨t, h⟩) else 0

/-- A byte plane of the weight table as a function on all pairs of naturals (zero outside the table). -/
private def wT (w : Vec Ideal S4096x2048 .bf16) (t n : ℕ) : EReal :=
  if h : t < 4096 ∧ n < 2048 then w (ix2 ⟨t, h.1⟩ ⟨n, h.2⟩) else 0

private theorem xblk_apply (x : Vec Ideal S1024x4096 .bf16) (k : Fin 8) (p : Fin 1024) (c : Fin 512) :
    xblk x k (ix2 p c) = xT x p (512 * k.val + c.val) := by
  have h : 512 * k.val + c.val < 4096 := by have := k.isLt; have := c.isLt; omega
  rw [xT, dif_pos h]; rfl

private theorem wblk_apply (w : Vec Ideal S4096x2048 .bf16) (k i : Fin 8) (c : Fin 512) (q : Fin 256) :
    wblk w k i (ix2 c q) = wT w (512 * k.val + c.val) (256 * i.val + q.val) := by
  have h : 512 * k.val + c.val < 4096 ∧ 256 * i.val + q.val < 2048 := by
    have := k.isLt; have := c.isLt; have := i.isLt; have := q.isLt; omega
  rw [wT, dif_pos h]; rfl

/-- After `k` row blocks the low-plane accumulator holds the partial product over the first `512·k` inputs. -/
private theorem accLo_apply (x : Vec Ideal S1024x4096 .bf16) (w : Vec Ideal S4096x2048 .bf16) (i : Fin 8) (p : Fin 1024) (q : Fin 256) :
    ∀ k, k ≤ 8 → accLo x w i k (ix2 p q) = ∑ t ∈ Finset.range (512 * k), xT x p t * wT w t (256 * i.val + q.val)
  | 0, _ => by rw [accLo, pay1_apply]; simp
  | k + 1, hk => by
    have h : k < 8 := by omega
    have e : 512 * (k + 1) = 512 * k + 512 := by omega
    rw [accLo, dif_pos h, pay3_apply, accLo_apply x w i p q k (by omega), e, Finset.sum_range_add]
    congr 1
    rw [Finset.sum_range]
    refine Finset.sum_congr rfl fun c _ => ?_
    rw [xblk_apply, wblk_apply]

/-- The high-plane accumulator likewise. -/
private theorem accHi_apply (x : Vec Ideal S1024x4096 .bf16) (w : Vec Ideal S4096x2048 .bf16) (i : Fin 8) (p : Fin 1024) (q : Fin 256) :
    ∀ k, k ≤ 8 → accHi x w i k (ix2 p q) = ∑ t ∈ Finset.range (512 * k), xT x p t * wT w t (256 * i.val + q.val)
  | 0, _ => by rw [accHi, pay2_apply]; simp
  | k + 1, hk => by
    have h : k < 8 := by omega
    have e : 512 * (k + 1) = 512 * k + 512 := by omega
    rw [accHi, dif_pos h, pay4_apply, accHi_apply x w i p q k (by omega), e, Finset.sum_range_add]
    congr 1
    rw [Finset.sum_range]
    refine Finset.sum_congr rfl fun c _ => ?_
    rw [xblk_apply, wblk_apply]

/-- Over all 4096 inputs the padded sum is the sum over the table's rows. -/
private theorem sum_range_T (x : Vec Ideal S1024x4096 .bf16) (w : Vec Ideal S4096x2048 .bf16) (p : Fin 1024) (n : Fin 2048) :
    ∑ t ∈ Finset.range 4096, xT x p t * wT w t n.val = ∑ t : Fin 4096, x (ix2 p t) * w (ix2 t n) := by
  rw [Finset.sum_range]
  refine Finset.sum_congr rfl fun t _ => ?_
  rw [xT, wT, dif_pos t.isLt, dif_pos ⟨t.isLt, n.isLt⟩]

/-- The finished low-plane accumulator of neuron `n`'s column block, read at (sample `b`, `n`'s column in the block). -/
private theorem accLo_full (x : Vec Ideal S1024x4096 .bf16) (w : Vec Ideal S4096x2048 .bf16) (b : Fin 1024) (n : Fin 2048) :
    accLo x w ⟨n.val / 256, by have := n.isLt; omega⟩ 8 (ix2 b ⟨n.val % 256, Nat.mod_lt _ (by decide)⟩)
      = ∑ t : Fin 4096, x (ix2 b t) * w (ix2 t n) := by
  rw [accLo_apply x w _ b _ 8 le_rfl]
  have e : 256 * (n.val / 256) + n.val % 256 = n.val := Nat.div_add_mod _ _
  show ∑ t ∈ Finset.range 4096, xT x b t * wT w t (256 * (n.val / 256) + n.val % 256) = _
  rw [e]; exact sum_range_T x w b n

private theorem accHi_full (x : Vec Ideal S1024x4096 .bf16) (w : Vec Ideal S4096x2048 .bf16) (b : Fin 1024) (n : Fin 2048) :
    accHi x w ⟨n.val / 256, by have := n.isLt; omega⟩ 8 (ix2 b ⟨n.val % 256, Nat.mod_lt _ (by decide)⟩)
      = ∑ t : Fin 4096, x (ix2 b t) * w (ix2 t n) := by
  rw [accHi_apply x w _ b _ 8 le_rfl]
  have e : 256 * (n.val / 256) + n.val % 256 = n.val := Nat.div_add_mod _ _
  show ∑ t ∈ Finset.range 4096, xT x b t * wT w t (256 * (n.val / 256) + n.val % 256) = _
  rw [e]; exact sum_range_T x w b n

/-! ## Naturals inside the extended reals -/

private theorem coe_nat_mul (a b : ℕ) : (((a : ℕ) : ℝ) : EReal) * (((b : ℕ) : ℝ) : EReal) = (((a * b : ℕ) : ℝ) : EReal) := by
  rw [Nat.cast_mul, EReal.coe_mul]

private theorem coe_nat_sum {ι : Type*} (s : Finset ι) (f : ι → ℕ) :
    ∑ i ∈ s, (((f i : ℕ) : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-- On the stated domain an input word read as a signed integer is the bit it holds. -/
private theorem xR_apply (bits : IVec S1024x4096 32) (conn : IVec S2048x16 32) (h : PreOK bits conn) (b : Fin 1024) (t : Fin 4096) :
    xR bits (ix2 b t) = (((bitNat bits b t : ℕ) : ℝ) : EReal) := by
  have h1 : (bits (ix2 b t)).toNat ≤ 1 := h.1 b t
  unfold xR bitNat
  rw [BitVec.toInt_eq_toNat_of_lt (by omega), Int.cast_natCast]

private theorem wloR_apply (conn : IVec S2048x16 32) (t : Fin 4096) (n : Fin 2048) :
    wloR conn (ix2 t n) = (((Wnat conn t n % 256 : ℕ) : ℝ) : EReal) := rfl

private theorem whiR_apply (conn : IVec S2048x16 32) (t : Fin 4096) (n : Fin 2048) :
    whiR conn (ix2 t n) = (((Wnat conn t n / 256 : ℕ) : ℝ) : EReal) := rfl

/-! ## Rounding and conversion of a natural number -/

private theorem roundHalfEven_natCast (n : ℕ) : Ideal.roundHalfEven ((n : ℕ) : ℝ) = (n : ℤ) := by
  unfold Ideal.roundHalfEven
  simp only [Int.floor_natCast, Int.cast_natCast, sub_self]
  rw [if_pos (by norm_num)]

private theorem roundeven_nat (n : ℕ) :
    Ideal.liftRound Ideal.roundHalfEven (((n : ℕ) : ℝ) : EReal) = (((n : ℕ) : ℝ) : EReal) := by
  rw [Ideal.liftRound_coe, roundHalfEven_natCast, Int.cast_natCast]

private theorem fptosi_nat (n : ℕ) (hn : n < 2 ^ 31) : Ideal.fptosi 32 (((n : ℕ) : ℝ) : EReal) = BitVec.ofNat 32 n := by
  rw [Ideal.fptosi, Ideal.toIntClamped_coe, if_pos (Nat.cast_nonneg n), Int.floor_natCast]
  have h1 : min (((2 ^ (32 - 1) : ℕ) : ℤ) - 1) (n : ℤ) = (n : ℤ) := by
    apply min_eq_right; push_cast; omega
  have h2 : max (-((2 ^ (32 - 1) : ℕ) : ℤ)) (n : ℤ) = (n : ℤ) := by
    apply max_eq_right; push_cast; omega
  rw [h1, h2, BitVec.ofInt_natCast]

/-- The literal of the recombination is the real number 256. -/
private theorem c256 : Ideal.ofBits .f32 0x43800000#32 = ((256 : ℝ) : EReal) := by
  simp [Ideal.ofBits, Ideal.ieee, -EReal.coe_mul]; norm_num

/-- The last step's word where both accumulators hold natural numbers. -/
private theorem pay5_apply (v26 v28 : Vec Ideal S1024x256 .f32) (idx : S1024x256.Idx) (L H : ℕ)
    (hL : v26 idx = (((L : ℕ) : ℝ) : EReal)) (hH : v28 idx = (((H : ℕ) : ℝ) : EReal)) (hlt : L + 256 * H < 2 ^ 31) :
    k0_pay5 (F := Ideal) v26 v28 idx = BitVec.ofNat 32 (L + 256 * H) := by
  unfold k0_pay5
  show Ideal.fptosi 32 (Ideal.liftRound Ideal.roundHalfEven (v26 idx)
    + Ideal.ofBits .f32 0x43800000#32 * Ideal.liftRound Ideal.roundHalfEven (v28 idx)) = _
  rw [hL, hH, roundeven_nat, roundeven_nat, c256]
  have e : (((L : ℕ) : ℝ) : EReal) + ((256 : ℝ) : EReal) * (((H : ℕ) : ℝ) : EReal) = (((L + 256 * H : ℕ) : ℝ) : EReal) := by
    rw [← EReal.coe_mul, ← EReal.coe_add]; push_cast; rfl
  rw [e, fptosi_nat _ hlt]

/-! ## The arithmetic over the naturals -/

/-- The two byte planes recombine to the weight table. -/
private theorem recombine (bits : IVec S1024x4096 32) (conn : IVec S2048x16 32) (b : Fin 1024) (n : Fin 2048) :
    (∑ t : Fin 4096, bitNat bits b t * (Wnat conn t n % 256)) + 256 * (∑ t : Fin 4096, bitNat bits b t * (Wnat conn t n / 256))
      = ∑ t : Fin 4096, bitNat bits b t * Wnat conn t n := by
  rw [Finset.mul_sum, ← Finset.sum_add_distrib]
  refine Finset.sum_congr rfl fun t _ => ?_
  have := Nat.mod_add_div (Wnat conn t n) 256
  calc bitNat bits b t * (Wnat conn t n % 256) + 256 * (bitNat bits b t * (Wnat conn t n / 256))
      = bitNat bits b t * (Wnat conn t n % 256 + 256 * (Wnat conn t n / 256)) := by ring
    _ = bitNat bits b t * Wnat conn t n := by rw [this]

/-- Summing bit × weight over the inputs is summing `2^k` × wired bit over the connections. -/
private theorem regroup (bits : IVec S1024x4096 32) (conn : IVec S2048x16 32) (h : PreOK bits conn) (b : Fin 1024) (n : Fin 2048) :
    ∑ t : Fin 4096, bitNat bits b t * Wnat conn t n = addrNat bits conn b n := by
  unfold Wnat addrNat
  simp_rw [Finset.mul_sum]
  rw [Finset.sum_comm]
  refine Finset.sum_congr rfl fun k _ => ?_
  have hk : connNat conn n k < 4096 := h.2 n k
  rw [Finset.sum_eq_single (⟨connNat conn n k, hk⟩ : Fin 4096)]
  · rw [if_pos rfl, Nat.mul_comm]
    congr 2
    exact Fin.ext (Nat.mod_eq_of_lt hk).symm
  · intro t _ hne
    rw [if_neg (fun heq => hne (Fin.ext heq.symm)), Nat.mul_zero]
  · intro hn; exact absurd (Finset.mem_univ _) hn

/-- On the stated domain every address fits sixteen bits. -/
theorem addrNat_lt (bits : IVec S1024x4096 32) (conn : IVec S2048x16 32) (h : PreOK bits conn) (b : Fin 1024) (n : Fin 2048) :
    addrNat bits conn b n < 65536 := by
  unfold addrNat
  calc ∑ k : Fin 16, 2 ^ k.val * bitNat bits b ⟨connNat conn n k % 4096, Nat.mod_lt _ (by decide)⟩
      ≤ ∑ k : Fin 16, 2 ^ k.val * 1 := Finset.sum_le_sum fun k _ => Nat.mul_le_mul_left _ (h.1 b _)
    _ = 65535 := by decide
    _ < 65536 := by norm_num

/-- Region 0's array at the ideal instance, over the real readings of the bit matrix and the byte planes, is the address
    array as words. -/
theorem addrArr_eq (bits : IVec S1024x4096 32) (conn : IVec S2048x16 32) (h : PreOK bits conn) :
    addrArr (F := Ideal) (xR bits) (wloR conn) (whiR conn) = addrW bits conn := by
  funext j
  obtain ⟨b, n, rfl⟩ : ∃ (b : Fin 1024) (n : Fin 2048), j = ix2 b n := ⟨j 0, j 1, eq_ix2 j⟩
  have hL : accLo (xR bits) (wloR conn) ⟨n.val / 256, by have := n.isLt; omega⟩ 8 (ix2 b ⟨n.val % 256, Nat.mod_lt _ (by decide)⟩)
      = (((∑ t : Fin 4096, bitNat bits b t * (Wnat conn t n % 256) : ℕ) : ℝ) : EReal) := by
    rw [accLo_full, ← coe_nat_sum]
    refine Finset.sum_congr rfl fun t _ => ?_
    rw [xR_apply bits conn h, wloR_apply, coe_nat_mul]
  have hH : accHi (xR bits) (whiR conn) ⟨n.val / 256, by have := n.isLt; omega⟩ 8 (ix2 b ⟨n.val % 256, Nat.mod_lt _ (by decide)⟩)
      = (((∑ t : Fin 4096, bitNat bits b t * (Wnat conn t n / 256) : ℕ) : ℝ) : EReal) := by
    rw [accHi_full, ← coe_nat_sum]
    refine Finset.sum_congr rfl fun t _ => ?_
    rw [xR_apply bits conn h, whiR_apply, coe_nat_mul]
  have hsum := (recombine bits conn b n).trans (regroup bits conn h b n)
  have hlt : (∑ t : Fin 4096, bitNat bits b t * (Wnat conn t n % 256))
      + 256 * (∑ t : Fin 4096, bitNat bits b t * (Wnat conn t n / 256)) < 2 ^ 31 := by
    rw [hsum]; exact lt_trans (addrNat_lt bits conn h b n) (by norm_num)
  show k0_pay5 (F := Ideal) (accLo (xR bits) (wloR conn) ⟨n.val / 256, _⟩ 8) (accHi (xR bits) (whiR conn) ⟨n.val / 256, _⟩ 8)
      (ix2 b ⟨n.val % 256, _⟩) = BitVec.ofNat 32 (addrNat bits conn b n)
  rw [pay5_apply _ _ _ _ _ hL hH hlt, hsum]

end Cert.KernelIdeal.AddrMath
end
-- ==== Proof.KI.GatherMath.lean ====
import proofs.«419280_j21818433864468_2_alg».proof.Proof.KI.Spec
import Idealize.ShloMosaic.Lib.ValueIdx
import Idealize.ShloMosaic.Lib.ValueLayout
import Idealize.ShloMosaic.Lib.Pipeline.Value
import Idealize.ShloMosaic.PureOps.Ideal.Laws

/-!
# The two one-hot selections read one memory word's least significant bit

For an address `a < 65536` the one-hot row of `a / 256` times the 256 × 256 table of least significant bits is row `a / 256`
of that table, and its product with the one-hot row of `a % 256`, summed, is the entry at `(a / 256, a % 256)`: 0 or 1, which
rounding and the conversion to an integer leave alone.
-/

noncomputable section

open scoped BigOperators

namespace Cert.KernelIdeal.GatherMath

open Idealize.ShloMosaic Idealize.ShloMosaic.ValueIdx
open Cert.KernelIdeal Cert.KernelIdeal.Gen Cert.KernelIdeal.Spec

/-! ## Words -/

/-- An arithmetic right shift by eight of a word below 2^16 is the quotient by 256. -/
private theorem shrsi8_toNat (x : BitVec 32) (hx : x.toNat < 65536) :
    (IntOp.shrsi .vector x 8#32).toNat = x.toNat / 256 := by
  have hm : x.msb = false := by
    rw [BitVec.msb_eq_false_iff_two_mul_lt]; omega
  unfold IntOp.shrsi
  rw [if_pos (by decide), BitVec.sshiftRight_eq', BitVec.sshiftRight_eq_of_msb_false hm, BitVec.toNat_ushiftRight]
  show x.toNat >>> 8 = x.toNat / 256
  rw [Nat.shiftRight_eq_div_pow]

/-- The low eight bits of a word are its remainder by 256. -/
private theorem andi255_toNat (x : BitVec 32) : (IntOp.andi x 255#32).toNat = x.toNat % 256 := by
  unfold IntOp.andi
  rw [BitVec.toNat_and]
  exact Nat.and_two_pow_sub_one_eq_mod x.toNat 8

/-- The lowest bit of a word is the word 0 or the word 1. -/
private theorem and_one_cases (x : BitVec 32) : x &&& 1#32 = 0#32 ∨ x &&& 1#32 = 1#32 := by
  have h : (x &&& 1#32).toNat = x.toNat % 2 := by
    rw [BitVec.toNat_and]; exact Nat.and_two_pow_sub_one_eq_mod x.toNat 1
  rcases Nat.mod_two_eq_zero_or_one x.toNat with h0 | h1
  · left; apply BitVec.eq_of_toNat_eq; rw [h, h0]; rfl
  · right; apply BitVec.eq_of_toNat_eq; rw [h, h1]; rfl

/-- A comparison for equality, widened and converted, is the indicator of the equality. -/
private theorem onehot_word (φ : FTy) (a b : BitVec 32) :
    FloatOps.sitofp (F := Ideal) φ ((IntOp.cmpi .eq a b).setWidth 32) = if a = b then (1 : EReal) else 0 := by
  show (((((IntOp.cmpi .eq a b).setWidth 32).toInt : ℤ) : ℝ) : EReal) = _
  by_cases h : a = b
  · subst h
    rw [if_pos rfl]
    have : (IntOp.cmpi .eq a a).setWidth 32 = 1#32 := by simp [IntOp.cmpi]
    rw [this]; norm_num
  · rw [if_neg h]
    have hb : (a == b) = false := by simpa using h
    have : (IntOp.cmpi .eq a b).setWidth 32 = 0#32 := by simp [IntOp.cmpi, hb]
    rw [this]; norm_num

/-- Rounding an integer to the nearest even integer leaves it alone. -/
private theorem roundHalfEven_int (z : ℤ) : Ideal.roundHalfEven (z : ℝ) = z := by
  unfold Ideal.roundHalfEven; simp

/-- An integer in the 32-bit signed range converts to its own word. -/
private theorem fptosi_int (z : ℤ) (h1 : -2147483648 ≤ z) (h2 : z ≤ 2147483647) :
    Ideal.fptosi 32 (((z : ℝ)) : EReal) = BitVec.ofInt 32 z := by
  unfold Ideal.fptosi
  rw [Ideal.toIntClamped_coe]
  have hz : (if (0 : ℝ) ≤ (z : ℝ) then ⌊(z : ℝ)⌋ else ⌈(z : ℝ)⌉) = z := by split <;> simp
  have hlo : (-((2 ^ (32 - 1) : ℕ) : ℤ)) = -2147483648 := by norm_num
  have hhi : (((2 ^ (32 - 1) : ℕ) : ℤ) - 1) = 2147483647 := by norm_num
  rw [hz, hlo, hhi, min_eq_right h2, max_eq_right h1]

/-- Rounding to nearest even and converting back leaves the words 0 and 1 alone. -/
private theorem fptosi_roundeven_bit (u : BitVec 32) (hu : u = 0#32 ∨ u = 1#32) :
    FloatOps.fptosi (F := Ideal) (φ := .f32) 32 (FloatOps.roundeven (F := Ideal) (φ := .f32) (FloatOps.sitofp (F := Ideal) .f32 u)) = u := by
  show Ideal.fptosi 32 (Ideal.liftRound Ideal.roundHalfEven (((u.toInt : ℤ) : ℝ) : EReal)) = u
  rw [Ideal.liftRound_coe, roundHalfEven_int,
    fptosi_int _ (by rcases hu with rfl | rfl <;> decide) (by rcases hu with rfl | rfl <;> decide)]
  exact BitVec.ofInt_toInt

/-! ## Layout: the keepdims column, the lane sum's index, the batched product's operand indices -/

/-- An `[a, b]` array cast to `[a, b, 1]` reads, at `(i, j, u)`, the operand at `(i, j)`. -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of `(i, j)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index the sum over the last axis inserts its coordinate at. -/
private theorem lift_last (h : S8x256x256.Reduces [2] S8x256) (p : Fin 8) (q : Fin 256) (l : Fin 256) :
    h.lift (ix2 p q) l = ix3 p q l := by
  funext a
  match a with
  | ⟨0, _⟩ => exact Fin.ext rfl
  | ⟨1, _⟩ => exact Fin.ext rfl
  | ⟨2, _⟩ => exact Fin.ext rfl

/-! The batched product contracts the left operand's last axis with the right operand's middle axis; axis 0 is the batch. -/

private theorem lhs_axis0 (j : S8x256x256.Idx) (k : dot_S8x256x256_S8x256x256_S8x256x256_2_1_1_2_0_0.contr.Idx) :
    (dot_S8x256x256_S8x256x256_S8x256x256_2_1_1_2_0_0.lhsIdx j k 0).val = (j 0).val := by
  simp [DotDims.lhsIdx, dot_S8x256x256_S8x256x256_S8x256x256_2_1_1_2_0_0]
  rfl
private theorem lhs_axis1 (j : S8x256x256.Idx) (k : dot_S8x256x256_S8x256x256_S8x256x256_2_1_1_2_0_0.contr.Idx) :
    (dot_S8x256x256_S8x256x256_S8x256x256_2_1_1_2_0_0.lhsIdx j k 1).val = (j 1).val := by
  simp [DotDims.lhsIdx, dot_S8x256x256_S8x256x256_S8x256x256_2_1_1_2_0_0]
  rfl
private theorem lhs_axis2 (j : S8x256x256.Idx) (k : dot_S8x256x256_S8x256x256_S8x256x256_2_1_1_2_0_0.contr.Idx) :
    (dot_S8x256x256_S8x256x256_S8x256x256_2_1_1_2_0_0.lhsIdx j k 2).val = (k ⟨0, by decide⟩).val :=
  dot_S8x256x256_S8x256x256_S8x256x256_2_1_1_2_0_0.lhsIdx_val_of_single (cl := 2) rfl j k
private theorem rhs_axis0 (j : S8x256x256.Idx) (k : dot_S8x256x256_S8x256x256_S8x256x256_2_1_1_2_0_0.contr.Idx) :
    (dot_S8x256x256_S8x256x256_S8x256x256_2_1_1_2_0_0.rhsIdx j k 0).val = (j 0).val := by
  simp [DotDims.rhsIdx, dot_S8x256x256_S8x256x256_S8x256x256_2_1_1_2_0_0]
  rfl
private theorem rhs_axis1 (j : S8x256x256.Idx) (k : dot_S8x256x256_S8x256x256_S8x256x256_2_1_1_2_0_0.contr.Idx) :
    (dot_S8x256x256_S8x256x256_S8x256x256_2_1_1_2_0_0.rhsIdx j k 1).val = (k ⟨0, by decide⟩).val :=
  dot_S8x256x256_S8x256x256_S8x256x256_2_1_1_2_0_0.rhsIdx_val_of_single (cr := 1) rfl j k
private theorem rhs_axis2 (j : S8x256x256.Idx) (k : dot_S8x256x256_S8x256x256_S8x256x256_2_1_1_2_0_0.contr.Idx) :
    (dot_S8x256x256_S8x256x256_S8x256x256_2_1_1_2_0_0.rhsIdx j k 2).val = (j 2).val := by
  simp [DotDims.rhsIdx, dot_S8x256x256_S8x256x256_S8x256x256_2_1_1_2_0_0]
  rfl

/-- The batched product into the zero accumulator at `(p, q, l)`: the sum over the contracted coordinate `h` of
    the left operand at `(p, q, h)` times the right operand at `(p, h, l)`. -/
private theorem matmul_at (A : FVec Ideal S8x256x256 .bf16) (B : FVec Ideal S8x256x256 .bf16) (p : Fin 8) (q l : Fin 256) :
    FloatOps.matmul dot_S8x256x256_S8x256x256_S8x256x256_2_1_1_2_0_0 none A B
        (constant (F := Ideal) S8x256x256 .f32 0x00000000#32) (ix3 p q l)
      = ∑ h : Fin 256, A (ix3 p q h) * B (ix3 p h l) := by
  rw [Ideal.matmul_constant_zero_apply,
    ← Equiv.sum_comp (contrEquiv1 dot_S8x256x256_S8x256x256_S8x256x256_2_1_1_2_0_0 256 rfl rfl).symm]
  refine Finset.sum_congr rfl fun h _ => ?_
  have hl : dot_S8x256x256_S8x256x256_S8x256x256_2_1_1_2_0_0.lhsIdx (ix3 p q l)
      ((contrEquiv1 dot_S8x256x256_S8x256x256_S8x256x256_2_1_1_2_0_0 256 rfl rfl).symm h) = ix3 p q h := by
    funext a
    match a with
    | ⟨0, _⟩ => exact Fin.ext (lhs_axis0 _ _)
    | ⟨1, _⟩ => exact Fin.ext (lhs_axis1 _ _)
    | ⟨2, _⟩ => exact Fin.ext ((lhs_axis2 _ _).trans (contrEquiv1_symm_val _ 256 rfl rfl h))
  have hr : dot_S8x256x256_S8x256x256_S8x256x256_2_1_1_2_0_0.rhsIdx (ix3 p q l)
      ((contrEquiv1 dot_S8x256x256_S8x256x256_S8x256x256_2_1_1_2_0_0 256 rfl rfl).symm h) = ix3 p h l := by
    funext a
    match a with
    | ⟨0, _⟩ => exact Fin.ext (rhs_axis0 _ _)
    | ⟨1, _⟩ => exact Fin.ext ((rhs_axis1 _ _).trans (contrEquiv1_symm_val _ 256 rfl rfl h))
    | ⟨2, _⟩ => exact Fin.ext (rhs_axis2 _ _)
  rw [hl, hr]

/-- The sum over the last axis at `(p, q)`. -/
private theorem lanesum_at (X : FVec Ideal S8x256x256 .f32) (h : S8x256x256.Reduces [2] S8x256) (hφ : FKind.Formats FTy.f32)
    (hacc : (0x00000000#32 : BitVec FTy.f32.bits) = FKind.add.neutral .f32 hφ) (p : Fin 8) (q : Fin 256) :
    multiReduction (F := Ideal) .add [2] S8x256 X 0x00000000#32 h hφ hacc (ix2 p q) = ∑ l : Fin 256, X (ix3 p q l) := by
  rw [Ideal.multiReduction_add_single]
  exact Finset.sum_congr rfl fun l _ => congrArg X (lift_last h p q l)

/-! ## Selecting with an indicator row -/

private theorem sum_onehot_left {n : ℕ} (c : Fin n) (g : Fin n → EReal) :
    ∑ h : Fin n, (if c = h then (1 : EReal) else 0) * g h = g c := by
  rw [Finset.sum_eq_single c]
  · rw [if_pos rfl, one_mul]
  · intro b _ hb; rw [if_neg (fun e => hb e.symm), zero_mul]
  · intro hc; exact absurd (Finset.mem_univ c) hc

private theorem sum_onehot_right {n : ℕ} (c : Fin n) (g : Fin n → EReal) :
    ∑ h : Fin n, g h * (if c = h then (1 : EReal) else 0) = g c := by
  rw [Finset.sum_eq_single c]
  · rw [if_pos rfl, mul_one]
  · intro b _ hb; rw [if_neg (fun e => hb e.symm), mul_zero]
  · intro hc; exact absurd (Finset.mem_univ c) hc

/-- A word whose value is the coordinate `c` equals the word of the coordinate `h` exactly when `c = h`. -/
private theorem word_eq_ofNat_iff (a : BitVec 32) (c h : Fin 256) (hc : a.toNat = c.val) :
    a = BitVec.ofNat 32 h.val ↔ c = h := by
  constructor
  · intro e
    apply Fin.ext
    rw [← hc, e, BitVec.toNat_ofNat, Nat.mod_eq_of_lt (by have := h.isLt; omega)]
  · intro e
    subst e
    apply BitVec.eq_of_toNat_eq
    rw [BitVec.toNat_ofNat, Nat.mod_eq_of_lt (by have := c.isLt; omega), hc]

/-- The indicator plane of a word array along the last axis: at `(p, q, h)` it is 1 when the word at `(p, q)`, whose
    value is the coordinate `c`, is `h`, and 0 otherwise. -/
private theorem onehot_at (φ : FTy) (w : IVec S8x256 32) (hs : S8x256.ShapeCasts S8x256x1) (hb : S8x256x1.Broadcasts S8x256x256)
    (hi : S8x256x256.Iotas .tc 32 [2]) (h132 : 1 < 32) (p : Fin 8) (q h c : Fin 256) (hc : (w (ix2 p q)).toNat = c.val) :
    (sitofp (F := Ideal) φ (extui 32 (cmpi .eq (broadcastTo S8x256x256 (shapeCast S8x256x1 w hs) hb)
        (iota .tc S8x256x256 32 [2] hi)) h132) : FVec Ideal S8x256x256 φ) (ix3 p q h)
      = if c = h then (1 : EReal) else 0 := by
  have e1 : broadcastTo S8x256x256 (shapeCast S8x256x1 w hs) hb (ix3 p q h) = w (ix2 p q) := by
    rw [broadcastTo_ab1_abc_apply, shapeCast_ab_ab1_apply]
  have e2 : iota .tc S8x256x256 32 [2] hi (ix3 p q h) = BitVec.ofNat 32 h.val := by
    rw [iota_single_apply]
  show FloatOps.sitofp (F := Ideal) φ ((IntOp.cmpi .eq (broadcastTo S8x256x256 (shapeCast S8x256x1 w hs) hb (ix3 p q h))
      (iota .tc S8x256x256 32 [2] hi (ix3 p q h))).setWidth 32) = _
  rw [e1, e2, onehot_word]
  by_cases hch : c = h
  · rw [if_pos hch, if_pos ((word_eq_ofNat_iff _ c h hc).2 hch)]
  · rw [if_neg hch, if_neg (fun e => hch ((word_eq_ofNat_iff _ c h hc).1 e))]

/-! ## One block of region 1

The block's arithmetic, stage by stage: the plane of least significant bits, the two byte words of the address, the
indicator plane of a byte word, and the product-and-select plane whose lane sum is rounded and converted. -/

/-- The memory block's least significant bits, as reals. -/
private def lsbPlane (v0 : IVec S8x256x256 32) : FVec Ideal S8x256x256 .bf16 :=
  sitofp .bf16 (andi (shapeCast S8x256x256 v0 Facts₀.shapeCasts_S8x256x256_S8x256x256) (broadcast S8x256x256 1#32))
/-- The addresses' high bytes. -/
private def hiWord (v9 : IVec S8x256 32) : IVec S8x256 32 :=
  shrsi (shapeCast S8x256 v9 Facts₀.shapeCasts_S8x256_S8x256) (broadcast S8x256 8#32)
/-- The addresses' low bytes. -/
private def loWord (v9 : IVec S8x256 32) : IVec S8x256 32 :=
  andi (shapeCast S8x256 v9 Facts₀.shapeCasts_S8x256_S8x256) (broadcast S8x256 255#32)
/-- The indicator plane of a byte-word array along the last axis. -/
private def onehotPlane (w : IVec S8x256 32) : FVec Ideal S8x256x256 .f32 :=
  sitofp .f32 (extui 32 (cmpi .eq (broadcastTo S8x256x256 (shapeCast S8x256x1 w Facts₀.shapeCasts_S8x256_S8x256x1)
    Facts₀.broadcasts_S8x256x1_S8x256x256) (iota .tc S8x256x256 32 [2] Facts₀.iota_S8x256x256_d2_w32)) Facts₀.natLt_1_32)
/-- The selected row of bits times the low byte's indicator. -/
private def selPlane (v0 : IVec S8x256x256 32) (v9 : IVec S8x256 32) : FVec Ideal S8x256x256 .f32 :=
  mulf (matmul dot_S8x256x256_S8x256x256_S8x256x256_2_1_1_2_0_0 none
      (truncf .bf16 (onehotPlane (hiWord v9)) Facts₀.bitsLt_bf16_f32) (lsbPlane v0)
      (constant (F := Ideal) S8x256x256 .f32 0x00000000#32))
    (onehotPlane (loWord v9))

/-- The block's payload is the lane sum of the select plane, rounded and converted. -/
private theorem k1_pay1_eq (v0 : IVec S8x256x256 32) (v9 : IVec S8x256 32) :
    k1_pay1 (F := Ideal) v0 v9 = fun i =>
      FloatOps.fptosi (F := Ideal) (φ := .f32) 32 (FloatOps.roundeven (F := Ideal) (φ := .f32)
        (multiReduction (F := Ideal) .add [2] S8x256 (selPlane v0 v9) 0x00000000#32
          Facts₀.reduces_S8x256x256_S8x256 (.inl rfl) rfl i)) := rfl

private theorem lsbPlane_at (v0 : IVec S8x256x256 32) (p : Fin 8) (h l : Fin 256) :
    lsbPlane v0 (ix3 p h l) = FloatOps.sitofp (F := Ideal) .bf16 (v0 (ix3 p h l) &&& 1#32) := by
  unfold lsbPlane
  rw [shapeCast_self]
  rfl

private theorem hiWord_at (v9 : IVec S8x256 32) (hv9 : ∀ y, (v9 y).toNat < 65536) (p : Fin 8) (q : Fin 256) :
    (hiWord v9 (ix2 p q)).toNat = (v9 (ix2 p q)).toNat / 256 := by
  unfold hiWord
  rw [shapeCast_self]
  exact shrsi8_toNat _ (hv9 _)

private theorem loWord_at (v9 : IVec S8x256 32) (p : Fin 8) (q : Fin 256) :
    (loWord v9 (ix2 p q)).toNat = (v9 (ix2 p q)).toNat % 256 := by
  unfold loWord
  rw [shapeCast_self]
  exact andi255_toNat _

private theorem onehotPlane_at (w : IVec S8x256 32) (p : Fin 8) (q h c : Fin 256) (hc : (w (ix2 p q)).toNat = c.val) :
    onehotPlane w (ix3 p q h) = if c = h then (1 : EReal) else 0 :=
  onehot_at .f32 w _ _ _ _ p q h c hc

private theorem selPlane_at (v0 : IVec S8x256x256 32) (v9 : IVec S8x256 32) (p : Fin 8) (q l : Fin 256) :
    selPlane v0 v9 (ix3 p q l)
      = (∑ h : Fin 256, onehotPlane (hiWord v9) (ix3 p q h) * lsbPlane v0 (ix3 p h l)) * onehotPlane (loWord v9) (ix3 p q l) := by
  unfold selPlane
  rw [mulf_apply]
  congr 1
  exact matmul_at _ _ p q l

/-- The block's word at `(p, q)`: the least significant bit of the memory block's word at row `a / 256`, lane
    `a % 256` of neuron `p`, for the address `a` at `(p, q)`. -/
private theorem k1_pay1_at (v0 : IVec S8x256x256 32) (v9 : IVec S8x256 32) (hv9 : ∀ y, (v9 y).toNat < 65536)
    (p : Fin 8) (q : Fin 256) :
    k1_pay1 (F := Ideal) v0 v9 (ix2 p q)
      = (v0 (ix3 p ⟨(v9 (ix2 p q)).toNat / 256, by have := hv9 (ix2 p q); omega⟩
          ⟨(v9 (ix2 p q)).toNat % 256, Nat.mod_lt _ (by decide)⟩)) &&& 1#32 := by
  have hsum : multiReduction (F := Ideal) .add [2] S8x256 (selPlane v0 v9) 0x00000000#32
        Facts₀.reduces_S8x256x256_S8x256 (.inl rfl) rfl (ix2 p q)
      = FloatOps.sitofp (F := Ideal) .f32 ((v0 (ix3 p ⟨(v9 (ix2 p q)).toNat / 256, by have := hv9 (ix2 p q); omega⟩
          ⟨(v9 (ix2 p q)).toNat % 256, Nat.mod_lt _ (by decide)⟩)) &&& 1#32) := by
    refine (lanesum_at (selPlane v0 v9) _ _ _ p q).trans ?_
    have hterm : ∀ l : Fin 256, selPlane v0 v9 (ix3 p q l)
        = lsbPlane v0 (ix3 p ⟨(v9 (ix2 p q)).toNat / 256, by have := hv9 (ix2 p q); omega⟩ l)
          * (if (⟨(v9 (ix2 p q)).toNat % 256, Nat.mod_lt _ (by decide)⟩ : Fin 256) = l then (1 : EReal) else 0) := by
      intro l
      rw [selPlane_at]
      rw [onehotPlane_at (loWord v9) p q l ⟨(v9 (ix2 p q)).toNat % 256, Nat.mod_lt _ (by decide)⟩ (loWord_at v9 p q)]
      congr 1
      rw [Finset.sum_congr rfl fun h _ => by
        rw [onehotPlane_at (hiWord v9) p q h ⟨(v9 (ix2 p q)).toNat / 256, by have := hv9 (ix2 p q); omega⟩ (hiWord_at v9 hv9 p q)]]
      exact sum_onehot_left _ (fun h => lsbPlane v0 (ix3 p h l))
    rw [Finset.sum_congr rfl fun l _ => hterm l]
    rw [sum_onehot_right _ (fun l => lsbPlane v0 (ix3 p ⟨(v9 (ix2 p q)).toNat / 256, by have := hv9 (ix2 p q); omega⟩ l))]
    rw [lsbPlane_at]
    rfl
  rw [k1_pay1_eq]
  show FloatOps.fptosi (F := Ideal) (φ := .f32) 32 (FloatOps.roundeven (F := Ideal) (φ := .f32) _) = _
  rw [hsum]
  exact fptosi_roundeven_bit _ (and_one_cases _)

/-! ## The whole array -/

/-- Region 1's array at the ideal instance: at (neuron `n`, sample `b`) the least significant bit of the neuron's memory word
    at (high byte, low byte) of the address `a (n, b)`, when every address fits sixteen bits. -/
theorem gatherArr_eq (a : IVec S2048x1024 32) (mem3 : IVec S2048x256x256 32) (ha : ∀ j, (a j).toNat < 65536) :
    gatherArr (F := Ideal) a mem3 = fun j =>
      (mem3 (ix3 (n0 := 2048) (n1 := 256) (n2 := 256) ⟨(j 0).val, idx2_lt0 j⟩
        ⟨(a j).toNat / 256, by have := ha j; omega⟩ ⟨(a j).toNat % 256, Nat.mod_lt _ (by decide)⟩)) &&& 1#32 := by
  funext j
  have h0 := idx2_lt0 j
  have h1 := idx2_lt1 j
  -- the block's address slice at the residues is the array's address at `j`
  have hadr : addrchunk (F := Ideal) a ⟨(j 0).val / 8, by omega⟩ ⟨(j 1).val / 256, by omega⟩
      (ix2 (n0 := 8) (n1 := 256) ⟨(j 0).val % 8, Nat.mod_lt _ (by decide)⟩ ⟨(j 1).val % 256, Nat.mod_lt _ (by decide)⟩) = a j := by
    unfold addrchunk
    refine congrArg a ?_
    funext d
    match d with
    | ⟨0, _⟩ => exact Fin.ext (by show 8 * ((j 0).val / 8) + (j 0).val % 8 = (j 0).val; omega)
    | ⟨1, _⟩ => exact Fin.ext (by show 256 * ((j 1).val / 256) + (j 1).val % 256 = (j 1).val; omega)
  unfold gatherArr
  have hchunk : ∀ y, (addrchunk (F := Ideal) a ⟨(j 0).val / 8, by omega⟩ ⟨(j 1).val / 256, by omega⟩ y).toNat < 65536 :=
    fun y => ha _
  refine (k1_pay1_at _ _ hchunk _ _).trans ?_
  unfold memblk
  refine congrArg (· &&& 1#32) (congrArg mem3 ?_)
  funext d
  match d with
  | ⟨0, _⟩ => exact Fin.ext (by show 8 * ((j 0).val / 8) + (j 0).val % 8 = (j 0).val; omega)
  | ⟨1, _⟩ => exact Fin.ext (by
      show (addrchunk (F := Ideal) a _ _ _).toNat / 256 = (a j).toNat / 256
      rw [hadr])
  | ⟨2, _⟩ => exact Fin.ext (by
      show (addrchunk (F := Ideal) a _ _ _).toNat % 256 = (a j).toNat % 256
      rw [hadr])

end Cert.KernelIdeal.GatherMath

end
-- ==== Proof.KI.Layout.lean ====
import proofs.«419280_j21818433864468_2_alg».proof.Proof.Gen.KernelIdeal
import Idealize.ShloMosaic.Lib.ValueIdx
import Idealize.ShloMosaic.Lib.ValueLayout
import Idealize.ShloMosaic.Lib.Pipeline.Value

/-!
# The host's layout operations between the regions, read at an index

The address array is transposed before the lookup and the lookup array transposed back; the memory table is reshaped from
2048 × 65536 to 2048 × 256 × 256 in row-major order, so word (n, h, l) is word (n, 256·h + l).
-/

noncomputable section

namespace Cert.KernelIdeal.Layout

open Idealize.ShloMosaic Idealize.ShloMosaic.ValueIdx
open Cert.KernelIdeal Cert.KernelIdeal.Gen

variable {α : Type}

/-- The transposed address array at (neuron, sample) is the address array at (sample, neuron). -/
theorem transpose_to_neuron_major (a : S1024x2048.Idx → α) (n : Fin 2048) (b : Fin 1024) :
    transpose S2048x1024 [1, 0] a transposes_S1024x2048_S2048x1024_1_0 (ix2 n b) = a (ix2 b n) :=
  transpose_ix2_apply a transposes_S1024x2048_S2048x1024_1_0 n b

/-- The lookup array transposed back: at (sample, neuron) it is the lookup array at (neuron, sample). -/
theorem transpose_to_sample_major (a : S2048x1024.Idx → α) (b : Fin 1024) (n : Fin 2048) :
    transpose S1024x2048 [1, 0] a transposes_S2048x1024_S1024x2048_1_0 (ix2 b n) = a (ix2 n b) :=
  transpose_ix2_apply a transposes_S2048x1024_S1024x2048_1_0 b n

/-- The reshaped memory table at (neuron, high byte, low byte) is the table at (neuron, 256·high + low). -/
theorem reshape_memory (mem : S2048x65536.Idx → α) (n : Fin 2048) (h l : Fin 256) :
    shapeCast S2048x256x256 mem shapeCasts_S2048x65536_S2048x256x256 (ix3 n h l)
      = mem (ix2 (n0 := 2048) (n1 := 65536) n ⟨256 * h.val + l.val, by have := h.isLt; have := l.isLt; omega⟩) := by
  -- a reshape keeps the row-major position: n·65536 + (256·h + l) = (n·256 + h)·256 + l
  refine shapeCast_apply mem shapeCasts_S2048x65536_S2048x256x256 (ix3 n h l) _ ?_
  rw [Shape.rowMajor_val_two, Shape.rowMajor_val_three]
  show n.val * 65536 + (256 * h.val + l.val) = (n.val * 256 + h.val) * 256 + l.val
  omega

end Cert.KernelIdeal.Layout

end
-- ==== Proof.KI.Value.lean ====
import proofs.«419280_j21818433864468_2_alg».proof.Proof.KI.Run
import proofs.«419280_j21818433864468_2_alg».proof.Proof.KI.Final0
import proofs.«419280_j21818433864468_2_alg».proof.Proof.KI.HostW
import proofs.«419280_j21818433864468_2_alg».proof.Proof.KI.AddrMath
import proofs.«419280_j21818433864468_2_alg».proof.Proof.KI.GatherMath
import proofs.«419280_j21818433864468_2_alg».proof.Proof.KI.Layout
import Idealize.ShloMosaic.Lib.StableHlo.Run

/-!
# The kernel program's result at the ideal instance is the specification

The result array is the last host stretch's comparison with zero of the transposed lookup array; the lookup array is
region 1's of the transposed address array and the reshaped memory table; the address array is region 0's of the three
operand arrays the first host stretch computes. Each link is read at an index and the chain collapses to: the memory word
of neuron `n` at the address of (sample `b`, neuron `n`) is odd.
-/

noncomputable section

open scoped BigOperators

namespace Cert.KernelIdeal.Value

open Idealize.ShloMosaic Idealize.ShloMosaic.TcCoe Idealize.SL.Sem Idealize.ShloMosaic.ValueIdx
open Cert.KernelIdeal Cert.KernelIdeal.Gen Cert.KernelIdeal.Spec

variable (m : (ℓ : Loc nD τ sig) → Buf (Elt Ideal) ℓ)

/-! ## The three host-stretch links, as terms of the arrays the regions leave -/

section Links

variable (outs : Gen.Outs (F := Ideal))

/-- Region 1's first operand is the transpose of what region 0 left. -/
theorem V3_v33 (c : Dev nD) :
    (Gen.V3 m outs c main_v33 : IVec S2048x1024 32)
      = transpose S2048x1024 [1, 0] (outs 2 main_v32 c : IVec S1024x2048 32) transposes_S1024x2048_S2048x1024_1_0 := by
  have e : Gen.V2 m outs c (Proc.devRef .tc main_v32) = outs 2 main_v32 c := Function.update_self _ _ _
  show StableHlo.after hostOps1 (Gen.V2 m outs c) (Proc.devRef .tc main_v33) = _
  after_results
  rw [e]

/-- Region 1's second operand is the memory table read as 256 × 256 words per neuron. -/
theorem V3_v34 (c : Dev nD) :
    (Gen.V3 m outs c main_v34 : IVec S2048x256x256 32)
      = shapeCast S2048x256x256 (m ((c : Thread nD τ).loc main_arg2) : IVec S2048x65536 32) shapeCasts_S2048x65536_S2048x256x256 := by
  have e : Gen.V2 m outs c (Proc.devRef .tc main_arg2) = m ((c : Thread nD τ).loc main_arg2) :=
    (Gen.V2_of m outs c main_arg2 (by decide)).trans ((Gen.V1_of m c main_arg2 (by decide)).trans rfl)
  show StableHlo.after hostOps1 (Gen.V2 m outs c) (Proc.devRef .tc main_v34) = _
  after_results
  rw [e]
  rfl

/-- The result array is the comparison with zero of the transpose of what region 1 left. -/
theorem V5_v39 (c : Dev nD) :
    (Gen.V5 m outs c main_v39 : IVec S1024x2048 1)
      = cmpi .ne (transpose S1024x2048 [1, 0] (outs 4 main_v35 c : IVec S2048x1024 32) transposes_S2048x1024_S1024x2048_1_0)
          (broadcastInDim S1024x2048 ![] bcast_S_S1024x2048 (constantI S_ 32 0#32)) := by
  have e : Gen.V4 m outs c (Proc.devRef .tc main_v35) = outs 4 main_v35 c := Function.update_self _ _ _
  show StableHlo.after hostOps2 (Gen.V4 m outs c) (Proc.devRef .tc main_v39) = _
  after_results
  rw [e]
  rfl

end Links

/-! ## The layout operations and the specification read at an index -/

theorem addrW_apply (bits : IVec S1024x4096 32) (conn : IVec S2048x16 32) (b : Fin 1024) (n : Fin 2048) :
    addrW bits conn (ix2 b n) = BitVec.ofNat 32 (addrNat bits conn b n) := rfl

theorem outSpec_apply (bits : IVec S1024x4096 32) (conn : IVec S2048x16 32) (mem : IVec S2048x65536 32) (b : Fin 1024) (n : Fin 2048) :
    outSpec bits conn mem (ix2 b n)
      = if (mem (ix2 n ⟨addrNat bits conn b n % 65536, Nat.mod_lt _ (by decide)⟩)) &&& 1#32 = 0#32 then 0#1 else 1#1 := rfl

/-- The same table word from equal coordinates. -/
theorem word_congr (mem : IVec S2048x65536 32) (n n' : Fin 2048) (x y : Fin 65536) (hn : n'.val = n.val) (hxy : x.val = y.val) :
    mem (ix2 n' x) = mem (ix2 n y) := by
  obtain rfl : n' = n := Fin.ext hn
  obtain rfl : x = y := Fin.ext hxy
  rfl

/-- Comparing a word with zero for inequality gives the one-bit word of "is not zero". -/
theorem cmp_ne_zero (w : BitVec 32) : IntOp.cmpi .ne w 0#32 = if w = 0#32 then 0#1 else 1#1 := by
  unfold IntOp.cmpi
  by_cases h : w = 0#32
  · rw [if_pos h, h]; rfl
  · rw [if_neg h]
    show BitVec.ofBool (w != 0#32) = 1#1
    rw [bne_iff_ne.mpr h]; rfl

/-! ## The chain collapsed at an index -/

/-- The comparison with zero of the transposed lookup array of the transposed address words and the reshaped memory table
    is the specification. -/
theorem cmp_gather_eq (bits : IVec S1024x4096 32) (conn : IVec S2048x16 32) (mem : IVec S2048x65536 32)
    (hpre : PreOK bits conn) :
    cmpi .ne
        (transpose S1024x2048 [1, 0]
          (gatherArr (F := Ideal)
            (transpose S2048x1024 [1, 0] (addrW bits conn) transposes_S1024x2048_S2048x1024_1_0)
            (shapeCast S2048x256x256 mem shapeCasts_S2048x65536_S2048x256x256))
          transposes_S2048x1024_S1024x2048_1_0)
        (broadcastInDim S1024x2048 ![] bcast_S_S1024x2048 (constantI S_ 32 0#32))
      = outSpec bits conn mem := by
  -- the transposed address words are the addresses, each below 65536
  have ha : ∀ (n : Fin 2048) (b : Fin 1024),
      (transpose S2048x1024 [1, 0] (addrW bits conn) transposes_S1024x2048_S2048x1024_1_0 (ix2 n b)).toNat
        = addrNat bits conn b n := by
    intro n b
    rw [Layout.transpose_to_neuron_major, addrW_apply, BitVec.toNat_ofNat]
    exact Nat.mod_eq_of_lt (lt_trans (AddrMath.addrNat_lt bits conn hpre b n) (by decide))
  have ha' : ∀ j, (transpose S2048x1024 [1, 0] (addrW bits conn) transposes_S1024x2048_S2048x1024_1_0 j).toNat < 65536 := by
    intro j
    obtain ⟨n, b, rfl⟩ : ∃ (n : Fin 2048) (b : Fin 1024), j = ix2 n b := ⟨j 0, j 1, eq_ix2 j⟩
    rw [ha]
    exact AddrMath.addrNat_lt bits conn hpre _ _
  rw [GatherMath.gatherArr_eq _ _ ha']
  funext j
  obtain ⟨b, n, rfl⟩ : ∃ (b : Fin 1024) (n : Fin 2048), j = ix2 b n := ⟨j 0, j 1, eq_ix2 j⟩
  rw [outSpec_apply]
  show IntOp.cmpi .ne (transpose S1024x2048 [1, 0] _ transposes_S2048x1024_S1024x2048_1_0 (ix2 b n)) 0#32 = _
  rw [Layout.transpose_to_sample_major, Layout.reshape_memory, cmp_ne_zero]
  refine congrArg (fun w : BitVec 32 => if w &&& 1#32 = 0#32 then (0#1 : BitVec 1) else 1#1) (word_congr mem _ _ _ _ rfl ?_)
  show 256 * (_ / 256) + _ % 256 = addrNat bits conn b n % 65536
  rw [ha n b, Nat.mod_eq_of_lt (AddrMath.addrNat_lt bits conn hpre b n)]
  omega

/-! ## The regions' arrays on the stated domain -/

/-- Region 0 leaves the address words. -/
theorem outs2_eq (c : Dev nD)
    (hpre : PreOK (m ((c : Thread nD τ).loc main_arg0)) (m ((c : Thread nD τ).loc main_arg1))) :
    (Run.outs m 2 main_v32 c : IVec S1024x2048 32)
      = addrW (m ((c : Thread nD τ).loc main_arg0)) (m ((c : Thread nD τ).loc main_arg1)) := by
  rw [Run.outs2 m c, R0.final0 (Run.VV1 m) c]
  show addrArr (F := Ideal) (Gen.V1 m c main_v31) (Gen.V1 m c main_v27) (Gen.V1 m c main_v30) = _
  rw [HostW.V1_x m c, HostW.V1_wlo m c hpre.2, HostW.V1_whi m c hpre.2]
  exact AddrMath.addrArr_eq _ _ hpre

/-- Region 1 leaves the lookup array of the transposed address words and the reshaped memory table. -/
theorem outs4_eq (c : Dev nD)
    (hpre : PreOK (m ((c : Thread nD τ).loc main_arg0)) (m ((c : Thread nD τ).loc main_arg1))) :
    (Run.outs m 4 main_v35 c : IVec S2048x1024 32)
      = gatherArr (F := Ideal)
          (transpose S2048x1024 [1, 0] (addrW (m ((c : Thread nD τ).loc main_arg0)) (m ((c : Thread nD τ).loc main_arg1)))
            transposes_S1024x2048_S2048x1024_1_0)
          (shapeCast S2048x256x256 (m ((c : Thread nD τ).loc main_arg2) : IVec S2048x65536 32) shapeCasts_S2048x65536_S2048x256x256) := by
  rw [Run.outs4 m c, R1.final1 (Run.VV3 m) c]
  show gatherArr (F := Ideal) (Gen.V3 m (Run.outs m) c main_v33) (Gen.V3 m (Run.outs m) c main_v34) = _
  rw [V3_v33 m (Run.outs m) c, V3_v34 m (Run.outs m) c, outs2_eq m c hpre]

/-- On the stated domain the result array the run names is the specification of the three argument arrays. -/
theorem Vout_eq (c : Dev nD)
    (hpre : PreOK (m ((c : Thread nD τ).loc main_arg0)) (m ((c : Thread nD τ).loc main_arg1))) :
    Gen.V5 m (Run.outs m) c main_v39
      = outSpec (m ((c : Thread nD τ).loc main_arg0)) (m ((c : Thread nD τ).loc main_arg1)) (m ((c : Thread nD τ).loc main_arg2)) := by
  refine (V5_v39 m (Run.outs m) c).trans ?_
  rw [outs4_eq m c hpre]
  exact cmp_gather_eq _ _ _ hpre

end Cert.KernelIdeal.Value

end
-- ==== Proof.KI.PreDecode.lean ====
import proofs.«419280_j21818433864468_2_alg».proof.Defs
import proofs.«419280_j21818433864468_2_alg».proof.Proof.Gen.Pre_any_inputs
import proofs.«419280_j21818433864468_2_alg».proof.Proof.KI.Spec
import Idealize.ShloMosaic.Lib.ValueIdx
import Idealize.ShloMosaic.Lib.ReduceAll
import Idealize.ShloMosaic.Lib.StableHlo.Predicate

/-!
# The precondition, decoded

The printed predicate is the conjunction of two all-reductions: every input word is between 0 and 1 (signed), every connection
between 0 and 4095 (signed). Read as naturals: every input is at most 1 and every connection below 4096.
-/

noncomputable section

open scoped BigOperators

namespace Cert.KernelIdeal.PreDecode

open Idealize.ShloMosaic Idealize.ShloMosaic.ValueIdx
open Cert.KernelIdeal Cert.KernelIdeal.Spec

/-- The result of an all-reduction has a single index. -/
private instance subsingleton_scalar_idx : Subsingleton Cert.Pre_any_inputs.S_.Idx :=
  ⟨fun a b => funext fun d => d.elim0⟩

/-- A 32-bit word that reads non-negative as a signed integer reads the same signed and unsigned. -/
private theorem toInt_eq_toNat_of_nonneg {x : BitVec 32} (h0 : 0 ≤ x.toInt) : x.toInt = (x.toNat : ℤ) := by
  have hx := x.isLt
  have e := BitVec.toInt_eq_toNat_cond x
  by_cases hc : 2 * x.toNat < 2 ^ 32
  · rw [if_pos hc] at e; exact e
  · rw [if_neg hc] at e; omega

/-- Signed between 0 and 1: as a natural number at most 1. -/
private theorem toNat_le_one_of_signed {x : BitVec 32} (h0 : (0#32 : BitVec 32).toInt ≤ x.toInt)
    (h1 : x.toInt ≤ (1#32 : BitVec 32).toInt) : x.toNat ≤ 1 := by
  have e0 : (0#32 : BitVec 32).toInt = 0 := by decide
  have e1 : (1#32 : BitVec 32).toInt = 1 := by decide
  rw [e0] at h0; rw [e1] at h1
  have e := toInt_eq_toNat_of_nonneg h0
  omega

/-- Signed at least 0 and below 4096: as a natural number below 4096. -/
private theorem toNat_lt_of_signed {x : BitVec 32} (h0 : (0#32 : BitVec 32).toInt ≤ x.toInt)
    (h1 : x.toInt < (4096#32 : BitVec 32).toInt) : x.toNat < 4096 := by
  have e0 : (0#32 : BitVec 32).toInt = 0 := by decide
  have e1 : (4096#32 : BitVec 32).toInt = 4096 := by decide
  rw [e0] at h0; rw [e1] at h1
  have e := toInt_eq_toNat_of_nonneg h0
  omega

/-- Where the printed precondition is all ones, the inputs are bits and the connections index the 4096 inputs. -/
theorem pre_ok {F : FTy → Type} [FloatOps F] (bits : IVec S1024x4096 32) (conn : IVec S2048x16 32) (mem : IVec S2048x65536 32)
    (h : Cert.Pre_any_inputs.fn (F := F) bits conn mem = fun _ => 1#1) : PreOK bits conn := by
  -- the predicate at its one index: a conjunction of two all-reductions
  have h0 := congrFun h ValueIdx.ix0
  dsimp only [Cert.Pre_any_inputs.fn] at h0
  obtain ⟨hb, hc⟩ := IntOp.andi_eq_one.1 h0
  -- each all-reduction that is 1 met a 1 at every index
  have hbi := fun i => Host.reduce_andi_all _ _ _ _ _ hb i
  have hci := fun i => Host.reduce_andi_all _ _ _ _ _ hc i
  refine ⟨fun b t => ?_, fun n k => ?_⟩
  · -- an input word: 0 ≤ x and x ≤ 1, signed
    obtain ⟨h1, h2⟩ := IntOp.andi_eq_one.1 (hbi (ix2 b t))
    have h1' : IntOp.cmpi .sge (bits (ix2 b t)) 0#32 = 1#1 := h1
    have h2' : IntOp.cmpi .sle (bits (ix2 b t)) 1#32 = 1#1 := h2
    exact toNat_le_one_of_signed (IntOp.cmpi_sge.1 h1') (IntOp.cmpi_sle.1 h2')
  · -- a connection: 0 ≤ c and c < 4096, signed
    obtain ⟨h1, h2⟩ := IntOp.andi_eq_one.1 (hci (ix2 n k))
    have h1' : IntOp.cmpi .sge (conn (ix2 n k)) 0#32 = 1#1 := h1
    have h2' : IntOp.cmpi .slt (conn (ix2 n k)) 4096#32 = 1#1 := h2
    exact toNat_lt_of_signed (IntOp.cmpi_sge.1 h1') (IntOp.cmpi_slt.1 h2')

end Cert.KernelIdeal.PreDecode

end
-- ==== Proof.Ref.RefValue.lean ====
import proofs.«419280_j21818433864468_2_alg».proof.Defs
import proofs.«419280_j21818433864468_2_alg».proof.Proof.Gen.ReferenceIdeal
import proofs.«419280_j21818433864468_2_alg».proof.Proof.KI.Spec
import proofs.«419280_j21818433864468_2_alg».proof.Proof.Ref.RunP
import proofs.«419280_j21818433864468_2_alg».proof.Proof.Ref.ReadP
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Reduce

/-!
# The reference program's run and its result as the specification

The reference gathers each neuron's 16 wired bits, weights them by powers of two, sums them to an address, gathers the
neuron's memory word at that address and tests its least significant bit. On the stated domain no index is out of range,
so the gathers' clamping and the negative-index wrap are the identity.
-/

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen
open Cert.KernelIdeal.Spec (PreOK outSpec addrNat bitNat connNat)

/-! ## The two gathers read at an index -/

/-- The bit gather read at (sample, neuron, connection). -/
private theorem gather_bits_apply (x : IVec S1024x4096 32) (idx : IVec S2048x16x1 32) (b : Fin 1024) (n : Fin 2048) (k : Fin 16) :
    Host.gather gather_S1024x4096_S2048x16x1_S1024x2048x16_0_1_n_n_1_2_10241 x idx (ix3 b n k)
      = x (ix2 b ⟨min (idx (ix3 n k (0 : Fin 1))).toInt.toNat 4095, by omega⟩) := by
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show GatherDims.start _ _ idx 1 + GatherDims.batchCoord _ _ 1 + GatherDims.offCoord _ _ 1 = _
    rw [GatherDims.batchCoord_eq_zero _ _ _ List.not_mem_nil]
    rw [GatherDims.offCoord_eq_zero _ _ _ (by decide)]
    unfold GatherDims.start
    rw [dif_pos (by decide)]
    simp only [Nat.add_zero]
    have hsi : GatherDims.siIdx gather_S1024x4096_S2048x16x1_S1024x2048x16_0_1_n_n_1_2_10241 (ix3 b n k)
        ⟨List.idxOf (1 : Fin 2) gather_S1024x4096_S2048x16x1_S1024x2048x16_0_1_n_n_1_2_10241.startIndexMap,
          List.idxOf_lt_length_iff.2 (by decide)⟩ = ix3 n k (0 : Fin 1) := by
      funext c; refine Fin.ext ?_
      match c with
      | ⟨0, _⟩ => rfl
      | ⟨1, _⟩ => rfl
      | ⟨2, _⟩ => rfl
    rw [hsi]
    rfl

/-- The memory gather read at (sample, neuron). -/
private theorem gather_mem_apply (x : IVec S2048x65536 32) (idx : IVec S1024x2048x2 32) (b : Fin 1024) (n : Fin 2048) :
    Host.gather gather_S2048x65536_S1024x2048x2_S1024x2048_n_01_n_n_01_2_11 x idx (ix2 b n)
      = x (ix2 (⟨min (idx (ix3 b n (0 : Fin 2))).toInt.toNat 2047, by omega⟩ : Fin 2048)
               (⟨min (idx (ix3 b n (1 : Fin 2))).toInt.toNat 65535, by omega⟩ : Fin 65536)) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil]
    rw [GatherDims.offCoord_eq_zero _ _ _ (by decide)]
    unfold GatherDims.start
    rw [dif_pos (by decide)]
    simp only [Nat.add_zero]
    have hsi : GatherDims.siIdx gather_S2048x65536_S1024x2048x2_S1024x2048_n_01_n_n_01_2_11 (ix2 b n)
        ⟨List.idxOf (0 : Fin 2) gather_S2048x65536_S1024x2048x2_S1024x2048_n_01_n_n_01_2_11.startIndexMap,
          List.idxOf_lt_length_iff.2 (by decide)⟩ = ix3 b n (0 : Fin 2) := by
      funext c; refine Fin.ext ?_
      match c with
      | ⟨0, _⟩ => rfl
      | ⟨1, _⟩ => rfl
      | ⟨2, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    rw [GatherDims.offCoord_eq_zero _ _ _ (by decide)]
    unfold GatherDims.start
    rw [dif_pos (by decide)]
    simp only [Nat.add_zero]
    have hsi : GatherDims.siIdx gather_S2048x65536_S1024x2048x2_S1024x2048_n_01_n_n_01_2_11 (ix2 b n)
        ⟨List.idxOf (1 : Fin 2) gather_S2048x65536_S1024x2048x2_S1024x2048_n_01_n_n_01_2_11.startIndexMap,
          List.idxOf_lt_length_iff.2 (by decide)⟩ = ix3 b n (1 : Fin 2) := by
      funext c; refine Fin.ext ?_
      match c with
      | ⟨0, _⟩ => rfl
      | ⟨1, _⟩ => rfl
      | ⟨2, _⟩ => rfl
    rw [hsi]
    rfl

/-- A fold by addition of words that are the images of naturals is the image of the naturals' sum. -/
private theorem fold_addi_ofNat {ι : Type} [DecidableEq ι] (s : Finset ι) (f : ι → ℕ) :
    s.fold (IntOp.addi (w := 32)) (0#32) (fun k => BitVec.ofNat 32 (f k)) = BitVec.ofNat 32 (∑ k ∈ s, f k) := by
  induction s using Finset.induction_on with
  | empty => simp
  | insert a s ha ih =>
    rw [Finset.fold_insert ha, Finset.sum_insert ha, ih]
    simp [IntOp.addi, BitVec.ofNat_add]

/-- Sixteen bits weighted by the powers of two stay below 2^16. -/
private theorem sum_pow_le (f : Fin 16 → ℕ) (hf : ∀ k, f k ≤ 1) : ∑ k : Fin 16, 2 ^ k.val * f k < 65536 := by
  have h1 : ∑ k : Fin 16, 2 ^ k.val * f k ≤ ∑ k : Fin 16, 2 ^ k.val * 1 :=
    Finset.sum_le_sum fun k _ => Nat.mul_le_mul_left _ (hf k)
  have h2 : ∑ k : Fin 16, 2 ^ k.val * 1 = 65535 := by decide
  omega

/-! ## The address sum and the concatenate, read at an index -/

private theorem reduces_addr : S1024x2048x16.Reduces [2] S1024x2048 := by decide

/-- The sum over the connection axis at (sample, neuron): the fold of the sixteen terms from the initial word. -/
private theorem reduce_addr_apply (x : IVec S1024x2048x16 32) (init : IVec S_ 32) (b : Fin 1024) (n : Fin 2048) :
    Host.reduce IntOp.addi x init reducesTo_S1024x2048x16_S1024x2048_d2 h_S_ (ix2 b n)
      = (Finset.univ : Finset (Fin 16)).fold IntOp.addi (init (Shape.Idx.first h_S_)) (fun k => x (ix3 b n k)) := by
  rw [Host.reduce_eq_fold_single IntOp.addi x init _ reduces_addr h_S_ (ix2 b n)]
  show Finset.fold IntOp.addi _ (fun k : Fin 16 => x (reduces_addr.lift (ix2 b n) k)) Finset.univ = _
  congr 1
  funext k
  congr 1
  funext c
  refine Fin.ext ?_
  show reduces_addr.liftVal (ix2 b n) k.val c = (ix3 b n k c).val
  unfold Shape.Reduces.liftVal
  match c with
  | ⟨0, _⟩ => rfl
  | ⟨1, _⟩ => rfl
  | ⟨2, _⟩ => rfl

/-- The joined index array at component 0 is its first piece. -/
private theorem concat_apply0 (x₁ x₂ : IVec S1024x2048x1 32) (b : Fin 1024) (n : Fin 2048) :
    concatenate S1024x2048x2 2 [⟨S1024x2048x1, x₁⟩, ⟨S1024x2048x1, x₂⟩] concatenates_S1024x2048x1_S1024x2048x1_S1024x2048x2_d2
      (ix3 b n (0 : Fin 2)) = x₁ (ix3 b n (0 : Fin 1)) :=
  concatenate_pair_apply_left (t := S1024x2048x2) (s₁ := S1024x2048x1) (s₂ := S1024x2048x1) 2 x₁ x₂ _ (ix3 b n (0 : Fin 2)) rfl
    (ix3 b n (0 : Fin 1)) (fun c => match c with
    | ⟨0, _⟩ => rfl
    | ⟨1, _⟩ => rfl
    | ⟨2, _⟩ => rfl)

/-- The joined index array at component 1 is its second piece. -/
private theorem concat_apply1 (x₁ x₂ : IVec S1024x2048x1 32) (b : Fin 1024) (n : Fin 2048) :
    concatenate S1024x2048x2 2 [⟨S1024x2048x1, x₁⟩, ⟨S1024x2048x1, x₂⟩] concatenates_S1024x2048x1_S1024x2048x1_S1024x2048x2_d2
      (ix3 b n (1 : Fin 2)) = x₂ (ix3 b n (0 : Fin 1)) :=
  concatenate_pair_apply_right (t := S1024x2048x2) (s₁ := S1024x2048x1) (s₂ := S1024x2048x1) 2 x₁ x₂ _ (ix3 b n (1 : Fin 2)) rfl rfl
    (ix3 b n (0 : Fin 1)) (fun c => match c with
    | ⟨0, _⟩ => fun _ => rfl
    | ⟨1, _⟩ => fun _ => rfl
    | ⟨2, _⟩ => fun h => absurd rfl h) rfl

/-! ## Words: a small word is not negative, and its signed reading is itself -/

private theorem cmpi_slt_zero (x : BitVec 32) (h : x.toNat < 2147483648) : IntOp.cmpi .slt x 0#32 = 0#1 := by
  have hs : x.slt 0#32 = false := by
    simp only [BitVec.slt, BitVec.toInt_eq_toNat_cond]
    simp; omega
  simp [IntOp.cmpi, hs]

private theorem toInt_toNat_small (x : BitVec 32) (h : x.toNat < 2147483648) : x.toInt.toNat = x.toNat := by
  rw [BitVec.toInt_eq_toNat_cond]; split <;> omega

private theorem muli_ofNat (x : BitVec 32) (m : ℕ) : IntOp.muli x (BitVec.ofNat 32 m) = BitVec.ofNat 32 (m * x.toNat) := by
  apply BitVec.eq_of_toNat_eq
  simp [IntOp.muli, BitVec.toNat_mul, Nat.mul_comm, Nat.mul_mod]

private theorem shli_one (k : Fin 16) : IntOp.shli .host 1#32 (BitVec.ofNat 32 k.val) = BitVec.ofNat 32 (2 ^ k.val) := by
  revert k; decide

private theorem cmpi_ne_zero (x : BitVec 32) : IntOp.cmpi .ne x 0#32 = if x = 0#32 then 0#1 else 1#1 := by
  show BitVec.ofBool (x != 0#32) = _
  by_cases h : x = 0#32
  · simp [h]
  · rw [if_neg h, (bne_iff_ne.mpr h : (x != 0#32) = true)]
    rfl

/-! ## The stages at an index, on the stated domain -/

section Stages

variable (x0 : IVec S1024x4096 32) (x1 : IVec S2048x16 32) (x2 : IVec S2048x65536 32)

/-- A connection below 4096 is not wrapped. -/
private theorem v4_apply (n : Fin 2048) (k : Fin 16) (h : (x1 (ix2 n k)).toNat < 4096) :
    ReadP.val_main_v4 (F := Ideal) x1 (ix2 n k) = x1 (ix2 n k) := by
  rw [ReadP.val_main_v4_apply, ReadP.val_main_v1_apply, ReadP.val_main_v0_apply, ReadP.val_main_c_apply,
    cmpi_slt_zero _ (by omega), select_zero]

private theorem v5_apply (n : Fin 2048) (k : Fin 16) (h : (x1 (ix2 n k)).toNat < 4096) :
    ReadP.val_main_v5 (F := Ideal) x1 (ix3 n k (0 : Fin 1)) = x1 (ix2 n k) := by
  rw [ReadP.val_main_v5_apply]
  have hi : ReadP.idx_main_v5 (ix3 n k (0 : Fin 1)) = ix2 n k := by
    funext a; match a with | ⟨0, _⟩ => rfl | ⟨1, _⟩ => rfl
  rw [hi, v4_apply x1 n k h]

/-- The gathered bit of (sample, neuron, connection) is the input bit the connection names. -/
private theorem v6_apply (b : Fin 1024) (n : Fin 2048) (k : Fin 16) (h : (x1 (ix2 n k)).toNat < 4096) :
    ReadP.val_main_v6 (F := Ideal) x0 x1 (ix3 b n k)
      = x0 (ix2 b (⟨(x1 (ix2 n k)).toNat % 4096, Nat.mod_lt _ (by decide)⟩ : Fin 4096)) := by
  unfold ReadP.val_main_v6
  rw [gather_bits_apply]
  congr 1
  congr 1
  refine Fin.ext ?_
  show min (ReadP.val_main_v5 (F := Ideal) x1 (ix3 n k (0 : Fin 1))).toInt.toNat 4095 = (x1 (ix2 n k)).toNat % 4096
  rw [v5_apply x1 n k h, toInt_toNat_small _ (by omega)]
  omega

/-- The weight of connection `k` is `2^k`. -/
private theorem v11_apply (b : Fin 1024) (n : Fin 2048) (k : Fin 16) :
    ReadP.val_main_v11 (F := Ideal) (ix3 b n k) = BitVec.ofNat 32 (2 ^ k.val) := by
  rw [ReadP.val_main_v11_apply, ReadP.val_main_v10_apply, ReadP.val_main_v9_apply, ReadP.val_main_v8_apply,
    ReadP.val_main_c_1_apply, ReadP.val_main_v7_apply]
  exact shli_one k

private theorem v12_apply (b : Fin 1024) (n : Fin 2048) (k : Fin 16) (h : (x1 (ix2 n k)).toNat < 4096) :
    ReadP.val_main_v12 (F := Ideal) x0 x1 (ix3 b n k)
      = BitVec.ofNat 32 (2 ^ k.val * bitNat x0 b ⟨connNat x1 n k % 4096, Nat.mod_lt _ (by decide)⟩) := by
  rw [ReadP.val_main_v12_apply, v6_apply x0 x1 b n k h, v11_apply, muli_ofNat]
  rfl

end Stages

section Stages2

variable (x0 : IVec S1024x4096 32) (x1 : IVec S2048x16 32) (x2 : IVec S2048x65536 32)

/-- The address of (sample, neuron): the sum of the sixteen weighted bits, as a word. -/
private theorem v13_apply (b : Fin 1024) (n : Fin 2048) (h : ∀ k : Fin 16, (x1 (ix2 n k)).toNat < 4096) :
    ReadP.val_main_v13 (F := Ideal) x0 x1 (ix2 b n) = BitVec.ofNat 32 (addrNat x0 x1 b n) := by
  unfold ReadP.val_main_v13
  rw [reduce_addr_apply]
  have hf : (fun k : Fin 16 => ReadP.val_main_v12 (F := Ideal) x0 x1 (ix3 b n k))
      = fun k : Fin 16 => BitVec.ofNat 32 (2 ^ k.val * bitNat x0 b ⟨connNat x1 n k % 4096, Nat.mod_lt _ (by decide)⟩) :=
    funext fun k => v12_apply x0 x1 b n k (h k)
  rw [hf]
  show Finset.fold IntOp.addi 0#32 _ _ = _
  rw [fold_addi_ofNat]
  rfl

/-- An address below 65536 is not wrapped. -/
private theorem v25_apply (b : Fin 1024) (n : Fin 2048) (h : ∀ k : Fin 16, (x1 (ix2 n k)).toNat < 4096)
    (ha : addrNat x0 x1 b n < 65536) :
    ReadP.val_main_v25 (F := Ideal) x0 x1 (ix2 b n) = BitVec.ofNat 32 (addrNat x0 x1 b n) := by
  rw [ReadP.val_main_v25_apply, ReadP.val_main_v22_apply, ReadP.val_main_v21_apply, ReadP.val_main_c_5_apply,
    v13_apply x0 x1 b n h, cmpi_slt_zero _ (by rw [BitVec.toNat_ofNat]; omega), select_zero]

/-- The row number of neuron `n` is not wrapped. -/
private theorem v20_apply (n : Fin 2048) :
    ReadP.val_main_v20 (F := Ideal) (ix2 (0 : Fin 1) n) = BitVec.ofNat 32 n.val := by
  have h15 : ReadP.val_main_v15 (F := Ideal) (ix2 (0 : Fin 1) n) = BitVec.ofNat 32 n.val := by
    rw [ReadP.val_main_v15_apply, ReadP.val_main_v14_apply]
  rw [ReadP.val_main_v20_apply, ReadP.val_main_v17_apply, ReadP.val_main_v16_apply, ReadP.val_main_c_3_apply, h15,
    cmpi_slt_zero _ (by rw [BitVec.toNat_ofNat]; have := n.isLt; omega), select_zero]

private theorem v27_apply (b : Fin 1024) (n : Fin 2048) :
    ReadP.val_main_v27 (F := Ideal) (ix3 b n (0 : Fin 1)) = BitVec.ofNat 32 n.val := by
  rw [ReadP.val_main_v27_apply, ReadP.val_main_v26_apply]
  have hi : ReadP.idx_main_v26 (ReadP.idx_main_v27 (ix3 b n (0 : Fin 1))) = ix2 (0 : Fin 1) n := by
    funext a; match a with | ⟨0, _⟩ => rfl | ⟨1, _⟩ => rfl
  rw [hi, v20_apply]

private theorem v28_apply (b : Fin 1024) (n : Fin 2048) (h : ∀ k : Fin 16, (x1 (ix2 n k)).toNat < 4096)
    (ha : addrNat x0 x1 b n < 65536) :
    ReadP.val_main_v28 (F := Ideal) x0 x1 (ix3 b n (0 : Fin 1)) = BitVec.ofNat 32 (addrNat x0 x1 b n) := by
  rw [ReadP.val_main_v28_apply]
  have hi : ReadP.idx_main_v28 (ix3 b n (0 : Fin 1)) = ix2 b n := by
    funext a; match a with | ⟨0, _⟩ => rfl | ⟨1, _⟩ => rfl
  rw [hi, v25_apply x0 x1 b n h ha]

/-- The memory word gathered for (sample, neuron) is the neuron's word at the address. -/
private theorem v30_apply (b : Fin 1024) (n : Fin 2048) (h : ∀ k : Fin 16, (x1 (ix2 n k)).toNat < 4096)
    (ha : addrNat x0 x1 b n < 65536) :
    ReadP.val_main_v30 (F := Ideal) x0 x1 x2 (ix2 b n)
      = x2 (ix2 n (⟨addrNat x0 x1 b n % 65536, Nat.mod_lt _ (by decide)⟩ : Fin 65536)) := by
  unfold ReadP.val_main_v30
  rw [gather_mem_apply]
  have h0 : ReadP.val_main_v29 (F := Ideal) x0 x1 (ix3 b n (0 : Fin 2)) = BitVec.ofNat 32 n.val := by
    unfold ReadP.val_main_v29
    rw [concat_apply0, v27_apply]
  have h1 : ReadP.val_main_v29 (F := Ideal) x0 x1 (ix3 b n (1 : Fin 2)) = BitVec.ofNat 32 (addrNat x0 x1 b n) := by
    unfold ReadP.val_main_v29
    rw [concat_apply1, v28_apply x0 x1 b n h ha]
  have e0 : (⟨min (ReadP.val_main_v29 (F := Ideal) x0 x1 (ix3 b n (0 : Fin 2))).toInt.toNat 2047, by omega⟩ : Fin 2048) = n := by
    refine Fin.ext ?_
    show min (ReadP.val_main_v29 (F := Ideal) x0 x1 (ix3 b n (0 : Fin 2))).toInt.toNat 2047 = n.val
    rw [h0, toInt_toNat_small _ (by rw [BitVec.toNat_ofNat]; have := n.isLt; omega), BitVec.toNat_ofNat]
    have := n.isLt; omega
  have e1 : (⟨min (ReadP.val_main_v29 (F := Ideal) x0 x1 (ix3 b n (1 : Fin 2))).toInt.toNat 65535, by omega⟩ : Fin 65536)
      = ⟨addrNat x0 x1 b n % 65536, Nat.mod_lt _ (by decide)⟩ := by
    refine Fin.ext ?_
    show min (ReadP.val_main_v29 (F := Ideal) x0 x1 (ix3 b n (1 : Fin 2))).toInt.toNat 65535 = addrNat x0 x1 b n % 65536
    rw [h1, toInt_toNat_small _ (by rw [BitVec.toNat_ofNat]; omega), BitVec.toNat_ofNat]
    omega
  rw [e0, e1]

/-- On the stated domain the reference's last stage is the specification. -/
private theorem val35_eq_outSpec (h : PreOK x0 x1) : ReadP.val_main_v35 (F := Ideal) x0 x1 x2 = outSpec x0 x1 x2 := by
  funext j
  obtain ⟨b, n, rfl⟩ : ∃ (b : Fin 1024) (n : Fin 2048), j = ix2 b n := ⟨j 0, j 1, eq_ix2 j⟩
  have hc : ∀ k : Fin 16, (x1 (ix2 n k)).toNat < 4096 := fun k => h.2 n k
  have ha : addrNat x0 x1 b n < 65536 := sum_pow_le _ (fun k => h.1 b _)
  rw [ReadP.val_main_v35_apply, ReadP.val_main_v34_apply, ReadP.val_main_v32_apply, ReadP.val_main_v33_apply,
    ReadP.val_main_c_8_apply, ReadP.val_main_v31_apply, ReadP.val_main_c_7_apply, v30_apply x0 x1 x2 b n hc ha, cmpi_ne_zero]
  rfl

end Stages2

/-! ## The run -/

variable (m : (ℓ : Loc nD τ sig) → Buf (Elt Ideal) ℓ) (ρ : Dev nD → PrngReg)

/-- The reference terminates, faults nowhere and leaves its arguments as launched (no precondition needed). -/
theorem ref_frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (ValueP.run (F := Ideal) m ρ)

/-- On the stated domain the reference's result array is the specification of its three argument arrays. -/
theorem ref_run (hpre : ∀ c : Dev nD, PreOK (m ((c.tc : Thread nD τ).loc main_arg0)) (m ((c.tc : Thread nD τ).loc main_arg1))) :
    θ_run defs (onTc (τ := τ) (main (F := Ideal))) ⟨m, fun _ => 0, ρ⟩ (fun r => ∀ c : Dev nD,
      r.2.mem ((c.tc : Thread nD τ).loc main_v35)
        = outSpec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1.trans (ReadP.val_main_v35_eq (F := Ideal) _ _ _)).trans
      (val35_eq_outSpec _ _ _ (hpre c)), (h c).2⟩) (ValueP.run (F := Ideal) m ρ)

end Cert.ReferenceIdeal.RefValue

end
-- ==== Proof.lean ====
/-
  The certificate of the RAM-layer lookup kernel against its jnp reference: three frames, the (empty) idealization
  ledger, and the equality of the two idealized programs' results.

  The kernel program computes, per (sample b, neuron n), the address  Σ_k 2^k · bit(b, connection k of n)  as a dense
  product of the bit matrix with a weight table the host scatter-adds from the connections (split in two byte planes so
  that every factor is a small integer), and then selects the least significant bit of the neuron's memory word at that
  address by two one-hot products. The reference gathers the wired bits, sums them weighted, and gathers the word. On the
  stated domain — inputs are bits, connections index the 4096 inputs — both are the function `Spec.outSpec` of the three
  argument arrays: the kernel side by the run of its two regions (their arrays in closed form) and arithmetic over the
  reals where every quantity is an integer; the reference side by reading its operations at an index, no gather out of
  range. The frames need no precondition: no control or address depends on a value.
-/
import proofs.«419280_j21818433864468_2_alg».proof.Defs
import proofs.«419280_j21818433864468_2_alg».proof.Proof.Gen.Kernel
import proofs.«419280_j21818433864468_2_alg».proof.Proof.Gen.KernelIdeal
import proofs.«419280_j21818433864468_2_alg».proof.Proof.Gen.ReferenceIdeal
import proofs.«419280_j21818433864468_2_alg».proof.Proof.Gen.Pre_any_inputs
import proofs.«419280_j21818433864468_2_alg».proof.Proof.K.Run
import proofs.«419280_j21818433864468_2_alg».proof.Proof.KI.Run
import proofs.«419280_j21818433864468_2_alg».proof.Proof.KI.Value
import proofs.«419280_j21818433864468_2_alg».proof.Proof.KI.PreDecode
import proofs.«419280_j21818433864468_2_alg».proof.Proof.Ref.RefValue
import Idealize.ShloMosaic.Adequacy
import Idealize.ShloMosaic.Init

noncomputable section

namespace Cert.Proof

open Idealize.ShloMosaic Idealize.SL.Sem

/-- The word-level program runs to the end and leaves its arguments as launched: its run with the result dropped. -/
theorem frame_k : Cert.frame_Kernel := fun m ρ _ =>
  (θ_run Cert.Kernel.defs _ _).mono (fun _ h c => (h c).2) (Cert.Kernel.Run.run_main (F := Bits) m ρ)

/-- The idealized program likewise. -/
theorem frame_ki : Cert.frame_KernelIdeal := fun m ρ _ =>
  (θ_run Cert.KernelIdeal.defs _ _).mono (fun _ h c => (h c).2) (Cert.KernelIdeal.Run.run_main (F := Ideal) m ρ)

/-- The reference is host operations only. -/
theorem frame_ri : Cert.frame_ReferenceIdeal := fun m ρ _ => Cert.ReferenceIdeal.RefValue.ref_frame m ρ

/-- Both programs end at the specification of their argument arrays, which agree. -/
theorem algebraic : Cert.algebraic_KernelIdeal_ReferenceIdeal := by
  intro m ρ m' ρ' hpre hagree
  have hok : ∀ c : Dev Cert.KernelIdeal.nD, Cert.KernelIdeal.Spec.PreOK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
    fun c => Cert.KernelIdeal.PreDecode.pre_ok _ _ _ (hpre c)
  refine ⟨fun c => Cert.KernelIdeal.Spec.outSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Value.Vout_eq m c (hok c)), (h c).2⟩)
      (Cert.KernelIdeal.Run.run_main (F := Ideal) m ρ)
  · have hok' : ∀ c : Dev Cert.ReferenceIdeal.nD, Cert.KernelIdeal.Spec.PreOK
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) := by
      intro c; rw [(hagree c).1, (hagree c).2.1]; exact hok c
    refine (θ_run Cert.ReferenceIdeal.defs _ _).mono (fun _ h c => ⟨?_, (h c).2⟩)
      (Cert.ReferenceIdeal.RefValue.ref_run m' ρ' hok')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
